-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x300 : Shape := ⟨2, ![131072, 300]⟩
abbrev S131072x18 : Shape := ⟨2, ![131072, 18]⟩
abbrev S384x18 : Shape := ⟨2, ![384, 18]⟩
abbrev S300x64 : Shape := ⟨2, ![300, 64]⟩
abbrev S64 : Shape := ⟨1, ![64]⟩
abbrev S64x32 : Shape := ⟨2, ![64, 32]⟩
abbrev S32 : Shape := ⟨1, ![32]⟩
abbrev S32x18 : Shape := ⟨2, ![32, 18]⟩
abbrev S18 : Shape := ⟨1, ![18]⟩
abbrev S131072x32 : Shape := ⟨2, ![131072, 32]⟩
abbrev S_ : Shape := ⟨0, ![]⟩

class Facts : Prop where
  bcast_S_S131072x300 : S_.BroadcastsInDim S131072x300 (![] : Fin 0 → Fin S131072x300.rank)
  reducesTo_S131072x300_S_d0_1 : S131072x300.ReducesTo [0, 1] S_
  h_S_ : 0 < S_.numel
  bcast_S_S131072x18 : S_.BroadcastsInDim S131072x18 (![] : Fin 0 → Fin S131072x18.rank)
  reducesTo_S131072x18_S_d0_1 : S131072x18.ReducesTo [0, 1] S_
  bcast_S_S384x18 : S_.BroadcastsInDim S384x18 (![] : Fin 0 → Fin S384x18.rank)
  reducesTo_S384x18_S_d0_1 : S384x18.ReducesTo [0, 1] S_
  bcast_S_S300x64 : S_.BroadcastsInDim S300x64 (![] : Fin 0 → Fin S300x64.rank)
  reducesTo_S300x64_S_d0_1 : S300x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x18 : S_.BroadcastsInDim S32x18 (![] : Fin 0 → Fin S32x18.rank)
  reducesTo_S32x18_S_d0_1 : S32x18.ReducesTo [0, 1] S_
  bcast_S_S18 : S_.BroadcastsInDim S18 (![] : Fin 0 → Fin S18.rank)
  reducesTo_S18_S_d0 : S18.ReducesTo [0] S_
  bcast_S_S131072x32 : S_.BroadcastsInDim S131072x32 (![] : Fin 0 → Fin S131072x32.rank)
  reducesTo_S131072x32_S_d0_1 : S131072x32.ReducesTo [0, 1] S_

variable [Facts]

def fn_part3 {F : FTy → Type} [FloatOps F] (main_arg10 : IVec S131072x32 32) (main_v48 : IVec S_ 1) (main_v50 : IVec S131072x32 1) : IVec S_ 1 :=
  let main_c_19 : IVec S_ 32 := constantI S_ 32 384#32
  let main_v51 : IVec S131072x32 32 := broadcastInDim S131072x32 ![] bcast_S_S131072x32 main_c_19
  let main_v52 : IVec S131072x32 1 := cmpi .slt main_arg10 main_v51
  let main_v53 : IVec S131072x32 1 := andi main_v50 main_v52
  let main_c_20 : IVec S_ 1 := constantI S_ 1 1#1
  let main_v54 : IVec S_ 1 := (fun x v => Host.reduce IntOp.andi x v reducesTo_S131072x32_S_d0_1 h_S_) main_v53 main_c_20
  let main_v55 : IVec S_ 1 := andi main_v48 main_v54
  main_v55

def fn_part2 {F : FTy → Type} [FloatOps F] (main_arg7 : FVec F S32 .f32) (main_arg8 : FVec F S32x18 .f32) (main_arg9 : FVec F S18 .f32) (main_arg10 : IVec S131072x32 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x18 .f32 := Host.absf main_arg8
  let main_cst_14 : FVec F S_ .f32 := constant S_ .f32 0x7F800000#32
  let main_v40 : FVec F S32x18 .f32 := broadcastInDim S32x18 ![] bcast_S_S32x18 main_cst_14
  let main_v41 : IVec S32x18 1 := cmpf .olt main_v39 main_v40
  let main_c_15 : IVec S_ 1 := constantI S_ 1 1#1
  let main_v42 : IVec S_ 1 := (fun x v => Host.reduce IntOp.andi x v reducesTo_S32x18_S_d0_1 h_S_) main_v41 main_c_15
  let main_v43 : IVec S_ 1 := andi main_v38 main_v42
  let main_v44 : FVec F S18 .f32 := Host.absf main_arg9
  let main_cst_16 : FVec F S_ .f32 := constant S_ .f32 0x7F800000#32
  let main_v45 : FVec F S18 .f32 := broadcastInDim S18 ![] bcast_S_S18 main_cst_16
  let main_v46 : IVec S18 1 := cmpf .olt main_v44 main_v45
  let main_c_17 : IVec S_ 1 := constantI S_ 1 1#1
  let main_v47 : IVec S_ 1 := (fun x v => Host.reduce IntOp.andi x v reducesTo_S18_S_d0 h_S_) main_v46 main_c_17
  let main_v48 : IVec S_ 1 := andi main_v43 main_v47
  let main_c_18 : IVec S_ 32 := constantI S_ 32 0#32
  let main_v49 : IVec S131072x32 32 := broadcastInDim S131072x32 ![] bcast_S_S131072x32 main_c_18
  let main_v50 : IVec S131072x32 1 := cmpi .sge main_arg10 main_v49
  fn_part3 (F := F) main_arg10 main_v48 main_v50

def fn_part1 {F : FTy → Type} [FloatOps F] (main_arg4 : FVec F S300x64 .f32) (main_arg5 : FVec F S64 .f32) (main_arg6 : FVec F S64x32 .f32) (main_arg7 : FVec F S32 .f32) (main_arg8 : FVec F S32x18 .f32) (main_arg9 : FVec F S18 .f32) (main_arg10 : IVec S131072x32 32) (main_v13 : IVec S_ 1) (main_v16 : IVec S384x18 1) : IVec S_ 1 :=
  let main_c_5 : IVec S_ 1 := constantI S_ 1 1#1
  let main_v17 : IVec S_ 1 := (fun x v => Host.reduce IntOp.andi x v reducesTo_S384x18_S_d0_1 h_S_) main_v16 main_c_5
  let main_v18 : IVec S_ 1 := andi main_v13 main_v17
  let main_v19 : FVec F S300x64 .f32 := Host.absf main_arg4
  let main_cst_6 : FVec F S_ .f32 := constant S_ .f32 0x7F800000#32
  let main_v20 : FVec F S300x64 .f32 := broadcastInDim S300x64 ![] bcast_S_S300x64 main_cst_6
  let main_v21 : IVec S300x64 1 := cmpf .olt main_v19 main_v20
  let main_c_7 : IVec S_ 1 := constantI S_ 1 1#1
  let main_v22 : IVec S_ 1 := (fun x v => Host.reduce IntOp.andi x v reducesTo_S300x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x300 .f32) (main_arg1 : FVec F S131072x18 .f32) (main_arg2 : FVec F S131072x18 .f32) (main_arg3 : FVec F S384x18 .f32) (main_arg4 : FVec F S300x64 .f32) (main_arg5 : FVec F S64 .f32) (main_arg6 : FVec F S64x32 .f32) (main_arg7 : FVec F S32 .f32) (main_arg8 : FVec F S32x18 .f32) (main_arg9 : FVec F S18 .f32) (main_arg10 : IVec S131072x32 32) : IVec S_ 1 :=
  let main_v0 : FVec F S131072x300 .f32 := Host.absf main_arg0
  let main_cst : FVec F S_ .f32 := constant S_ .f32 0x7F800000#32
  let main_v1 : FVec F S131072x300 .f32 := broadcastInDim S131072x300 ![] bcast_S_S131072x300 main_cst
  let main_v2 : IVec S131072x300 1 := cmpf .olt main_v0 main_v1
  let main_c : IVec S_ 1 := constantI S_ 1 1#1
  let main_v3 : IVec S_ 1 := (fun x v => Host.reduce IntOp.andi x v reducesTo_S131072x300_S_d0_1 h_S_) main_v2 main_c
  let main_v4 : FVec F S131072x18 .f32 := Host.absf main_arg1
  let main_cst_0 : FVec F S_ .f32 := constant S_ .f32 0x7F800000#32
  let main_v5 : FVec F S131072x18 .f32 := broadcastInDim S131072x18 ![] bcast_S_S131072x18 main_cst_0
  let main_v6 : IVec S131072x18 1 := cmpf .olt main_v4 main_v5
  let main_c_1 : IVec S_ 1 := constantI S_ 1 1#1
  let main_v7 : IVec S_ 1 := (fun x v => Host.reduce IntOp.andi x v reducesTo_S131072x18_S_d0_1 h_S_) main_v6 main_c_1
  let main_v8 : IVec S_ 1 := andi main_v3 main_v7
  let main_v9 : FVec F S131072x18 .f32 := Host.absf main_arg2
  let main_cst_2 : FVec F S_ .f32 := constant S_ .f32 0x7F800000#32
  let main_v10 : FVec F S131072x18 .f32 := broadcastInDim S131072x18 ![] bcast_S_S131072x18 main_cst_2
  let main_v11 : IVec S131072x18 1 := cmpf .olt main_v9 main_v10
  let main_c_3 : IVec S_ 1 := constantI S_ 1 1#1
  let main_v12 : IVec S_ 1 := (fun x v => Host.reduce IntOp.andi x v reducesTo_S131072x18_S_d0_1 h_S_) main_v11 main_c_3
  let main_v13 : IVec S_ 1 := andi main_v8 main_v12
  let main_v14 : FVec F S384x18 .f32 := Host.absf main_arg3
  let main_cst_4 : FVec F S_ .f32 := constant S_ .f32 0x7F800000#32
  let main_v15 : FVec F S384x18 .f32 := broadcastInDim S384x18 ![] bcast_S_S384x18 main_cst_4
  let main_v16 : IVec S384x18 1 := cmpf .olt main_v14 main_v15
  fn_part1 (F := F) main_arg4 main_arg5 main_arg6 main_arg7 main_arg8 main_arg9 main_arg10 main_v13 main_v16
-- ==== Kernel.lean ====
abbrev S131072x300 : Shape := ⟨2, ![131072, 300]⟩
abbrev S131072x18 : Shape := ⟨2, ![131072, 18]⟩
abbrev S384x18 : Shape := ⟨2, ![384, 18]⟩
abbrev S300x64 : Shape := ⟨2, ![300, 64]⟩
abbrev S64 : Shape := ⟨1, ![64]⟩
abbrev S64x32 : Shape := ⟨2, ![64, 32]⟩
abbrev S32 : Shape := ⟨1, ![32]⟩
abbrev S32x18 : Shape := ⟨2, ![32, 18]⟩
abbrev S18 : Shape := ⟨1, ![18]⟩
abbrev S131072x32 : Shape := ⟨2, ![131072, 32]⟩
abbrev S1x64 : Shape := ⟨2, ![1, 64]⟩
abbrev S1x32 : Shape := ⟨2, ![1, 32]⟩
abbrev S1x18 : Shape := ⟨2, ![1, 18]⟩
abbrev S1x1 : Shape := ⟨2, ![1, 1]⟩
abbrev S2048x300 : Shape := ⟨2, ![2048, 300]⟩
abbrev S2048x18 : Shape := ⟨2, ![2048, 18]⟩
abbrev S2048x32 : Shape := ⟨2, ![2048, 32]⟩
abbrev S2048x64 : Shape := ⟨2, ![2048, 64]⟩
abbrev S2048 : Shape := ⟨1, ![2048]⟩
abbrev S2048x1 : Shape := ⟨2, ![2048, 1]⟩
abbrev S2048x384 : Shape := ⟨2, ![2048, 384]⟩
abbrev S1 : Shape := ⟨1, ![1]⟩
abbrev S_ : Shape := ⟨0, ![]⟩

abbrev nBuf : Space → Nat
  | .hbm => 17
  | .vmem => 20
  | .smem => 0
  | _ => 0

abbrev bufTy : (tb : Table) → Fin (tcTables nBuf tb) → BufTy
  | .hbm, ⟨0, _⟩ => ⟨S131072x300, .f32⟩
  | .hbm, ⟨1, _⟩ => ⟨S131072x18, .f32⟩
  | .hbm, ⟨2, _⟩ => ⟨S131072x18, .f32⟩
  | .hbm, ⟨3, _⟩ => ⟨S384x18, .f32⟩
  | .hbm, ⟨4, _⟩ => ⟨S300x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x18, .f32⟩
  | .hbm, ⟨9, _⟩ => ⟨S18, .f32⟩
  | .hbm, ⟨10, _⟩ => ⟨S131072x32, .i32⟩
  | .hbm, ⟨11, _⟩ => ⟨S1x64, .f32⟩
  | .hbm, ⟨12, _⟩ => ⟨S1x32, .f32⟩
  | .hbm, ⟨13, _⟩ => ⟨S1x18, .f32⟩
  | .hbm, ⟨14, _⟩ => ⟨S131072x18, .f32⟩
  | .hbm, ⟨15, _⟩ => ⟨S1x1, .f32⟩
  | .hbm, ⟨16, _⟩ => ⟨S_, .f32⟩
  | .local _ .vmem, ⟨0, _⟩ => ⟨S2048x300, .f32⟩
  | .local _ .vmem, ⟨1, _⟩ => ⟨S2048x300, .f32⟩
  | .local _ .vmem, ⟨2, _⟩ => ⟨S2048x18, .f32⟩
  | .local _ .vmem, ⟨3, _⟩ => ⟨S2048x18, .f32⟩
  | .local _ .vmem, ⟨4, _⟩ => ⟨S2048x18, .f32⟩
  | .local _ .vmem, ⟨5, _⟩ => ⟨S2048x18, .f32⟩
  | .local _ .vmem, ⟨6, _⟩ => ⟨S2048x32, .i32⟩
  | .local _ .vmem, ⟨7, _⟩ => ⟨S2048x32, .i32⟩
  | .local _ .vmem, ⟨8, _⟩ => ⟨S384x18, .f32⟩
  | .local _ .vmem, ⟨9, _⟩ => ⟨S300x64, .f32⟩
  | .local _ .vmem, ⟨10, _⟩ => ⟨S1x64, .f32⟩
  | .local _ .vmem, ⟨11, _⟩ => ⟨S64x32, .f32⟩
  | .local _ .vmem, ⟨12, _⟩ => ⟨S1x32, .f32⟩
  | .local _ .vmem, ⟨13, _⟩ => ⟨S32x18, .f32⟩
  | .local _ .vmem, ⟨14, _⟩ => ⟨S1x18, .f32⟩
  | .local _ .vmem, ⟨15, _⟩ => ⟨S2048x18, .f32⟩
  | .local _ .vmem, ⟨16, _⟩ => ⟨S2048x18, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | _, _ => ⟨S131072x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1073 : BitVec 1 := Scalar.cmpi .eq arg0 c63_i32
  let v1074 : BitVec 32 := Scalar.extui v1073
  let c0_i32_299 : BitVec 32 := 0#32
  let v1075 : BitVec 1 := Scalar.cmpi .ne v1074 c0_i32_299
  v1075

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x18 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x18 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x18 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x18 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  shapeCasts_S64_S1x64 : S64.ShapeCasts S1x64
  shapeCasts_S32_S1x32 : S32.ShapeCasts S1x32
  shapeCasts_S18_S1x18 : S18.ShapeCasts S1x18
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x300_S2048x300_0_0 : ∀ a, (![0, 0] : Fin 2 → Nat) a + S2048x300.size a ≤ S2048x300.size a
  h_S2048x300 : 0 < S2048x300.numel
  bitsLt_bf16_f32 : FTy.bits .bf16 < FTy.bits .f32
  inb_S300x64_S300x64_0_0 : ∀ a, (![0, 0] : Fin 2 → Nat) a + S300x64.size a ≤ S300x64.size a
  h_S300x64 : 0 < S300x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x18_S32x18_0_0 : ∀ a, (![0, 0] : Fin 2 → Nat) a + S32x18.size a ≤ S32x18.size a
  h_S32x18 : 0 < S32x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S2048x18 : S1x18.Broadcasts S2048x18
  inb_S2048x18_S2048x18_0_0 : ∀ a, (![0, 0] : Fin 2 → Nat) a + S2048x18.size a ≤ S2048x18.size a
  h_S2048x18 : 0 < S2048x18.numel
  reduces_S2048x18_S2048 : S2048x18.Reduces [1] S2048
  shapeCasts_S2048_S2048x1 : S2048.ShapeCasts S2048x1
  natLt_1_32 : 1 < 32
  inb_S384x18_S384x18_0_0 : ∀ a, (![0, 0] : Fin 2 → Nat) a + S384x18.size a ≤ S384x18.size a
  h_S384x18 : 0 < S384x18.numel
  iota_S2048x384_d1_w32 : S2048x384.Iotas .tc 32 [1]
  inb_S2048x32_S2048x1_0_0 : ∀ a, (![0, 0] : Fin 2 → Nat) a + S2048x1.size a ≤ S2048x32.size a
  h_S2048x1 : 0 < S2048x1.numel
  broadcasts_S2048x1_S2048x384 : S2048x1.Broadcasts S2048x384
  inb_S2048x32_S2048x1_0_1 : ∀ a, (![0, 1] : Fin 2 → Nat) a + S2048x1.size a ≤ S2048x32.size a
  inb_S2048x32_S2048x1_0_2 : ∀ a, (![0, 2] : Fin 2 → Nat) a + S2048x1.size a ≤ S2048x32.size a
  inb_S2048x32_S2048x1_0_3 : ∀ a, (![0, 3] : Fin 2 → Nat) a + S2048x1.size a ≤ S2048x32.size a
  inb_S2048x32_S2048x1_0_4 : ∀ a, (![0, 4] : Fin 2 → Nat) a + S2048x1.size a ≤ S2048x32.size a
  inb_S2048x32_S2048x1_0_5 : ∀ a, (![0, 5] : Fin 2 → Nat) a + S2048x1.size a ≤ S2048x32.size a
  inb_S2048x32_S2048x1_0_6 : ∀ a, (![0, 6] : Fin 2 → Nat) a + S2048x1.size a ≤ S2048x32.size a
  inb_S2048x32_S2048x1_0_7 : ∀ a, (![0, 7] : Fin 2 → Nat) a + S2048x1.size a ≤ S2048x32.size a
  inb_S2048x32_S2048x1_0_8 : ∀ a, (![0, 8] : Fin 2 → Nat) a + S2048x1.size a ≤ S2048x32.size a
  inb_S2048x32_S2048x1_0_9 : ∀ a, (![0, 9] : Fin 2 → Nat) a + S2048x1.size a ≤ S2048x32.size a
  inb_S2048x32_S2048x1_0_10 : ∀ a, (![0, 10] : Fin 2 → Nat) a + S2048x1.size a ≤ S2048x32.size a
  inb_S2048x32_S2048x1_0_11 : ∀ a, (![0, 11] : Fin 2 → Nat) a + S2048x1.size a ≤ S2048x32.size a
  inb_S2048x32_S2048x1_0_12 : ∀ a, (![0, 12] : Fin 2 → Nat) a + S2048x1.size a ≤ S2048x32.size a
  inb_S2048x32_S2048x1_0_13 : ∀ a, (![0, 13] : Fin 2 → Nat) a + S2048x1.size a ≤ S2048x32.size a
  inb_S2048x32_S2048x1_0_14 : ∀ a, (![0, 14] : Fin 2 → Nat) a + S2048x1.size a ≤ S2048x32.size a
  inb_S2048x32_S2048x1_0_15 : ∀ a, (![0, 15] : Fin 2 → Nat) a + S2048x1.size a ≤ S2048x32.size a
  inb_S2048x32_S2048x1_0_16 : ∀ a, (![0, 16] : Fin 2 → Nat) a + S2048x1.size a ≤ S2048x32.size a
  inb_S2048x32_S2048x1_0_17 : ∀ a, (![0, 17] : Fin 2 → Nat) a + S2048x1.size a ≤ S2048x32.size a
  inb_S2048x32_S2048x1_0_18 : ∀ a, (![0, 18] : Fin 2 → Nat) a + S2048x1.size a ≤ S2048x32.size a
  inb_S2048x32_S2048x1_0_19 : ∀ a, (![0, 19] : Fin 2 → Nat) a + S2048x1.size a ≤ S2048x32.size a
  inb_S2048x32_S2048x1_0_20 : ∀ a, (![0, 20] : Fin 2 → Nat) a + S2048x1.size a ≤ S2048x32.size a
  inb_S2048x32_S2048x1_0_21 : ∀ a, (![0, 21] : Fin 2 → Nat) a + S2048x1.size a ≤ S2048x32.size a
  inb_S2048x32_S2048x1_0_22 : ∀ a, (![0, 22] : Fin 2 → Nat) a + S2048x1.size a ≤ S2048x32.size a
  inb_S2048x32_S2048x1_0_23 : ∀ a, (![0, 23] : Fin 2 → Nat) a + S2048x1.size a ≤ S2048x32.size a
  inb_S2048x32_S2048x1_0_24 : ∀ a, (![0, 24] : Fin 2 → Nat) a + S2048x1.size a ≤ S2048x32.size a
  inb_S2048x32_S2048x1_0_25 : ∀ a, (![0, 25] : Fin 2 → Nat) a + S2048x1.size a ≤ S2048x32.size a
  inb_S2048x32_S2048x1_0_26 : ∀ a, (![0, 26] : Fin 2 → Nat) a + S2048x1.size a ≤ S2048x32.size a
  inb_S2048x32_S2048x1_0_27 : ∀ a, (![0, 27] : Fin 2 → Nat) a + S2048x1.size a ≤ S2048x32.size a
  inb_S2048x32_S2048x1_0_28 : ∀ a, (![0, 28] : Fin 2 → Nat) a + S2048x1.size a ≤ S2048x32.size a
  inb_S2048x32_S2048x1_0_29 : ∀ a, (![0, 29] : Fin 2 → Nat) a + S2048x1.size a ≤ S2048x32.size a
  inb_S2048x32_S2048x1_0_30 : ∀ a, (![0, 30] : Fin 2 → Nat) a + S2048x1.size a ≤ S2048x32.size a
  inb_S2048x32_S2048x1_0_31 : ∀ a, (![0, 31] : Fin 2 → Nat) a + S2048x1.size a ≤ S2048x32.size a
  reduces_S2048x1_S1 : S2048x1.Reduces [0] S1
  shapeCasts_S1_S1x1 : S1.ShapeCasts S1x1
  shapeCasts_S1x1_S_ : S1x1.ShapeCasts S_
  dot_S2048x300_S300x64_S2048x64_1_0_0_1_n_n_wf : DotDims.WF S2048x300 S300x64 S2048x64 [1] [0] [0] [1] [] []
  dot_S2048x64_S64x32_S2048x32_1_0_0_1_n_n_wf : DotDims.WF S2048x64 S64x32 S2048x32 [1] [0] [0] [1] [] []
  dot_S2048x32_S32x18_S2048x18_1_0_0_1_n_n_wf : DotDims.WF S2048x32 S32x18 S2048x18 [1] [0] [0] [1] [] []
  dot_S2048x384_S384x18_S2048x18_1_0_0_1_n_n_wf : DotDims.WF S2048x384 S384x18 S2048x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x300.size a ≤ S131072x300.size a
  hwx0_0 : ∀ i : grid0.Coords, EltTy.bits .f32 = 32 ∨ (Rect.block (s := S131072x300) S2048x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x18.size a ≤ S131072x18.size a
  hwx0_1 : ∀ i : grid0.Coords, EltTy.bits .f32 = 32 ∨ (Rect.block (s := S131072x18) S2048x18.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x18.size a ≤ S131072x18.size a
  hwx0_2 : ∀ i : grid0.Coords, EltTy.bits .f32 = 32 ∨ (Rect.block (s := S131072x18) S2048x18.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S131072x32.size a
  hwx0_3 : ∀ i : grid0.Coords, EltTy.bits .i32 = 32 ∨ (Rect.block (s := S131072x32) S2048x32.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x18.size a ≤ S384x18.size a
  hwx0_4 : ∀ i : grid0.Coords, EltTy.bits .f32 = 32 ∨ (Rect.block (s := S384x18) S384x18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S300x64.size a ≤ S300x64.size a
  hwx0_5 : ∀ i : grid0.Coords, EltTy.bits .f32 = 32 ∨ (Rect.block (s := S300x64) S300x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x18.size a ≤ S32x18.size a
  hwx0_9 : ∀ i : grid0.Coords, EltTy.bits .f32 = 32 ∨ (Rect.block (s := S32x18) S32x18.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x18.size a ≤ S1x18.size a
  hwx0_10 : ∀ i : grid0.Coords, EltTy.bits .f32 = 32 ∨ (Rect.block (s := S1x18) S1x18.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x18.size a ≤ S131072x18.size a
  hwx0_11 : ∀ i : grid0.Coords, EltTy.bits .f32 = 32 ∨ (Rect.block (s := S131072x18) S2048x18.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)

variable [Facts₀]

def dot_S2048x300_S300x64_S2048x64_1_0_0_1_n_n : DotDims S2048x300 S300x64 S2048x64 where
  lhsContracting := [1]
  rhsContracting := [0]
  lhsNonContracting := [0]
  rhsNonContracting := [1]
  lhsBatch := []
  rhsBatch := []
  wf := dot_S2048x300_S300x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x18_S2048x18_1_0_0_1_n_n : DotDims S2048x32 S32x18 S2048x18 where
  lhsContracting := [1]
  rhsContracting := [0]
  lhsNonContracting := [0]
  rhsNonContracting := [1]
  lhsBatch := []
  rhsBatch := []
  wf := dot_S2048x32_S32x18_S2048x18_1_0_0_1_n_n_wf
def dot_S2048x384_S384x18_S2048x18_1_0_0_1_n_n : DotDims S2048x384 S384x18 S2048x18 where
  lhsContracting := [1]
  rhsContracting := [0]
  lhsNonContracting := [0]
  rhsNonContracting := [1]
  lhsBatch := []
  rhsBatch := []
  wf := dot_S2048x384_S384x18_S2048x18_1_0_0_1_n_n_wf

abbrev win0_0 : Pipeline.Window sig grid0 :=
  Pipeline.Window.ofSpec (Memref.whole main_arg0) S2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x18.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S384x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S300x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x18.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x18.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3_0) S2048x18.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_1) S1x1.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S131072x300 : Shape := ⟨2, ![131072, 300]⟩
abbrev S131072x18 : Shape := ⟨2, ![131072, 18]⟩
abbrev S384x18 : Shape := ⟨2, ![384, 18]⟩
abbrev S300x64 : Shape := ⟨2, ![300, 64]⟩
abbrev S64 : Shape := ⟨1, ![64]⟩
abbrev S64x32 : Shape := ⟨2, ![64, 32]⟩
abbrev S32 : Shape := ⟨1, ![32]⟩
abbrev S32x18 : Shape := ⟨2, ![32, 18]⟩
abbrev S18 : Shape := ⟨1, ![18]⟩
abbrev S131072x32 : Shape := ⟨2, ![131072, 32]⟩
abbrev S131072x64 : Shape := ⟨2, ![131072, 64]⟩
abbrev S1x64 : Shape := ⟨2, ![1, 64]⟩
abbrev S_ : Shape := ⟨0, ![]⟩
abbrev S1x32 : Shape := ⟨2, ![1, 32]⟩
abbrev S1x18 : Shape := ⟨2, ![1, 18]⟩
abbrev S131072 : Shape := ⟨1, ![131072]⟩
abbrev S131072x32x1 : Shape := ⟨3, ![131072, 32, 1]⟩
abbrev S131072x32x18 : Shape := ⟨3, ![131072, 32, 18]⟩
abbrev S131072x1x18 : Shape := ⟨3, ![131072, 1, 18]⟩

abbrev nBuf : Space → Nat
  | .hbm => 106
  | .vmem => 0
  | .smem => 0
  | _ => 0

abbrev bufTy : (tb : Table) → Fin (tcTables nBuf tb) → BufTy
  | .hbm, ⟨0, _⟩ => ⟨S131072x300, .f32⟩
  | .hbm, ⟨1, _⟩ => ⟨S131072x18, .f32⟩
  | .hbm, ⟨2, _⟩ => ⟨S131072x18, .f32⟩
  | .hbm, ⟨3, _⟩ => ⟨S384x18, .f32⟩
  | .hbm, ⟨4, _⟩ => ⟨S300x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x18, .f32⟩
  | .hbm, ⟨9, _⟩ => ⟨S18, .f32⟩
  | .hbm, ⟨10, _⟩ => ⟨S131072x32, .i32⟩
  | .hbm, ⟨11, _⟩ => ⟨S131072x64, .f32⟩
  | .hbm, ⟨12, _⟩ => ⟨S1x64, .f32⟩
  | .hbm, ⟨13, _⟩ => ⟨S131072x64, .f32⟩
  | .hbm, ⟨14, _⟩ => ⟨S131072x64, .f32⟩
  | .hbm, ⟨15, _⟩ => ⟨S131072x64, .f32⟩
  | .hbm, ⟨16, _⟩ => ⟨S131072x64, .f32⟩
  | .hbm, ⟨17, _⟩ => ⟨S_, .f32⟩
  | .hbm, ⟨18, _⟩ => ⟨S131072x64, .f32⟩
  | .hbm, ⟨19, _⟩ => ⟨S131072x64, .f32⟩
  | .hbm, ⟨20, _⟩ => ⟨S_, .f32⟩
  | .hbm, ⟨21, _⟩ => ⟨S131072x64, .f32⟩
  | .hbm, ⟨22, _⟩ => ⟨S131072x64, .f32⟩
  | .hbm, ⟨23, _⟩ => ⟨S131072x32, .f32⟩
  | .hbm, ⟨24, _⟩ => ⟨S1x32, .f32⟩
  | .hbm, ⟨25, _⟩ => ⟨S131072x32, .f32⟩
  | .hbm, ⟨26, _⟩ => ⟨S131072x32, .f32⟩
  | .hbm, ⟨27, _⟩ => ⟨S131072x32, .f32⟩
  | .hbm, ⟨28, _⟩ => ⟨S131072x32, .f32⟩
  | .hbm, ⟨29, _⟩ => ⟨S_, .f32⟩
  | .hbm, ⟨30, _⟩ => ⟨S131072x32, .f32⟩
  | .hbm, ⟨31, _⟩ => ⟨S131072x32, .f32⟩
  | .hbm, ⟨32, _⟩ => ⟨S_, .f32⟩
  | .hbm, ⟨33, _⟩ => ⟨S131072x32, .f32⟩
  | .hbm, ⟨34, _⟩ => ⟨S131072x32, .f32⟩
  | .hbm, ⟨35, _⟩ => ⟨S131072x18, .f32⟩
  | .hbm, ⟨36, _⟩ => ⟨S1x18, .f32⟩
  | .hbm, ⟨37, _⟩ => ⟨S131072x18, .f32⟩
  | .hbm, ⟨38, _⟩ => ⟨S131072x18, .f32⟩
  | .hbm, ⟨39, _⟩ => ⟨S131072x18, .f32⟩
  | .hbm, ⟨40, _⟩ => ⟨S_, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .i1⟩
  | .hbm, ⟨45, _⟩ => ⟨S131072, .f32⟩
  | .hbm, ⟨46, _⟩ => ⟨S_, .i32⟩
  | .hbm, ⟨47, _⟩ => ⟨S131072x32, .i32⟩
  | .hbm, ⟨48, _⟩ => ⟨S131072x32, .i1⟩
  | .hbm, ⟨49, _⟩ => ⟨S_, .i32⟩
  | .hbm, ⟨50, _⟩ => ⟨S131072x32, .i32⟩
  | .hbm, ⟨51, _⟩ => ⟨S131072x32, .i32⟩
  | .hbm, ⟨52, _⟩ => ⟨S131072x32, .i32⟩
  | .hbm, ⟨53, _⟩ => ⟨S131072x32x1, .i32⟩
  | .hbm, ⟨54, _⟩ => ⟨S131072x32x18, .f32⟩
  | .hbm, ⟨55, _⟩ => ⟨S131072x32x18, .f32⟩
  | .hbm, ⟨56, _⟩ => ⟨S131072x1x18, .f32⟩
  | .hbm, ⟨57, _⟩ => ⟨S131072x32x18, .f32⟩
  | .hbm, ⟨58, _⟩ => ⟨S131072x32x18, .f32⟩
  | .hbm, ⟨59, _⟩ => ⟨S131072x32x18, .f32⟩
  | .hbm, ⟨60, _⟩ => ⟨S_, .f32⟩
  | .hbm, ⟨61, _⟩ => ⟨S131072x32x18, .f32⟩
  | .hbm, ⟨62, _⟩ => ⟨S131072x32x18, .f32⟩
  | .hbm, ⟨63, _⟩ => ⟨S131072x32x18, .f32⟩
  | .hbm, ⟨64, _⟩ => ⟨S131072x32x18, .f32⟩
  | .hbm, ⟨65, _⟩ => ⟨S131072x32x18, .i1⟩
  | .hbm, ⟨66, _⟩ => ⟨S131072x32x18, .f32⟩
  | .hbm, ⟨67, _⟩ => ⟨S131072x32x18, .f32⟩
  | .hbm, ⟨68, _⟩ => ⟨S131072x32x18, .f32⟩
  | .hbm, ⟨69, _⟩ => ⟨S131072x32x18, .f32⟩
  | .hbm, ⟨70, _⟩ => ⟨S131072x32x18, .f32⟩
  | .hbm, ⟨71, _⟩ => ⟨S131072x32x18, .f32⟩
  | .hbm, ⟨72, _⟩ => ⟨S131072x32x18, .f32⟩
  | .hbm, ⟨73, _⟩ => ⟨S131072x32x18, .f32⟩
  | .hbm, ⟨74, _⟩ => ⟨S131072x32x18, .f32⟩
  | .hbm, ⟨75, _⟩ => ⟨S_, .f32⟩
  | .hbm, ⟨76, _⟩ => ⟨S131072, .f32⟩
  | .hbm, ⟨77, _⟩ => ⟨S131072x18, .f32⟩
  | .hbm, ⟨78, _⟩ => ⟨S131072x18, .f32⟩
  | .hbm, ⟨79, _⟩ => ⟨S_, .f32⟩
  | .hbm, ⟨80, _⟩ => ⟨S131072x18, .f32⟩
  | .hbm, ⟨81, _⟩ => ⟨S131072x18, .f32⟩
  | .hbm, ⟨82, _⟩ => ⟨S131072x18, .f32⟩
  | .hbm, ⟨83, _⟩ => ⟨S131072x18, .f32⟩
  | .hbm, ⟨84, _⟩ => ⟨S131072x18, .i1⟩
  | .hbm, ⟨85, _⟩ => ⟨S131072x18, .f32⟩
  | .hbm, ⟨86, _⟩ => ⟨S131072x18, .f32⟩
  | .hbm, ⟨87, _⟩ => ⟨S131072x18, .f32⟩
  | .hbm, ⟨88, _⟩ => ⟨S131072x18, .f32⟩
  | .hbm, ⟨89, _⟩ => ⟨S131072x18, .f32⟩
  | .hbm, ⟨90, _⟩ => ⟨S131072x18, .f32⟩
  | .hbm, ⟨91, _⟩ => ⟨S131072x18, .f32⟩
  | .hbm, ⟨92, _⟩ => ⟨S131072x18, .f32⟩
  | .hbm, ⟨93, _⟩ => ⟨S131072x18, .f32⟩
  | .hbm, ⟨94, _⟩ => ⟨S_, .f32⟩
  | .hbm, ⟨95, _⟩ => ⟨S131072, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S131072, .f32⟩
  | .hbm, ⟨101, _⟩ => ⟨S131072, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S131072x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_call0_cst : Ref sig .tc := ⟨.hbm, 60, rfl⟩
abbrev main_call0_call0_v0 : Ref sig .tc := ⟨.hbm, 61, rfl⟩
abbrev main_call0_call0_v1 : Ref sig .tc := ⟨.hbm, 62, rfl⟩
abbrev main_call0_call0_v2 : Ref sig .tc := ⟨.hbm, 63, rfl⟩
abbrev main_call0_call0_v3 : Ref sig .tc := ⟨.hbm, 64, rfl⟩
abbrev main_call0_call0_v4 : Ref sig .tc := ⟨.hbm, 65, rfl⟩
abbrev main_call0_call0_v5 : Ref sig .tc := ⟨.hbm, 66, rfl⟩
abbrev main_call0_call0_v6 : Ref sig .tc := ⟨.hbm, 67, rfl⟩
abbrev main_call0_call0_v7 : Ref sig .tc := ⟨.hbm, 68, rfl⟩
abbrev main_call0_call0_v8 : Ref sig .tc := ⟨.hbm, 69, rfl⟩
abbrev main_call0_call0_v9 : Ref sig .tc := ⟨.hbm, 70, rfl⟩
abbrev main_call0_call0_v10 : Ref sig .tc := ⟨.hbm, 71, rfl⟩
abbrev main_call0_call0_v11 : Ref sig .tc := ⟨.hbm, 72, rfl⟩
abbrev main_call0_v1 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_call1_v0 : Ref sig .tc := ⟨.hbm, 78, rfl⟩
abbrev main_call1_call0_cst : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_call0_v2 : Ref sig .tc := ⟨.hbm, 82, rfl⟩
abbrev main_call1_call0_v3 : Ref sig .tc := ⟨.hbm, 83, rfl⟩
abbrev main_call1_call0_v4 : Ref sig .tc := ⟨.hbm, 84, rfl⟩
abbrev main_call1_call0_v5 : Ref sig .tc := ⟨.hbm, 85, rfl⟩
abbrev main_call1_call0_v6 : Ref sig .tc := ⟨.hbm, 86, rfl⟩
abbrev main_call1_call0_v7 : Ref sig .tc := ⟨.hbm, 87, rfl⟩
abbrev main_call1_call0_v8 : Ref sig .tc := ⟨.hbm, 88, rfl⟩
abbrev main_call1_call0_v9 : Ref sig .tc := ⟨.hbm, 89, rfl⟩
abbrev main_call1_call0_v10 : Ref sig .tc := ⟨.hbm, 90, rfl⟩
abbrev main_call1_call0_v11 : Ref sig .tc := ⟨.hbm, 91, rfl⟩
abbrev main_call1_v1 : Ref sig .tc := ⟨.hbm, 92, rfl⟩
abbrev main_v43 : Ref sig .tc := ⟨.hbm, 93, rfl⟩
abbrev main_cst_7 : Ref sig .tc := ⟨.hbm, 94, rfl⟩
abbrev main_v44 : Ref sig .tc := ⟨.hbm, 95, rfl⟩
abbrev main_cst_8 : Ref sig .tc := ⟨.hbm, 96, rfl⟩
abbrev main_v45 : Ref sig .tc := ⟨.hbm, 97, rfl⟩
abbrev main_cst_9 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_10 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S18_S1x18_1 : S18.BroadcastsInDim S1x18 (![1] : Fin 1 → Fin S1x18.rank)
  bcast_S1x18_S131072x18_0_1 : S1x18.BroadcastsInDim S131072x18 (![0, 1] : Fin 2 → Fin S131072x18.rank)
  reducesTo_S131072x18_S131072_d1 : S131072x18.ReducesTo [1] S131072
  h_S_ : 0 < S_.numel
  bcast_S_S131072 : S_.BroadcastsInDim S131072 (![] : Fin 0 → Fin S131072.rank)
  bcast_S131072x32_S131072x32x1_0_1 : S131072x32.BroadcastsInDim S131072x32x1 (![0, 1] : Fin 2 → Fin S131072x32x1.rank)
  bcast_S131072x18_S131072x1x18_0_2 : S131072x18.BroadcastsInDim S131072x1x18 (![0, 2] : Fin 2 → Fin S131072x1x18.rank)
  bcast_S131072x1x18_S131072x32x18_0_1_2 : S131072x1x18.BroadcastsInDim S131072x32x18 (![0, 1, 2] : Fin 3 → Fin S131072x32x18.rank)
  bcast_S_S131072x32x18 : S_.BroadcastsInDim S131072x32x18 (![] : Fin 0 → Fin S131072x32x18.rank)
  reducesTo_S131072x32x18_S131072_d1_2 : S131072x32x18.ReducesTo [1, 2] S131072
  bcast_S_S131072x18 : S_.BroadcastsInDim S131072x18 (![] : Fin 0 → Fin S131072x18.rank)
  reducesTo_S131072_S_d0 : S131072.ReducesTo [0] S_
  dot_S131072x300_S300x64_S131072x64_1_0_0_1_n_n_wf : DotDims.WF S131072x300 S300x64 S131072x64 [1] [0] [0] [1] [] []
  dot_S131072x64_S64x32_S131072x32_1_0_0_1_n_n_wf : DotDims.WF S131072x64 S64x32 S131072x32 [1] [0] [0] [1] [] []
  dot_S131072x32_S32x18_S131072x18_1_0_0_1_n_n_wf : DotDims.WF S131072x32 S32x18 S131072x18 [1] [0] [0] [1] [] []
  gather_S384x18_S131072x32x1_S131072x32x18_2_0_n_n_0_2_118_wf : GatherDims.WF S384x18 S131072x32x1 S131072x32x18 [2] [0] [] [0] [] 2 ![1, 18]

variable [Facts₀]

def dot_S131072x300_S300x64_S131072x64_1_0_0_1_n_n : DotDims S131072x300 S300x64 S131072x64 where
  lhsContracting := [1]
  rhsContracting := [0]
  lhsNonContracting := [0]
  rhsNonContracting := [1]
  lhsBatch := []
  rhsBatch := []
  wf := dot_S131072x300_S300x64_S131072x64_1_0_0_1_n_n_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def dot_S131072x32_S32x18_S131072x18_1_0_0_1_n_n : DotDims S131072x32 S32x18 S131072x18 where
  lhsContracting := [1]
  rhsContracting := [0]
  lhsNonContracting := [0]
  rhsNonContracting := [1]
  lhsBatch := []
  rhsBatch := []
  wf := dot_S131072x32_S32x18_S131072x18_1_0_0_1_n_n_wf
def gather_S384x18_S131072x32x1_S131072x32x18_2_0_n_n_0_2_118 : GatherDims S384x18 S131072x32x1 S131072x32x18 where
  offsetDims := [2]
  collapsedSliceDims := [0]
  operandBatchingDims := []
  startIndicesBatchingDims := []
  startIndexMap := [0]
  indexVectorDim := 2
  sliceSizes := ![1, 18]
  wf := gather_S384x18_S131072x32x1_S131072x32x18_2_0_n_n_0_2_118_wf

class Facts : Prop extends Facts₀ where

variable [Facts]
-- ==== Proof.Spec.lean ====
/-
  What both programs compute, as functions of the argument arrays over the extended reals, coordinate by coordinate.

  A three-layer perceptron with logistic activations gives a score matrix `wu` with one row per sample and 18
  attributes. Its entrywise product with the observation mask `ob` is `wc`. A row counts (`rowMask`) when
  the sum of its 18 entries of `wc` is not zero. The positive term of a row is the sum over attributes of
  `logSig (wc * y)`; the negative term is the sum, over 32 sampled codebook rows and the attributes, of
  `logSig ((-codebook) * wc)`. The loss is minus the sum over counted rows of (positive + negative), divided by
  the larger of the number of counted rows and one.

  Everything is stated for any number `n` of rows: a row's terms read that row only, so a block of rows of the
  whole batch is the same function of the block, and the sums over the batch are sums of the blocks' sums.

  `logSig u` is log (1 / (1 + e^(-u))) written as minus the soft-plus of -u, the soft-plus in its stable form
  max w 0 + log (1 + e^(-|w|)).
-/
import Idealize.ShloMosaic.PureOps.Ideal

noncomputable section

open scoped BigOperators
open Idealize.ShloMosaic

namespace Cert.Spec

/-- The stable soft-plus: max w 0 + log (1 + e^(-|w|)), the absolute value written max w (-w)
    (the extended reals are no additive group, so it has no other spelling). -/
def softplus (w : EReal) : EReal := max w 0 + Ideal.log1p (Ideal.exp (-(max w (-w))))

/-- log of the logistic function: minus the soft-plus of the negated argument. -/
def logSig (u : EReal) : EReal := -softplus (-u)

section Layers

variable {n : Nat} (x : Fin n → Fin 300 → EReal) (W1 : Fin 300 → Fin 64 → EReal) (b1 : Fin 64 → EReal)
  (W2 : Fin 64 → Fin 32 → EReal) (b2 : Fin 32 → EReal) (W3 : Fin 32 → Fin 18 → EReal) (b3 : Fin 18 → EReal)

/-- First hidden layer: logistic of x · W1 + b1. -/
def hid1 (b : Fin n) (j : Fin 64) : EReal := Ideal.logistic ((∑ d : Fin 300, x b d * W1 d j) + b1 j)

/-- Second hidden layer: logistic of h1 · W2 + b2. -/
def hid2 (b : Fin n) (j : Fin 32) : EReal := Ideal.logistic ((∑ d : Fin 64, hid1 x W1 b1 b d * W2 d j) + b2 j)

/-- The score matrix: h2 · W3 + b3. -/
def wu (b : Fin n) (a : Fin 18) : EReal := (∑ d : Fin 32, hid2 x W1 b1 W2 b2 b d * W3 d a) + b3 a

end Layers

section Loss

variable {n : Nat} (s ob y : Fin n → Fin 18 → EReal) (cb : Fin 384 → Fin 18 → EReal) (row : Fin n → Fin 32 → Fin 384)

/-- Scores restricted to the observed attributes. -/
def wc (b : Fin n) (a : Fin 18) : EReal := s b a * ob b a

/-- One for a row whose observed scores do not sum to zero, else zero. -/
def rowMask (b : Fin n) : EReal := if (∑ a : Fin 18, wc s ob b a) ≠ 0 then 1 else 0

/-- The positive term of a row. -/
def posTerm (b : Fin n) : EReal := ∑ a : Fin 18, logSig (wc s ob b a * y b a)

/-- One sampled codebook row's share of the negative term. -/
def negOne (b : Fin n) (k : Fin 32) : EReal := ∑ a : Fin 18, logSig (-cb (row b k) a * wc s ob b a)

/-- The negative term of a row: all 32 sampled codebook rows. -/
def negTerm (b : Fin n) : EReal := ∑ k : Fin 32, negOne s ob cb row b k

/-- A row's weighted contribution. -/
def rowTerm (b : Fin n) : EReal := rowMask s ob b * (posTerm s ob y b + negTerm s ob cb row b)

/-- The rows' weighted contributions, summed. -/
def sumW : EReal := ∑ b : Fin n, rowTerm s ob y cb row b

/-- The number of counted rows. -/
def sumM : EReal := ∑ b : Fin n, rowMask s ob b

end Loss

/-- The loss from the two sums: minus the weighted sum over the larger of the count and one. -/
def lossOf (w cnt : EReal) : EReal := Ideal.div (-w) (max cnt 1)

/-- Subtracting from zero negates, on every extended real. -/
theorem zero_sub_eq_neg (x : EReal) : 0 - x = -x := by rw [sub_eq_add_neg, zero_add]

/-- Subtracting zero changes nothing, on every extended real. -/
theorem sub_zero_eq (x : EReal) : x - 0 = x := by rw [sub_eq_add_neg, neg_zero, add_zero]

/-- Adding zero on the right changes nothing. -/
theorem add_zero_eq (x : EReal) : x + 0 = x := add_zero x

end Cert.Spec

end
-- ==== Proof.Chains.lean ====
/-
  The pieces the kernel body's arithmetic is made of, each as one vector function, and what each is at an entry
  over the extended reals.

  The body spells negation as subtraction from a zero vector; the stable soft-plus with its guard for an undefined
  difference (the guard compares a value with itself, which on the extended reals never differs); a sum along a
  block's 18 attributes; and the read of a codebook row by a product with a 0/1 matrix: entry (r, g) of that
  matrix is one exactly when g is the index word of row r, so the product's row r is the codebook's row g
  (zero times anything is zero on the extended reals, so nothing need be finite).
-/
import proofs.«412130_j67843303407889_2_alg».proof.Proof.Gen.KernelIdeal.Skeleton
import proofs.«412130_j67843303407889_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.KernelIdeal Cert.KernelIdeal.Facts₀ Cert.KernelIdeal.Facts

namespace Cert.KernelIdeal.Val

section Defs
variable {F : FTy → Type} [FloatOps F]

/-- The zero block. -/
def zV : FVec F S2048x18 .f32 := broadcast S2048x18 (Scalar.ofBits .f32 0x00000000#32)

/-- Negation, as the body spells it: zero minus. -/
def negV (v : FVec F S2048x18 .f32) : FVec F S2048x18 .f32 := subf zV v

/-- Minus the stable soft-plus of w, entrywise, with the body's guard. -/
def softplusNegV (w : FVec F S2048x18 .f32) : FVec F S2048x18 .f32 :=
  negV (select (cmpf .one (subf w zV) (subf w zV)) (addf w zV) (addf (maximumf w zV) (log1p (exp (negV (absf (subf w zV)))))))

/-- The sum of each row's 18 entries, as a column. -/
def rowSumV (v : FVec F S2048x18 .f32) : FVec F S2048x1 .f32 :=
  shapeCast S2048x1 (multiReduction .add [1] S2048 v 0x00000000#32 reduces_S2048x18_S2048 (.inl rfl) rfl) shapeCasts_S2048_S2048x1

/-- The codebook rows the index column names, read by a product with the 0/1 matrix "column number = index". -/
def gatherV (cbv : FVec F S384x18 .bf16) (cols : IVec S2048x384 32) (idx : Vec F S2048x1 .i32) : FVec F S2048x18 .f32 :=
  matmul dot_S2048x384_S384x18_S2048x18_1_0_0_1_n_n none
    (truncf .bf16 (sitofp .f32 (extui 32 (cmpi .eq cols (broadcastTo S2048x384 idx broadcasts_S2048x1_S2048x384)) natLt_1_32)) bitsLt_bf16_f32)
    cbv (constant S2048x18 .f32 0x00000000#32)

/-- Minus ((minus the gathered rows) times the observed scores): the negated argument of the negative term's
    log-sigmoid. -/
def negProdV (wcv g : FVec F S2048x18 .f32) : FVec F S2048x18 .f32 := negV (mulf (negV g) wcv)

end Defs

/-! ## At an entry, over the extended reals -/

/-! The small facts the five readings below are made of: the zero block and the guard's bit; the column forms of a
    reshape and of a broadcast; and, for the product with the 0/1 matrix, the operand indices of the product at an
    entry and the value of the 0/1 matrix's entry. -/
namespace ChainsAux

/-- The zero block reads the extended real zero at every entry. -/
theorem zV_apply (j : S2048x18.Idx) : (zV : FVec Ideal S2048x18 .f32) j = 0 := Ideal.ofBits_zero_f32

/-- A value never differs from itself: the guard's bit is zero. -/
theorem cmp_one_self (x : EReal) : Ideal.cmp .one x x = 0#1 := by
  unfold Ideal.cmp
  simp

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The product's operand indices, axis by axis: a free axis reads the result's coordinate, the contracted axis the
    contraction position's one coordinate. -/

theorem lhs_gather_0 (i : S2048x18.Idx) (q : dot_S2048x384_S384x18_S2048x18_1_0_0_1_n_n.contr.Idx) :
    (dot_S2048x384_S384x18_S2048x18_1_0_0_1_n_n.lhsIdx i q 0).val = (i 0).val := by
  unfold DotDims.lhsIdx
  rw [dif_neg (show ¬(0 : Fin S2048x384.rank) ∈ dot_S2048x384_S384x18_S2048x18_1_0_0_1_n_n.lhsBatch by decide),
    dif_pos (show (0 : Fin S2048x384.rank) ∈ dot_S2048x384_S384x18_S2048x18_1_0_0_1_n_n.lhsNonContracting by decide)]
  rfl

theorem lhs_gather_1 (i : S2048x18.Idx) (q : dot_S2048x384_S384x18_S2048x18_1_0_0_1_n_n.contr.Idx) :
    (dot_S2048x384_S384x18_S2048x18_1_0_0_1_n_n.lhsIdx i q 1).val = (q ⟨0, by decide⟩).val :=
  dot_S2048x384_S384x18_S2048x18_1_0_0_1_n_n.lhsIdx_val_of_single rfl i q

theorem rhs_gather_0 (i : S2048x18.Idx) (q : dot_S2048x384_S384x18_S2048x18_1_0_0_1_n_n.contr.Idx) :
    (dot_S2048x384_S384x18_S2048x18_1_0_0_1_n_n.rhsIdx i q 0).val = (q ⟨0, by decide⟩).val :=
  dot_S2048x384_S384x18_S2048x18_1_0_0_1_n_n.rhsIdx_val_of_single rfl i q

theorem rhs_gather_1 (i : S2048x18.Idx) (q : dot_S2048x384_S384x18_S2048x18_1_0_0_1_n_n.contr.Idx) :
    (dot_S2048x384_S384x18_S2048x18_1_0_0_1_n_n.rhsIdx i q 1).val = (i 1).val := by
  unfold DotDims.rhsIdx
  rw [dif_neg (show ¬(1 : Fin S384x18.rank) ∈ dot_S2048x384_S384x18_S2048x18_1_0_0_1_n_n.rhsBatch by decide),
    dif_pos (show (1 : Fin S384x18.rank) ∈ dot_S2048x384_S384x18_S2048x18_1_0_0_1_n_n.rhsNonContracting by decide)]
  rfl

/-- The product into the zero block, at entry (r, a): the sum over the 384 columns of the left factor's row r
    times the right factor's column a. -/
theorem matmul_gather_apply (lhs : FVec Ideal S2048x384 .bf16) (rhs : FVec Ideal S384x18 .bf16) (r : Fin 2048) (a : Fin 18) :
    matmul dot_S2048x384_S384x18_S2048x18_1_0_0_1_n_n none lhs rhs (constant S2048x18 .f32 0x00000000#32) (ix2 r a)
      = ∑ k : Fin 384, lhs (ix2 r k) * rhs (ix2 k a) := by
  refine (Ideal.matmul_constant_zero_apply dot_S2048x384_S384x18_S2048x18_1_0_0_1_n_n none lhs rhs (ix2 r a)).trans ?_
  rw [← Equiv.sum_comp (contrEquiv1 dot_S2048x384_S384x18_S2048x18_1_0_0_1_n_n 384 rfl rfl).symm]
  refine Finset.sum_congr rfl fun k _ => ?_
  have hk := contrEquiv1_symm_val dot_S2048x384_S384x18_S2048x18_1_0_0_1_n_n 384 rfl rfl k
  have el : dot_S2048x384_S384x18_S2048x18_1_0_0_1_n_n.lhsIdx (ix2 r a)
      ((contrEquiv1 dot_S2048x384_S384x18_S2048x18_1_0_0_1_n_n 384 rfl rfl).symm k) = ix2 r k :=
    funext fun c => Fin.ext (by
      match c with
      | ⟨0, _⟩ => exact lhs_gather_0 _ _
      | ⟨1, _⟩ => exact (lhs_gather_1 _ _).trans hk)
  have er : dot_S2048x384_S384x18_S2048x18_1_0_0_1_n_n.rhsIdx (ix2 r a)
      ((contrEquiv1 dot_S2048x384_S384x18_S2048x18_1_0_0_1_n_n 384 rfl rfl).symm k) = ix2 k a :=
    funext fun c => Fin.ext (by
      match c with
      | ⟨0, _⟩ => exact (rhs_gather_0 _ _).trans hk
      | ⟨1, _⟩ => exact rhs_gather_1 _ _)
  rw [el, er]

/-! The 0/1 matrix's entry. -/

/-- Two numbers below 384 with the same 32-bit word are equal. -/
theorem ofNat32_eq_iff {k g : Nat} (hk : k < 384) (hg : g < 384) : BitVec.ofNat 32 k = BitVec.ofNat 32 g ↔ k = g := by
  constructor
  · intro h
    have e := congrArg BitVec.toNat h
    rw [BitVec.toNat_ofNat, BitVec.toNat_ofNat, Nat.mod_eq_of_lt (by omega), Nat.mod_eq_of_lt (by omega)] at e
    exact e
  · rintro rfl; rfl

/-- The equality bit of two column numbers, widened and read as a real: one when they are equal, else zero. -/
theorem bit_entry (k g : Fin 384) :
    ((((IntOp.cmpi .eq (BitVec.ofNat 32 k.val) (BitVec.ofNat 32 g.val)).setWidth 32).toInt : ℝ) : EReal)
      = if k = g then 1 else 0 := by
  by_cases h : k = g
  · subst h
    rw [if_pos rfl]
    have e1 : IntOp.cmpi .eq (BitVec.ofNat 32 k.val) (BitVec.ofNat 32 k.val) = 1#1 := by simp [IntOp.cmpi]
    have e2 : ((1#1 : BitVec 1).setWidth 32).toInt = 1 := by decide
    rw [e1, e2]
    simp
  · rw [if_neg h]
    have hne : ¬BitVec.ofNat 32 k.val = BitVec.ofNat 32 g.val :=
      fun he => h (Fin.ext ((ofNat32_eq_iff k.isLt g.isLt).mp he))
    have hb : (BitVec.ofNat 32 k.val == BitVec.ofNat 32 g.val) = false := beq_eq_false_iff_ne.mpr hne
    have e1 : IntOp.cmpi .eq (BitVec.ofNat 32 k.val) (BitVec.ofNat 32 g.val) = 0#1 := by
      show BitVec.ofBool (BitVec.ofNat 32 k.val == BitVec.ofNat 32 g.val) = 0#1
      rw [hb]
      rfl
    have e2 : ((0#1 : BitVec 1).setWidth 32).toInt = 0 := by decide
    rw [e1, e2]
    simp

/-- Entry (r, k) of the 0/1 matrix, when row r's index word is that of g: one at column g, zero elsewhere. -/
theorem onehot_apply (idx : Vec Ideal S2048x1 .i32) (r : Fin 2048) (k g : Fin 384)
    (hg : idx (ix2 r 0) = BitVec.ofNat 32 g.val) :
    (truncf .bf16 (sitofp .f32 (extui 32 (cmpi .eq (iota .tc S2048x384 32 [1] Cert.KernelIdeal.Facts₀.iota_S2048x384_d1_w32)
        (broadcastTo S2048x384 idx Cert.KernelIdeal.Facts₀.broadcasts_S2048x1_S2048x384)) Cert.KernelIdeal.Facts₀.natLt_1_32))
        Cert.KernelIdeal.Facts₀.bitsLt_bf16_f32 : FVec Ideal S2048x384 .bf16) (ix2 r k)
      = if k = g then 1 else 0 := by
  have hb : broadcastTo S2048x384 idx Cert.KernelIdeal.Facts₀.broadcasts_S2048x1_S2048x384 (ix2 r k) = BitVec.ofNat 32 g.val :=
    (broadcastTo_a1_ab_apply idx _ r k).trans hg
  have hi : iota .tc S2048x384 32 [1] Cert.KernelIdeal.Facts₀.iota_S2048x384_d1_w32 (ix2 r k) = BitVec.ofNat 32 k.val := by
    show BitVec.ofNat 32 (0 * 384 + k.val) = _
    rw [Nat.zero_mul, Nat.zero_add]
  show ((((IntOp.cmpi .eq (iota .tc S2048x384 32 [1] Cert.KernelIdeal.Facts₀.iota_S2048x384_d1_w32 (ix2 r k))
      (broadcastTo S2048x384 idx Cert.KernelIdeal.Facts₀.broadcasts_S2048x1_S2048x384 (ix2 r k))).setWidth 32).toInt : ℝ) : EReal) = _
  rw [hb, hi]
  exact bit_entry k g

end ChainsAux

open ChainsAux

theorem negV_apply (v : FVec Ideal S2048x18 .f32) (j : S2048x18.Idx) : negV v j = -(v j) := by
  show (zV : FVec Ideal S2048x18 .f32) j - v j = -(v j)
  rw [zV_apply]
  exact Cert.Spec.zero_sub_eq_neg _

theorem softplusNegV_apply (w : FVec Ideal S2048x18 .f32) (j : S2048x18.Idx) : softplusNegV w j = -Cert.Spec.softplus (w j) := by
  unfold softplusNegV
  rw [negV_apply, select_apply]
  have hc : cmpf .one (subf w zV) (subf w zV) j = 0#1 := cmp_one_self _
  rw [hc, select_zero]
  show -(max (w j) ((zV : FVec Ideal S2048x18 .f32) j)
      + Ideal.log1p (Ideal.exp (negV (absf (subf w zV)) j))) = _
  rw [negV_apply]
  show -(max (w j) ((zV : FVec Ideal S2048x18 .f32) j)
      + Ideal.log1p (Ideal.exp (-(max (w j - (zV : FVec Ideal S2048x18 .f32) j) (-(w j - (zV : FVec Ideal S2048x18 .f32) j)))))) = _
  rw [zV_apply, Cert.Spec.sub_zero_eq]
  rfl

theorem rowSumV_apply (v : FVec Ideal S2048x18 .f32) (r : Fin 2048) : rowSumV v (ix2 r 0) = ∑ a : Fin 18, v (ix2 r a) := by
  unfold rowSumV
  refine (shapeCast_a_a1_apply _ _ r 0).trans ?_
  refine (Ideal.multiReduction_add_single v 0x00000000#32 Cert.KernelIdeal.Facts₀.reduces_S2048x18_S2048 (.inl rfl) rfl (ix1 r)).trans ?_
  refine Finset.sum_congr rfl fun k _ => congrArg v ?_
  funext c
  match c with
  | ⟨0, _⟩ => rfl
  | ⟨1, _⟩ => rfl

theorem gatherV_apply (cbv : FVec Ideal S384x18 .bf16) (idx : Vec Ideal S2048x1 .i32) (r : Fin 2048) (a : Fin 18) (g : Fin 384)
    (hg : idx (ix2 r 0) = BitVec.ofNat 32 g.val) :
    gatherV cbv (iota .tc S2048x384 32 [1] iota_S2048x384_d1_w32) idx (ix2 r a) = cbv (ix2 g a) := by
  unfold gatherV
  refine (matmul_gather_apply _ cbv r a).trans ?_
  rw [Finset.sum_eq_single g]
  · rw [onehot_apply idx r g g hg, if_pos rfl, one_mul]
  · intro k _ hk
    rw [onehot_apply idx r k g hg, if_neg hk, zero_mul]
  · intro h
    exact absurd (Finset.mem_univ g) h

theorem negProdV_apply (wcv g : FVec Ideal S2048x18 .f32) (j : S2048x18.Idx) : negProdV wcv g j = -(-(g j) * wcv j) := by
  unfold negProdV
  rw [negV_apply, mulf_apply, negV_apply]

end Cert.KernelIdeal.Val

end
-- ==== Proof.Iter.lean ====
/-
  Each named value of the kernel body, at an entry, over the extended reals.

  The body's 32 negative samples are unrolled, and the values it names come in five forms, each a composition of
  the vector functions of Chains.lean (the compositions hold by unfolding): a sample's negated log-sigmoid
  argument; a running row total plus a sample's row sum of log-sigmoids; a sample's log-sigmoids entrywise; a
  running total plus the previous sample's row sum plus the next sample's; and the closing values: the row mask,
  the positive term, the two tile totals added to the carried totals, and the loss.
-/
import proofs.«412130_j67843303407889_2_alg».proof.Proof.Chains

noncomputable section

open scoped BigOperators
open Idealize.ShloMosaic Idealize.ShloMosaic.ValueIdx Cert.KernelIdeal Cert.KernelIdeal.Gen

namespace Cert.KernelIdeal.Val

section Folds
variable {F : FTy → Type} [FloatOps F]

/-- The sum of a column of 2048 entries, as a 1 x 1 block. -/
def colSumV (v : FVec F S2048x1 .f32) : FVec F S1x1 .f32 :=
  shapeCast S1x1 (multiReduction .add [0] S1 v 0x00000000#32 Cert.KernelIdeal.Facts₀.reduces_S2048x1_S1 (.inl rfl) rfl) Cert.KernelIdeal.Facts₀.shapeCasts_S1_S1x1

theorem pay9_fold (v32 : FVec F S2048x18 .f32) (v61 : Vec F S384x18 .f32) (v65 : Vec F S2048x1 .i32) :
    k0_pay9 v32 v61 v65 = negProdV v32 (gatherV (k0_pay7 v61) (iota .tc S2048x384 32 [1] Cert.KernelIdeal.Facts₀.iota_S2048x384_d1_w32) v65) := rfl
theorem pay10_fold (v64 : FVec F S2048x1 .f32) (v76 : FVec F S2048x18 .f32) :
    k0_pay10 v64 v76 = addf v64 (rowSumV (softplusNegV v76)) := rfl
theorem pay11_fold (v32 : FVec F S2048x18 .f32) (v62 : FVec F S384x18 .bf16) (v63 : IVec S2048x384 32) (v96 : Vec F S2048x1 .i32) :
    k0_pay11 v32 v62 v63 v96 = softplusNegV (negProdV v32 (gatherV v62 v63 v96)) := rfl
theorem pay12_fold (v32 : FVec F S2048x18 .f32) (v62 : FVec F S384x18 .bf16) (v63 : IVec S2048x384 32) (v95 : FVec F S2048x1 .f32)
    (v123 : FVec F S2048x18 .f32) (v127 : Vec F S2048x1 .i32) :
    k0_pay12 v32 v62 v63 v95 v123 v127 = addf (addf v95 (rowSumV v123)) (rowSumV (softplusNegV (negProdV v32 (gatherV v62 v63 v127)))) := rfl
theorem pay13_fold (v32 : FVec F S2048x18 .f32) (v62 : FVec F S384x18 .bf16) (v63 : IVec S2048x384 32) (v158 : Vec F S2048x1 .i32) :
    k0_pay13 v32 v62 v63 v158 = negProdV v32 (gatherV v62 v63 v158) := rfl
theorem pay6_fold (v32 : FVec F S2048x18 .f32) (v39 : Vec F S2048x18 .f32) :
    k0_pay6 v32 v39 = rowSumV (softplusNegV (negV (mulf v32 v39))) := rfl
theorem pay52_fold (v38 v60 v1025 : FVec F S2048x1 .f32) (v1053 : FVec F S2048x18 .f32) (v1063 : Vec F S1x1 .f32) :
    k0_pay52 v38 v60 v1025 v1053 v1063
      = shapeCast S1x1 (addf v1063 (colSumV (mulf v38 (addf v60 (addf v1025 (rowSumV v1053)))))) Cert.KernelIdeal.Facts₀.shapeCasts_S1x1_S1x1 := rfl
theorem pay53_fold (v38 : FVec F S2048x1 .f32) (v1068 : Vec F S1x1 .f32) :
    k0_pay53 v38 v1068 = shapeCast S1x1 (addf v1068 (colSumV v38)) Cert.KernelIdeal.Facts₀.shapeCasts_S1x1_S1x1 := rfl

end Folds

/-! ## The column sum at its one entry -/

/-- The index over the one reduced entry with row k inserted is (k, 0). -/
theorem lift_col (k : Fin 2048) :
    (Cert.KernelIdeal.Facts₀.reduces_S2048x1_S1).lift (ix1 (0 : Fin 1)) k = ix2 k (0 : Fin 1) := by
  funext c
  match c with
  | ⟨0, _⟩ => rfl
  | ⟨1, _⟩ => rfl

/-- The column sum's one entry is the sum over the 2048 rows. -/
theorem colSumV_apply (v : FVec Ideal S2048x1 .f32) :
    colSumV v (ix2 0 0) = ∑ r : Fin 2048, v (ix2 r 0) := by
  unfold colSumV
  refine (shapeCast_a_1a_apply _ Cert.KernelIdeal.Facts₀.shapeCasts_S1_S1x1 (0 : Fin 1) (0 : Fin 1)).trans ?_
  refine (Ideal.multiReduction_add_single v 0x00000000#32 Cert.KernelIdeal.Facts₀.reduces_S2048x1_S1 (.inl rfl) rfl (ix1 (0 : Fin 1))).trans ?_
  exact Finset.sum_congr rfl fun k _ => congrArg v (lift_col k)

/-! ## At an entry, over the extended reals -/

/-- The bit pattern of the float one reads as the extended real one. -/
theorem ofBits_one : Ideal.ofBits .f32 0x3F800000#32 = 1 := IdealRules.sign_bit.ideal_onePat .f32

/-- A one-bit "differs" flag, widened to a word and read as a signed integer, then as a real: one if the two differ, else zero. -/
theorem flag_ne (x y : EReal) :
    (FloatOps.sitofp (F := Ideal) .f32 ((FloatOps.cmpf (F := Ideal) (φ := .f32) .one x y).setWidth 32) : EReal) = if x ≠ y then 1 else 0 := by
  show ((((Ideal.cmp .one x y).setWidth 32).toInt : ℝ) : EReal) = _
  unfold Ideal.cmp
  by_cases h : x ≠ y
  · rw [if_pos h]
    have : decide (x ≠ y) = true := decide_eq_true h
    simp only [this]
    show (((((1#1 : BitVec 1).setWidth 32).toInt : ℤ) : ℝ) : EReal) = 1
    have e : ((1#1 : BitVec 1).setWidth 32).toInt = 1 := by decide
    rw [e]; simp
  · rw [if_neg h]
    have : decide (x ≠ y) = false := decide_eq_false h
    simp only [this]
    show (((((0#1 : BitVec 1).setWidth 32).toInt : ℤ) : ℝ) : EReal) = 0
    have e : ((0#1 : BitVec 1).setWidth 32).toInt = 0 := by decide
    rw [e]; simp

/-- The row mask: one where the row's observed scores do not sum to zero. -/
theorem pay5_apply (v32 : FVec Ideal S2048x18 .f32) (r : Fin 2048) :
    k0_pay5 (F := Ideal) v32 (ix2 r 0) = if (∑ a : Fin 18, v32 (ix2 r a)) ≠ 0 then 1 else 0 := by
  have e : k0_pay5 (F := Ideal) v32
      = sitofp .f32 (extui 32 (cmpf .one (rowSumV v32) (broadcast S2048x1 (Scalar.ofBits (F := Ideal) .f32 0x00000000#32))) Cert.KernelIdeal.Facts₀.natLt_1_32) := rfl
  rw [e, sitofp_apply, extui_apply, cmpf_apply, broadcast_apply, rowSumV_apply]
  refine (flag_ne _ _).trans ?_
  rw [show (Scalar.ofBits (F := Ideal) .f32 0x00000000#32 : EReal) = 0 from Ideal.ofBits_zero_f32]

/-- The positive term of a row. -/
theorem pay6_apply (v32 : FVec Ideal S2048x18 .f32) (v39 : Vec Ideal S2048x18 .f32) (r : Fin 2048) :
    k0_pay6 (F := Ideal) v32 v39 (ix2 r 0) = ∑ a : Fin 18, Cert.Spec.logSig (v32 (ix2 r a) * v39 (ix2 r a)) := by
  rw [pay6_fold, rowSumV_apply]
  refine Finset.sum_congr rfl fun a _ => ?_
  rw [softplusNegV_apply, negV_apply, mulf_apply]
  rfl

/-- The codebook narrowed to the shorter float format is the codebook. -/
theorem pay7_apply (v61 : Vec Ideal S384x18 .f32) (j : S384x18.Idx) : k0_pay7 (F := Ideal) v61 j = v61 j := rfl

/-- The running total starts at zero. -/
theorem pay8_apply (j : S2048x1.Idx) : k0_pay8 (F := Ideal) j = 0 := Ideal.ofBits_zero_f32

/-- First sample: minus the log-sigmoid's argument. -/
theorem pay9_apply (v32 : FVec Ideal S2048x18 .f32) (v61 : Vec Ideal S384x18 .f32) (idx : Vec Ideal S2048x1 .i32) (r : Fin 2048) (a : Fin 18) (g : Fin 384)
    (hg : idx (ix2 r 0) = BitVec.ofNat 32 g.val) :
    k0_pay9 (F := Ideal) v32 v61 idx (ix2 r a) = -(-(v61 (ix2 g a)) * v32 (ix2 r a)) := by
  rw [pay9_fold, negProdV_apply, gatherV_apply (k0_pay7 (F := Ideal) v61) idx r a g hg, pay7_apply]

/-- A running total plus one sample's row sum of log-sigmoids, the sample given by its negated arguments. -/
theorem pay10_apply (v64 : FVec Ideal S2048x1 .f32) (v76 : FVec Ideal S2048x18 .f32) (r : Fin 2048) :
    k0_pay10 (F := Ideal) v64 v76 (ix2 r 0) = v64 (ix2 r 0) + ∑ a : Fin 18, -Cert.Spec.softplus (v76 (ix2 r a)) := by
  rw [pay10_fold, addf_apply, rowSumV_apply]
  exact congrArg (v64 (ix2 r 0) + ·) (Finset.sum_congr rfl fun a _ => softplusNegV_apply v76 (ix2 r a))

/-- One sample's log-sigmoids, entrywise. -/
theorem pay11_apply (v32 : FVec Ideal S2048x18 .f32) (v62 : FVec Ideal S384x18 .bf16) (idx : Vec Ideal S2048x1 .i32) (r : Fin 2048) (a : Fin 18) (g : Fin 384)
    (hg : idx (ix2 r 0) = BitVec.ofNat 32 g.val) :
    k0_pay11 (F := Ideal) v32 v62 (iota .tc S2048x384 32 [1] Cert.KernelIdeal.Facts₀.iota_S2048x384_d1_w32) idx (ix2 r a) = Cert.Spec.logSig (-(v62 (ix2 g a)) * v32 (ix2 r a)) := by
  rw [pay11_fold, softplusNegV_apply, negProdV_apply, gatherV_apply v62 idx r a g hg]
  rfl

/-- A running total, plus the previous sample's row sum, plus the next sample's row sum of log-sigmoids. -/
theorem pay12_apply (v32 : FVec Ideal S2048x18 .f32) (v62 : FVec Ideal S384x18 .bf16) (v95 : FVec Ideal S2048x1 .f32) (v123 : FVec Ideal S2048x18 .f32)
    (idx : Vec Ideal S2048x1 .i32) (r : Fin 2048) (g : Fin 384) (hg : idx (ix2 r 0) = BitVec.ofNat 32 g.val) :
    k0_pay12 (F := Ideal) v32 v62 (iota .tc S2048x384 32 [1] Cert.KernelIdeal.Facts₀.iota_S2048x384_d1_w32) v95 v123 idx (ix2 r 0)
      = (v95 (ix2 r 0) + ∑ a : Fin 18, v123 (ix2 r a)) + ∑ a : Fin 18, Cert.Spec.logSig (-(v62 (ix2 g a)) * v32 (ix2 r a)) := by
  rw [pay12_fold, addf_apply, addf_apply, rowSumV_apply, rowSumV_apply]
  refine congrArg ((v95 (ix2 r 0) + ∑ a : Fin 18, v123 (ix2 r a)) + ·) (Finset.sum_congr rfl fun a _ => ?_)
  rw [softplusNegV_apply, negProdV_apply, gatherV_apply v62 idx r a g hg]
  rfl

/-- A later sample: minus the log-sigmoid's argument. -/
theorem pay13_apply (v32 : FVec Ideal S2048x18 .f32) (v62 : FVec Ideal S384x18 .bf16) (idx : Vec Ideal S2048x1 .i32) (r : Fin 2048) (a : Fin 18) (g : Fin 384)
    (hg : idx (ix2 r 0) = BitVec.ofNat 32 g.val) :
    k0_pay13 (F := Ideal) v32 v62 (iota .tc S2048x384 32 [1] Cert.KernelIdeal.Facts₀.iota_S2048x384_d1_w32) idx (ix2 r a) = -(-(v62 (ix2 g a)) * v32 (ix2 r a)) := by
  rw [pay13_fold, negProdV_apply, gatherV_apply v62 idx r a g hg]

/-- The carried weighted total after this tile: the total before, plus the tile's rows' mask times
    (positive term + (running negative total + the last sample's row sum)). -/
theorem pay52_apply (v38 v60 v1025 : FVec Ideal S2048x1 .f32) (v1053 : FVec Ideal S2048x18 .f32) (v1063 : Vec Ideal S1x1 .f32) :
    k0_pay52 (F := Ideal) v38 v60 v1025 v1053 v1063 (ix2 0 0)
      = v1063 (ix2 0 0) + ∑ r : Fin 2048, v38 (ix2 r 0) * (v60 (ix2 r 0) + (v1025 (ix2 r 0) + ∑ a : Fin 18, v1053 (ix2 r a))) := by
  rw [pay52_fold, shapeCast_self, addf_apply, colSumV_apply]
  refine congrArg (v1063 (ix2 0 0) + ·) (Finset.sum_congr rfl fun r _ => ?_)
  rw [mulf_apply, addf_apply, addf_apply, rowSumV_apply]

/-- The carried count after this tile: the count before plus the tile's masks. -/
theorem pay53_apply (v38 : FVec Ideal S2048x1 .f32) (v1068 : Vec Ideal S1x1 .f32) :
    k0_pay53 (F := Ideal) v38 v1068 (ix2 0 0) = v1068 (ix2 0 0) + ∑ r : Fin 2048, v38 (ix2 r 0) := by
  rw [pay53_fold, shapeCast_self, addf_apply, colSumV_apply]

/-- The loss from the carried count and the carried weighted total. -/
theorem pay54_apply (v1076 v1079 : Vec Ideal S1x1 .f32) :
    k0_pay54 (F := Ideal) v1076 v1079 (ix2 0 0) = Cert.Spec.lossOf (v1079 (ix2 0 0)) (v1076 (ix2 0 0)) := by
  show Ideal.div (Ideal.ofBits .f32 0x00000000#32 - v1079 (ix2 0 0)) (max (v1076 (ix2 0 0)) (Ideal.ofBits .f32 0x3F800000#32)) = _
  rw [Ideal.ofBits_zero_f32, ofBits_one, Cert.Spec.zero_sub_eq_neg]
  rfl

end Cert.KernelIdeal.Val

end
-- ==== Proof.NegSum.lean ====
/-
  The negative term of a row, as the kernel body accumulates it.

  The body takes the 32 sampled codebook rows one after the other and adds each sample's row sum of log-sigmoids
  to a running total that starts at zero. Its named values group the samples in threes; `negAcc p` is the running
  total after the samples 0, …, 3p, written with the body's own named values, and at a row it is zero plus the
  sum of the first 3p + 1 samples' shares. After ten such steps and the last sample, the total is the sum of all
  32 shares: sums of extended reals regroup freely.
-/
import proofs.«412130_j67843303407889_2_alg».proof.Proof.Iter

noncomputable section

open scoped BigOperators
open Idealize.ShloMosaic Idealize.ShloMosaic.ValueIdx Cert.KernelIdeal Cert.KernelIdeal.Gen

namespace Cert.KernelIdeal.Val

section Def
variable {F : FTy → Type} [FloatOps F]

/-- The column-number vector the body compares index words with. -/
abbrev colNumbers : IVec S2048x384 32 := iota .tc S2048x384 32 [1] Cert.KernelIdeal.Facts₀.iota_S2048x384_d1_w32

/-- The running negative total after the samples 0, …, 3p, in the body's named values: sample 0 opens it; each
    further step adds three samples (one through its entrywise log-sigmoids, two through their negated arguments
    or their row sums, as the body happens to name them). `col k` is the column of index words of sample k. -/
def negAcc (wcv : FVec F S2048x18 .f32) (cb : Vec F S384x18 .f32) (col : ℕ → Vec F S2048x1 .i32) : ℕ → FVec F S2048x1 .f32
  | 0 => k0_pay10 k0_pay8 (k0_pay9 wcv cb (col 0))
  | p + 1 => k0_pay10
      (k0_pay12 wcv (k0_pay7 cb) colNumbers (negAcc wcv cb col p) (k0_pay11 wcv (k0_pay7 cb) colNumbers (col (3 * p + 1))) (col (3 * p + 2)))
      (k0_pay13 wcv (k0_pay7 cb) colNumbers (col (3 * p + 3)))

end Def

section Ideal
variable (wcv : FVec Ideal S2048x18 .f32) (cb : Vec Ideal S384x18 .f32) (col : ℕ → Vec Ideal S2048x1 .i32) (row : Fin 2048 → ℕ → Fin 384)

/-- Sample k's share of row r's negative term. -/
def negShare (r : Fin 2048) (k : ℕ) : EReal := ∑ a : Fin 18, Cert.Spec.logSig (-(cb (ix2 (row r k) a)) * wcv (ix2 r a))

/-- The sum of the first m values of f, added one at a time from zero on the left: the order the body adds in. -/
def partialSum (f : ℕ → EReal) : ℕ → EReal
  | 0 => 0
  | k + 1 => partialSum f k + f k

theorem partialSum_eq_sum (f : ℕ → EReal) (m : ℕ) : partialSum f m = ∑ k ∈ Finset.range m, f k := by
  induction m with
  | zero => rfl
  | succ m ih => rw [Finset.sum_range_succ, ← ih]; rfl

/-- After the samples 0, …, 3p the running total of a row is those samples' shares, added in order. -/
theorem negAcc_apply (p : ℕ) (hcol : ∀ k, k ≤ 3 * p → ∀ r : Fin 2048, col k (ix2 r 0) = BitVec.ofNat 32 (row r k).val) (r : Fin 2048) :
    negAcc wcv cb col p (ix2 r 0) = partialSum (negShare wcv cb row r) (3 * p + 1) := by
  induction p with
  | zero =>
    show k0_pay10 k0_pay8 (k0_pay9 wcv cb (col 0)) (ix2 r 0) = (0 : EReal) + negShare wcv cb row r 0
    rw [pay10_apply, pay8_apply]
    refine congrArg (fun x => (0 : EReal) + x) (Finset.sum_congr rfl fun a _ => ?_)
    rw [pay9_apply wcv cb (col 0) r a (row r 0) (hcol 0 (Nat.le_refl _) r)]
    rfl
  | succ p ih =>
    have h1 := hcol (3 * p + 1) (by omega) r
    have h2 := hcol (3 * p + 2) (by omega) r
    have h3 := hcol (3 * p + 3) (by omega) r
    show k0_pay10 (k0_pay12 wcv (k0_pay7 cb) colNumbers (negAcc wcv cb col p) (k0_pay11 wcv (k0_pay7 cb) colNumbers (col (3 * p + 1))) (col (3 * p + 2)))
        (k0_pay13 wcv (k0_pay7 cb) colNumbers (col (3 * p + 3))) (ix2 r 0)
      = ((partialSum (negShare wcv cb row r) (3 * p + 1) + negShare wcv cb row r (3 * p + 1)) + negShare wcv cb row r (3 * p + 2)) + negShare wcv cb row r (3 * p + 3)
    rw [pay10_apply, pay12_apply wcv (k0_pay7 cb) _ _ (col (3 * p + 2)) r (row r (3 * p + 2)) h2, ih (fun k hk => hcol k (by omega))]
    have e1 : (∑ a : Fin 18, k0_pay11 (F := Ideal) wcv (k0_pay7 cb) colNumbers (col (3 * p + 1)) (ix2 r a)) = negShare wcv cb row r (3 * p + 1) :=
      Finset.sum_congr rfl fun a _ => by
        rw [pay11_apply wcv (k0_pay7 cb) (col (3 * p + 1)) r a (row r (3 * p + 1)) h1, pay7_apply]
    have e2 : (∑ a : Fin 18, Cert.Spec.logSig (-(k0_pay7 (F := Ideal) cb (ix2 (row r (3 * p + 2)) a)) * wcv (ix2 r a))) = negShare wcv cb row r (3 * p + 2) :=
      Finset.sum_congr rfl fun a _ => by rw [pay7_apply]
    have e3 : (∑ a : Fin 18, -Cert.Spec.softplus (k0_pay13 (F := Ideal) wcv (k0_pay7 cb) colNumbers (col (3 * p + 3)) (ix2 r a))) = negShare wcv cb row r (3 * p + 3) :=
      Finset.sum_congr rfl fun a _ => by
        rw [pay13_apply wcv (k0_pay7 cb) (col (3 * p + 3)) r a (row r (3 * p + 3)) h3, pay7_apply]
        rfl
    rw [e1, e2, e3]

/-- With the last sample added, a row's negative total is the sum of all 32 samples' shares. -/
theorem negTotal_apply (hcol : ∀ k, k ≤ 31 → ∀ r : Fin 2048, col k (ix2 r 0) = BitVec.ofNat 32 (row r k).val) (r : Fin 2048) :
    negAcc wcv cb col 10 (ix2 r 0) + ∑ a : Fin 18, k0_pay11 (F := Ideal) wcv (k0_pay7 cb) colNumbers (col 31) (ix2 r a)
      = ∑ k : Fin 32, negShare wcv cb row r k.val := by
  rw [negAcc_apply wcv cb col row 10 (fun k hk => hcol k (by omega)) r]
  have e : (∑ a : Fin 18, k0_pay11 (F := Ideal) wcv (k0_pay7 cb) colNumbers (col 31) (ix2 r a)) = negShare wcv cb row r 31 :=
    Finset.sum_congr rfl fun a _ => by
      rw [pay11_apply wcv (k0_pay7 cb) (col 31) r a (row r 31) (hcol 31 (Nat.le_refl _) r), pay7_apply]
  rw [e]
  show partialSum (negShare wcv cb row r) 32 = _
  rw [partialSum_eq_sum, Finset.sum_range]

end Ideal

end Cert.KernelIdeal.Val

end
-- ==== Proof.Pieces.lean ====
/-
  What each control case of the kernel body leaves behind, in the body's own named values.

  The grid has 64 points. At every point the body stores the block of scores `k0_pay3` whole (output 11) and
  forms `s`, the scores times the observation mask. From `s` it takes a 0/1 weight per row (`k0_pay5`: whether the
  row of `s` sums to something other than zero), adds the sum of these weights to a 1 × 1 count (`k0_pay53`), and adds
  the weighted sum of the rows' terms — a term from the labels (`k0_pay6`) plus the running value of the 32 sampled
  codebook rows — to a 1 × 1 total (`k0_pay52`); count and total are the two scratch buffers carried from point to
  point. At the first point both are first set to zero; at the last point the loss (output 12) is the negated total
  over the count clamped below at one (`k0_pay54`). Every buffer is written through its whole-shape rectangle at
  zero offsets, so what a case leaves in a buffer is the payload of the LAST store into it; a load of an input reads
  the point's block, and a load of a scratch after a store at the same point reads that store's payload.

  The 32 samples are unrolled in the body: the values `v95 … v1053` below are that fold line by line, and
  `v1025_eq` says it is the three-at-a-time recursion over the columns of the index block.
-/
import proofs.«412130_j67843303407889_2_alg».proof.Proof.Gen.KernelIdeal.Frame
import Idealize.ShloMosaic.Lib.Pipeline.Value
import Idealize.ShloMosaic.Lib.Tactic
import proofs.«412130_j67843303407889_2_alg».proof.Proof.NegSum

set_option maxRecDepth 16384

noncomputable section

namespace Cert.KernelIdeal.Val

open Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets of a rank-2 whole-buffer rectangle, as the constant function. -/
theorem hz : (![0, 0] : Fin 2 → Nat) = fun _ => 0 := funext fun a => by fin_cases a <;> rfl

/-! ## The columns of the index block -/

/-- Column `K` of the block of sample indices: the load through the 2048 × 1 rectangle at offset `(0, K)`
    (the 32 columns the body reads; any other number reads column 0 again). -/
def colOf (x3 : Vec F S2048x32 .i32) : ℕ → Vec F S2048x1 .i32
  | 0 => View.ld x3 (Rect.unit (s := S2048x32) ![0, 0] S2048x1.size inb_S2048x32_S2048x1_0_0)
  | 1 => View.ld x3 (Rect.unit (s := S2048x32) ![0, 1] S2048x1.size inb_S2048x32_S2048x1_0_1)
  | 2 => View.ld x3 (Rect.unit (s := S2048x32) ![0, 2] S2048x1.size inb_S2048x32_S2048x1_0_2)
  | 3 => View.ld x3 (Rect.unit (s := S2048x32) ![0, 3] S2048x1.size inb_S2048x32_S2048x1_0_3)
  | 4 => View.ld x3 (Rect.unit (s := S2048x32) ![0, 4] S2048x1.size inb_S2048x32_S2048x1_0_4)
  | 5 => View.ld x3 (Rect.unit (s := S2048x32) ![0, 5] S2048x1.size inb_S2048x32_S2048x1_0_5)
  | 6 => View.ld x3 (Rect.unit (s := S2048x32) ![0, 6] S2048x1.size inb_S2048x32_S2048x1_0_6)
  | 7 => View.ld x3 (Rect.unit (s := S2048x32) ![0, 7] S2048x1.size inb_S2048x32_S2048x1_0_7)
  | 8 => View.ld x3 (Rect.unit (s := S2048x32) ![0, 8] S2048x1.size inb_S2048x32_S2048x1_0_8)
  | 9 => View.ld x3 (Rect.unit (s := S2048x32) ![0, 9] S2048x1.size inb_S2048x32_S2048x1_0_9)
  | 10 => View.ld x3 (Rect.unit (s := S2048x32) ![0, 10] S2048x1.size inb_S2048x32_S2048x1_0_10)
  | 11 => View.ld x3 (Rect.unit (s := S2048x32) ![0, 11] S2048x1.size inb_S2048x32_S2048x1_0_11)
  | 12 => View.ld x3 (Rect.unit (s := S2048x32) ![0, 12] S2048x1.size inb_S2048x32_S2048x1_0_12)
  | 13 => View.ld x3 (Rect.unit (s := S2048x32) ![0, 13] S2048x1.size inb_S2048x32_S2048x1_0_13)
  | 14 => View.ld x3 (Rect.unit (s := S2048x32) ![0, 14] S2048x1.size inb_S2048x32_S2048x1_0_14)
  | 15 => View.ld x3 (Rect.unit (s := S2048x32) ![0, 15] S2048x1.size inb_S2048x32_S2048x1_0_15)
  | 16 => View.ld x3 (Rect.unit (s := S2048x32) ![0, 16] S2048x1.size inb_S2048x32_S2048x1_0_16)
  | 17 => View.ld x3 (Rect.unit (s := S2048x32) ![0, 17] S2048x1.size inb_S2048x32_S2048x1_0_17)
  | 18 => View.ld x3 (Rect.unit (s := S2048x32) ![0, 18] S2048x1.size inb_S2048x32_S2048x1_0_18)
  | 19 => View.ld x3 (Rect.unit (s := S2048x32) ![0, 19] S2048x1.size inb_S2048x32_S2048x1_0_19)
  | 20 => View.ld x3 (Rect.unit (s := S2048x32) ![0, 20] S2048x1.size inb_S2048x32_S2048x1_0_20)
  | 21 => View.ld x3 (Rect.unit (s := S2048x32) ![0, 21] S2048x1.size inb_S2048x32_S2048x1_0_21)
  | 22 => View.ld x3 (Rect.unit (s := S2048x32) ![0, 22] S2048x1.size inb_S2048x32_S2048x1_0_22)
  | 23 => View.ld x3 (Rect.unit (s := S2048x32) ![0, 23] S2048x1.size inb_S2048x32_S2048x1_0_23)
  | 24 => View.ld x3 (Rect.unit (s := S2048x32) ![0, 24] S2048x1.size inb_S2048x32_S2048x1_0_24)
  | 25 => View.ld x3 (Rect.unit (s := S2048x32) ![0, 25] S2048x1.size inb_S2048x32_S2048x1_0_25)
  | 26 => View.ld x3 (Rect.unit (s := S2048x32) ![0, 26] S2048x1.size inb_S2048x32_S2048x1_0_26)
  | 27 => View.ld x3 (Rect.unit (s := S2048x32) ![0, 27] S2048x1.size inb_S2048x32_S2048x1_0_27)
  | 28 => View.ld x3 (Rect.unit (s := S2048x32) ![0, 28] S2048x1.size inb_S2048x32_S2048x1_0_28)
  | 29 => View.ld x3 (Rect.unit (s := S2048x32) ![0, 29] S2048x1.size inb_S2048x32_S2048x1_0_29)
  | 30 => View.ld x3 (Rect.unit (s := S2048x32) ![0, 30] S2048x1.size inb_S2048x32_S2048x1_0_30)
  | 31 => View.ld x3 (Rect.unit (s := S2048x32) ![0, 31] S2048x1.size inb_S2048x32_S2048x1_0_31)
  | _ => View.ld x3 (Rect.unit (s := S2048x32) ![0, 0] S2048x1.size inb_S2048x32_S2048x1_0_0)

/-- A load through the 2048 × 1 rectangle at offset `(0, K)` reads, at row `r`, the block's entry `(r, K)`:
    the rectangle has unit strides, so its entry `(r, 0)` sits at `(0 + r, K + 0)`. -/
theorem ld_col_apply (x3 : Vec F S2048x32 .i32) (K : ℕ) (hK : K < 32)
    (h : ∀ a, (![0, K] : Fin 2 → ℕ) a + S2048x1.size a ≤ S2048x32.size a) (r : Fin 2048) :
    View.ld x3 (Rect.unit (s := S2048x32) ![0, K] S2048x1.size h) (ix2 r 0) = x3 (ix2 r ⟨K, hK⟩) := by
  refine congrArg x3 (funext fun a => Fin.ext ?_)
  match a with
  | ⟨0, _⟩ => show 0 + 1 * r.val = r.val; omega
  | ⟨1, _⟩ => show K + 1 * 0 = K; omega

/-- Column `K` at row `r` is the index block's entry `(r, K)`. -/
theorem colOf_apply (x3 : Vec F S2048x32 .i32) (K : Fin 32) (r : Fin 2048) :
    colOf x3 K.val (ix2 r 0) = x3 (ix2 r K) := by
  fin_cases K <;> exact ld_col_apply x3 _ _ _ r

/-! ## The body's named values

The body first forms the block of scores `k0_pay3` and, from the same inputs and the observation mask,
the block `s = k0_pay4 …` that everything else is computed from.  With `s`, the codebook `x4` and the
block of sample indices `x3` fixed, the 32 unrolled samples are folded three at a time: column `K` of the
index block is read through the 2048 × 1 rectangle at offset `(0, K)`, a sample's term is formed from it, and a
running per-row value is carried from sample to sample.  Each value below is one line of that fold, named by the
name it has in the body. -/

section chain

variable (s : FVec F S2048x18 .f32) (x4 : Vec F S384x18 .f32) (x3 : Vec F S2048x32 .i32)

/-- Sample 0: the running value is started from the constant `k0_pay8`. -/
def v95 : FVec F S2048x1 .f32 :=
  k0_pay10 (k0_pay8 (F := F)) (k0_pay9 s x4 (colOf x3 0))
/-- Samples 1 and 2. -/
def v123 : FVec F S2048x18 .f32 :=
  k0_pay11 s (k0_pay7 x4) colNumbers (colOf x3 1)
def v157 : FVec F S2048x1 .f32 :=
  k0_pay12 s (k0_pay7 x4) colNumbers (v95 s x4 x3) (v123 s x4 x3) (colOf x3 2)
/-- Sample 3. -/
def v169 : FVec F S2048x18 .f32 :=
  k0_pay13 s (k0_pay7 x4) colNumbers (colOf x3 3)
def v188 : FVec F S2048x1 .f32 := k0_pay14 (v157 s x4 x3) (v169 s x4 x3)
/-- Samples 4 and 5. -/
def v216 : FVec F S2048x18 .f32 :=
  k0_pay15 s (k0_pay7 x4) colNumbers (colOf x3 4)
def v250 : FVec F S2048x1 .f32 :=
  k0_pay16 s (k0_pay7 x4) colNumbers (v188 s x4 x3) (v216 s x4 x3) (colOf x3 5)
/-- Sample 6. -/
def v262 : FVec F S2048x18 .f32 :=
  k0_pay17 s (k0_pay7 x4) colNumbers (colOf x3 6)
def v281 : FVec F S2048x1 .f32 := k0_pay18 (v250 s x4 x3) (v262 s x4 x3)
/-- Samples 7 and 8. -/
def v309 : FVec F S2048x18 .f32 :=
  k0_pay19 s (k0_pay7 x4) colNumbers (colOf x3 7)
def v343 : FVec F S2048x1 .f32 :=
  k0_pay20 s (k0_pay7 x4) colNumbers (v281 s x4 x3) (v309 s x4 x3) (colOf x3 8)
/-- Sample 9. -/
def v355 : FVec F S2048x18 .f32 :=
  k0_pay21 s (k0_pay7 x4) colNumbers (colOf x3 9)
def v374 : FVec F S2048x1 .f32 := k0_pay22 (v343 s x4 x3) (v355 s x4 x3)
/-- Samples 10 and 11. -/
def v402 : FVec F S2048x18 .f32 :=
  k0_pay23 s (k0_pay7 x4) colNumbers (colOf x3 10)
def v436 : FVec F S2048x1 .f32 :=
  k0_pay24 s (k0_pay7 x4) colNumbers (v374 s x4 x3) (v402 s x4 x3) (colOf x3 11)
/-- Sample 12. -/
def v448 : FVec F S2048x18 .f32 :=
  k0_pay25 s (k0_pay7 x4) colNumbers (colOf x3 12)
def v467 : FVec F S2048x1 .f32 := k0_pay26 (v436 s x4 x3) (v448 s x4 x3)
/-- Samples 13 and 14. -/
def v495 : FVec F S2048x18 .f32 :=
  k0_pay27 s (k0_pay7 x4) colNumbers (colOf x3 13)
def v529 : FVec F S2048x1 .f32 :=
  k0_pay28 s (k0_pay7 x4) colNumbers (v467 s x4 x3) (v495 s x4 x3) (colOf x3 14)
/-- Sample 15. -/
def v541 : FVec F S2048x18 .f32 :=
  k0_pay29 s (k0_pay7 x4) colNumbers (colOf x3 15)
def v560 : FVec F S2048x1 .f32 := k0_pay30 (v529 s x4 x3) (v541 s x4 x3)
/-- Samples 16 and 17. -/
def v588 : FVec F S2048x18 .f32 :=
  k0_pay31 s (k0_pay7 x4) colNumbers (colOf x3 16)
def v622 : FVec F S2048x1 .f32 :=
  k0_pay32 s (k0_pay7 x4) colNumbers (v560 s x4 x3) (v588 s x4 x3) (colOf x3 17)
/-- Sample 18. -/
def v634 : FVec F S2048x18 .f32 :=
  k0_pay33 s (k0_pay7 x4) colNumbers (colOf x3 18)
def v653 : FVec F S2048x1 .f32 := k0_pay34 (v622 s x4 x3) (v634 s x4 x3)
/-- Samples 19 and 20. -/
def v681 : FVec F S2048x18 .f32 :=
  k0_pay35 s (k0_pay7 x4) colNumbers (colOf x3 19)
def v715 : FVec F S2048x1 .f32 :=
  k0_pay36 s (k0_pay7 x4) colNumbers (v653 s x4 x3) (v681 s x4 x3) (colOf x3 20)
/-- Sample 21. -/
def v727 : FVec F S2048x18 .f32 :=
  k0_pay37 s (k0_pay7 x4) colNumbers (colOf x3 21)
def v746 : FVec F S2048x1 .f32 := k0_pay38 (v715 s x4 x3) (v727 s x4 x3)
/-- Samples 22 and 23. -/
def v774 : FVec F S2048x18 .f32 :=
  k0_pay39 s (k0_pay7 x4) colNumbers (colOf x3 22)
def v808 : FVec F S2048x1 .f32 :=
  k0_pay40 s (k0_pay7 x4) colNumbers (v746 s x4 x3) (v774 s x4 x3) (colOf x3 23)
/-- Sample 24. -/
def v820 : FVec F S2048x18 .f32 :=
  k0_pay41 s (k0_pay7 x4) colNumbers (colOf x3 24)
def v839 : FVec F S2048x1 .f32 := k0_pay42 (v808 s x4 x3) (v820 s x4 x3)
/-- Samples 25 and 26. -/
def v867 : FVec F S2048x18 .f32 :=
  k0_pay43 s (k0_pay7 x4) colNumbers (colOf x3 25)
def v901 : FVec F S2048x1 .f32 :=
  k0_pay44 s (k0_pay7 x4) colNumbers (v839 s x4 x3) (v867 s x4 x3) (colOf x3 26)
/-- Sample 27. -/
def v913 : FVec F S2048x18 .f32 :=
  k0_pay45 s (k0_pay7 x4) colNumbers (colOf x3 27)
def v932 : FVec F S2048x1 .f32 := k0_pay46 (v901 s x4 x3) (v913 s x4 x3)
/-- Samples 28 and 29. -/
def v960 : FVec F S2048x18 .f32 :=
  k0_pay47 s (k0_pay7 x4) colNumbers (colOf x3 28)
def v994 : FVec F S2048x1 .f32 :=
  k0_pay48 s (k0_pay7 x4) colNumbers (v932 s x4 x3) (v960 s x4 x3) (colOf x3 29)
/-- Sample 30. -/
def v1006 : FVec F S2048x18 .f32 :=
  k0_pay49 s (k0_pay7 x4) colNumbers (colOf x3 30)
def v1025 : FVec F S2048x1 .f32 := k0_pay50 (v994 s x4 x3) (v1006 s x4 x3)
/-- Sample 31, whose term the total's payload takes by itself. -/
def v1053 : FVec F S2048x18 .f32 :=
  k0_pay51 s (k0_pay7 x4) colNumbers (colOf x3 31)

end chain

/-! ## The fold as a recursion -/

section fold
variable (s : FVec F S2048x18 .f32) (x4 : Vec F S384x18 .f32) (x3 : Vec F S2048x32 .i32)

/-- The running value after thirty-one samples is the tenth step of the three-at-a-time recursion over the columns:
    the body's later payloads are the first period's again. -/
theorem v1025_eq : v1025 s x4 x3 = negAcc s x4 (colOf x3) 10 := rfl

/-- The last sample's term, in the first period's payload. -/
theorem v1053_eq : v1053 s x4 x3 = k0_pay11 s (k0_pay7 x4) colNumbers (colOf x3 31) := rfl

end fold

/-! ## What each case leaves -/

section pieces

variable (c : Dev nD) (i : grid0.Coords)
  (arg1 : Memref sig .tc .vmem S2048x300 .f32) (harg1 : arg1.IsWhole)
  (arg2 : Memref sig .tc .vmem S2048x18 .f32) (harg2 : arg2.IsWhole)
  (arg3 : Memref sig .tc .vmem S2048x18 .f32) (harg3 : arg3.IsWhole)
  (arg4 : Memref sig .tc .vmem S2048x32 .i32) (harg4 : arg4.IsWhole)
  (arg5 : Memref sig .tc .vmem S384x18 .f32) (harg5 : arg5.IsWhole)
  (arg6 : Memref sig .tc .vmem S300x64 .f32) (harg6 : arg6.IsWhole)
  (arg7 : Memref sig .tc .vmem S1x64 .f32) (harg7 : arg7.IsWhole)
  (arg8 : Memref sig .tc .vmem S64x32 .f32) (harg8 : arg8.IsWhole)
  (arg9 : Memref sig .tc .vmem S1x32 .f32) (harg9 : arg9.IsWhole)
  (arg10 : Memref sig .tc .vmem S32x18 .f32) (harg10 : arg10.IsWhole)
  (arg11 : Memref sig .tc .vmem S1x18 .f32) (harg11 : arg11.IsWhole)
  (arg12 : Memref sig .tc .vmem S2048x18 .f32) (harg12 : arg12.IsWhole)
  (arg13 : Memref sig .tc .vmem S1x1 .f32) (harg13 : arg13.IsWhole)
  (arg14 : Memref sig .tc .vmem S1x1 .f32) (harg14 : arg14.IsWhole)
  (arg15 : Memref sig .tc .vmem S1x1 .f32) (harg15 : arg15.IsWhole)

set_option hygiene false in
/-- The step every lemma below ends with: a load of an input through its whole-shape rectangle at zero offsets
    reads the point's block; a load of a scratch after the store that covers it reads that store's payload; a
    column load stays a load of the index block; and the named values open to the body's payloads. -/
local macro "read_blocks" : tactic => `(tactic|
  simp only [View.readAt_eq_ld, harg1.read_unread, harg2.read_unread, harg3.read_unread, harg4.read_unread,
      harg5.read_unread, harg6.read_unread, harg7.read_unread, harg8.read_unread, harg9.read_unread, harg10.read_unread,
      harg11.read_unread, harg14.read_unread, harg15.read_unread,
      View.ld_unit_zero (S := S2048x300) hz, View.ld_unit_zero (S := S2048x18) hz, View.ld_unit_zero (S := S384x18) hz,
      View.ld_unit_zero (S := S300x64) hz, View.ld_unit_zero (S := S1x64) hz, View.ld_unit_zero (S := S64x32) hz,
      View.ld_unit_zero (S := S1x32) hz, View.ld_unit_zero (S := S32x18) hz, View.ld_unit_zero (S := S1x18) hz,
      View.ld_unit_zero (S := S1x1) hz,
      View.readCov_unit_zero (S := S1x1) _ hz,
      v95, v123, v157, v169, v188, v216, v250, v262, v281, v309, v343, v355, v374, v402, v436, v448, v467, v495, v529,
      v541, v560, v588, v622, v634, v653, v681, v715, v727, v746, v774, v808, v820, v839, v867, v901, v913, v932, v960, v994,
      v1006, v1025, v1053, colOf])

section caseA
variable (hc0 : cond0_0 i) (hc1 : ¬cond0_1 i) (x0 : Vec F S2048x300 .f32) (x1 : Vec F S2048x18 .f32) (x2 : Vec F S2048x18 .f32)
  (x3 : Vec F S2048x32 .i32) (x4 : Vec F S384x18 .f32) (x5 : Vec F S300x64 .f32) (x6 : Vec F S1x64 .f32)
  (x7 : Vec F S64x32 .f32) (x8 : Vec F S1x32 .f32) (x9 : Vec F S32x18 .f32) (x10 : Vec F S1x18 .f32)

/-- At the grid's first point the block of scores is stored whole. -/
theorem out0_A_11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay3 x0 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_unit_zero (S := S2048x18) hz]
  read_blocks

/-- At the first point the count is reset to the zeros `k0_pay1` and then updated from them: two stores, the
    later covering, and the load between them reads the zeros. -/
theorem sout0_A_0_eq : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = k0_pay53 (k0_pay5 (k0_pay4 x0 x5 x6 x7 x8 x9 x10 x2)) (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1x1) hz]
  read_blocks

/-- At the first point the total is reset to the zeros `k0_pay2` and then updated from them. -/
theorem sout0_A_1_eq : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 =
    k0_pay52 (k0_pay5 (k0_pay4 x0 x5 x6 x7 x8 x9 x10 x2)) (k0_pay6 (k0_pay4 x0 x5 x6 x7 x8 x9 x10 x2) x1)
      (v1025 (k0_pay4 x0 x5 x6 x7 x8 x9 x10 x2) x4 x3) (v1053 (k0_pay4 x0 x5 x6 x7 x8 x9 x10 x2) x4 x3) (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  rw [View.canon_cons_unit_zero (S := S1x1) hz]
  read_blocks

end caseA

section caseB
variable (hc0 : ¬cond0_0 i) (hc1 : ¬cond0_1 i) (x0 : Vec F S2048x300 .f32) (x1 : Vec F S2048x18 .f32) (x2 : Vec F S2048x18 .f32)
  (x3 : Vec F S2048x32 .i32) (x4 : Vec F S384x18 .f32) (x5 : Vec F S300x64 .f32) (x6 : Vec F S1x64 .f32)
  (x7 : Vec F S64x32 .f32) (x8 : Vec F S1x32 .f32) (x9 : Vec F S32x18 .f32) (x10 : Vec F S1x18 .f32) (xs0 : Vec F S1x1 .f32) (xs1 : Vec F S1x1 .f32)

/-- At a point between the first and the last the block of scores is stored whole. -/
theorem out0_B_11_eq : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay3 x0 x5 x6 x7 x8 x9 x10 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero (S := S2048x18) hz]
  read_blocks

/-- Between, the count is updated from what the point before left (`xs0`). -/
theorem sout0_B_0_eq : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay53 (k0_pay5 (k0_pay4 x0 x5 x6 x7 x8 x9 x10 x2)) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero (S := S1x1) hz]
  read_blocks

/-- Between, the total is updated from what the point before left (`xs1`). -/
theorem sout0_B_1_eq : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 =
    k0_pay52 (k0_pay5 (k0_pay4 x0 x5 x6 x7 x8 x9 x10 x2)) (k0_pay6 (k0_pay4 x0 x5 x6 x7 x8 x9 x10 x2) x1)
      (v1025 (k0_pay4 x0 x5 x6 x7 x8 x9 x10 x2) x4 x3) (v1053 (k0_pay4 x0 x5 x6 x7 x8 x9 x10 x2) x4 x3) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_B
  dsimp only
  sl_unfold_words
  rw [View.canon_unit_zero (S := S1x1) hz]
  read_blocks

end caseB

section caseC
variable (hc0 : ¬cond0_0 i) (hc1 : cond0_1 i) (x0 : Vec F S2048x300 .f32) (x1 : Vec F S2048x18 .f32) (x2 : Vec F S2048x18 .f32)
  (x3 : Vec F S2048x32 .i32) (x4 : Vec F S384x18 .f32) (x5 : Vec F S300x64 .f32) (x6 : Vec F S1x64 .f32)
  (x7 : Vec F S64x32 .f32) (x8 : Vec F S1x32 .f32) (x9 : Vec F S32x18 .f32) (x10 : Vec F S1x18 .f32) (xs0 : Vec F S1x1 .f32) (xs1 : Vec F S1x1 .f32)

/-- At the last point the block of scores is stored whole. -/
theorem out0_C_11_eq : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay3 x0 x5 x6 x7 x8 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero (S := S2048x18) hz]
  read_blocks

/-- At the last point the count is updated as between. -/
theorem sout0_C_0_eq : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k0_pay53 (k0_pay5 (k0_pay4 x0 x5 x6 x7 x8 x9 x10 x2)) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero (S := S1x1) hz]
  read_blocks

/-- At the last point the total is updated as between. -/
theorem sout0_C_1_eq : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 =
    k0_pay52 (k0_pay5 (k0_pay4 x0 x5 x6 x7 x8 x9 x10 x2)) (k0_pay6 (k0_pay4 x0 x5 x6 x7 x8 x9 x10 x2) x1)
      (v1025 (k0_pay4 x0 x5 x6 x7 x8 x9 x10 x2) x4 x3) (v1053 (k0_pay4 x0 x5 x6 x7 x8 x9 x10 x2) x4 x3) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero (S := S1x1) hz]
  read_blocks

/-- At the last point the loss is formed from the two scratches as just updated: the loads after the two updating
    stores read those stores' payloads. -/
theorem out0_C_12_eq : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 =
    k0_pay54 (k0_pay53 (k0_pay5 (k0_pay4 x0 x5 x6 x7 x8 x9 x10 x2)) xs0)
      (k0_pay52 (k0_pay5 (k0_pay4 x0 x5 x6 x7 x8 x9 x10 x2)) (k0_pay6 (k0_pay4 x0 x5 x6 x7 x8 x9 x10 x2) x1)
      (v1025 (k0_pay4 x0 x5 x6 x7 x8 x9 x10 x2) x4 x3) (v1053 (k0_pay4 x0 x5 x6 x7 x8 x9 x10 x2) x4 x3) xs1) := by
  unfold out0_C_12
  rw [View.read_writes_eq_canon _ _ _ (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun0_C
  dsimp only
  sl_unfold_words
  rw [View.canon_unit_zero (S := S1x1) hz]
  read_blocks

end caseC
end pieces

end Cert.KernelIdeal.Val

end
-- ==== Proof.Mlp.lean ====
/-
  The perceptron inside one grid point: the block of scores the kernel body computes from a block of 2048 input
  rows and the (whole) weight matrices and biases is the score function of Spec.lean on those 2048 rows, entry by
  entry. The three matrix products are exact sums at the extended reals (the narrowing of their operands to a
  shorter float format is the identity there), the biases are rows broadcast down the block, and the activation
  is the logistic function itself. The product with the observation mask gives the observed scores.
-/
import proofs.«412130_j67843303407889_2_alg».proof.Proof.Gen.KernelIdeal.Skeleton
import proofs.«412130_j67843303407889_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Cert.KernelIdeal Cert.KernelIdeal.Gen

namespace Cert.KernelIdeal.Val

/-! ## A plain matrix product read at an entry

The dimension numbers of a product of an m × k by a k × n matrix: no batch axes, the left operand's rows and the
right operand's columns kept, the left operand's columns contracted against the right operand's rows. -/

section Product

variable {m k n : Nat} (D : DotDims ⟨2, ![m, k]⟩ ⟨2, ![k, n]⟩ ⟨2, ![m, n]⟩)

/-- The left operand's row is the entry's row. -/
theorem lhs_row (hb : D.lhsBatch = []) (hn : D.lhsNonContracting = [0]) (j : (⟨2, ![m, n]⟩ : Shape).Idx) (q : D.contr.Idx) :
    (D.lhsIdx j q 0).val = (j 0).val := by
  unfold DotDims.lhsIdx
  rw [dif_neg (by rw [hb]; exact List.not_mem_nil), dif_pos (by rw [hn]; exact List.mem_singleton.mpr rfl)]
  simp only [Fin.val_cast]
  have key : ∀ (p p' : Nat) (hp : p < 2) (hp' : p' < 2), p = p' → (j ⟨p, hp⟩).val = (j ⟨p', hp'⟩).val :=
    fun p p' _ _ h => by subst h; rfl
  exact key _ _ _ _ (by simp [hb, hn])

/-- The right operand's column is the entry's column. -/
theorem rhs_col (hlb : D.lhsBatch = []) (hln : D.lhsNonContracting = [0]) (hb : D.rhsBatch = []) (hn : D.rhsNonContracting = [1])
    (j : (⟨2, ![m, n]⟩ : Shape).Idx) (q : D.contr.Idx) :
    (D.rhsIdx j q 1).val = (j 1).val := by
  unfold DotDims.rhsIdx
  rw [dif_neg (by rw [hb]; exact List.not_mem_nil), dif_pos (by rw [hn]; exact List.mem_singleton.mpr rfl)]
  simp only [Fin.val_cast]
  have key : ∀ (p p' : Nat) (hp : p < 2) (hp' : p' < 2), p = p' → (j ⟨p, hp⟩).val = (j ⟨p', hp'⟩).val :=
    fun p p' _ _ h => by subst h; rfl
  exact key _ _ _ _ (by simp [hlb, hln, hn])

/-- The product into a zero accumulator, at entry (a, b): the sum over the contracted coordinate c of the left
    operand at (a, c) times the right operand at (c, b). -/
theorem matmul_zero_entry {φ₁ φ₂ : FTy} (hlc : D.lhsContracting = [1]) (hrc : D.rhsContracting = [0])
    (hln : D.lhsNonContracting = [0]) (hrn : D.rhsNonContracting = [1]) (hlb : D.lhsBatch = []) (hrb : D.rhsBatch = [])
    (A : FVec Ideal ⟨2, ![m, k]⟩ φ₁) (B : FVec Ideal ⟨2, ![k, n]⟩ φ₂) (a : Fin m) (b : Fin n) :
    matmul D none A B (constant (F := Ideal) ⟨2, ![m, n]⟩ .f32 0x00000000#32) (ix2 a b)
      = ∑ c : Fin k, A (ix2 a c) * B (ix2 c b) := by
  have hr : D.contr.rank = 1 := by rw [D.rank_contr, hlc]; rfl
  have h0 : 0 < D.lhsContracting.length := by rw [hlc]; exact Nat.one_pos
  have e0 : D.lhsContracting[0]'h0 = (1 : Fin 2) := by simp [hlc]
  have hs : D.contr.size ⟨0, by omega⟩ = k := (D.size_contr 0 h0).trans (by rw [e0]; rfl)
  refine (Ideal.matmul_constant_zero_apply D none A B (ix2 a b)).trans ?_
  rw [← Equiv.sum_comp (contrEquiv1 D k hr hs).symm]
  refine Finset.sum_congr rfl fun c _ => ?_
  have hc := contrEquiv1_symm_val D k hr hs c
  have eA : D.lhsIdx (ix2 a b) ((contrEquiv1 D k hr hs).symm c) = ix2 a c := by
    funext ax; apply Fin.ext
    match ax with
    | ⟨0, _⟩ => exact lhs_row D hlb hln _ _
    | ⟨1, _⟩ => exact (D.lhsIdx_val_of_single hlc _ _).trans hc
  have eB : D.rhsIdx (ix2 a b) ((contrEquiv1 D k hr hs).symm c) = ix2 c b := by
    funext ax; apply Fin.ext
    match ax with
    | ⟨0, _⟩ => exact (D.rhsIdx_val_of_single hrc _ _).trans hc
    | ⟨1, _⟩ => exact rhs_col D hlb hln hrb hrn _ _
  rw [eA, eB]

/-- One layer before its activation, at entry (r, j): both operands narrowed (no change at the extended reals),
    the product into a zero accumulator, and the bias row laid on every row of the block. -/
theorem layer_entry (hlc : D.lhsContracting = [1]) (hrc : D.rhsContracting = [0])
    (hln : D.lhsNonContracting = [0]) (hrn : D.rhsNonContracting = [1]) (hlb : D.lhsBatch = []) (hrb : D.rhsBatch = [])
    (A : FVec Ideal ⟨2, ![m, k]⟩ .f32) (W : FVec Ideal ⟨2, ![k, n]⟩ .f32) (bias : FVec Ideal ⟨2, ![1, n]⟩ .f32)
    (hbits : FTy.bits .bf16 < FTy.bits .f32) (hc : (⟨2, ![1, n]⟩ : Shape).ShapeCasts ⟨2, ![1, n]⟩)
    (hb : (⟨2, ![1, n]⟩ : Shape).Broadcasts ⟨2, ![m, n]⟩) (r : Fin m) (j : Fin n) :
    addf (matmul D none (truncf .bf16 A hbits) (truncf .bf16 W hbits) (constant (F := Ideal) ⟨2, ![m, n]⟩ .f32 0x00000000#32))
        (broadcastTo ⟨2, ![m, n]⟩ (shapeCast ⟨2, ![1, n]⟩ bias hc) hb) (ix2 r j)
      = (∑ d : Fin k, A (ix2 r d) * W (ix2 d j)) + bias (ix2 0 j) := by
  rw [addf_apply, matmul_zero_entry D hlc hrc hln hrn hlb hrb, broadcastTo_1b_ab_apply, shapeCast_self]
  rfl

end Product

/-- The stored block of scores, at row r and attribute a of the block. -/
theorem pay3_apply (v3 : Vec Ideal S2048x300 .f32) (v5 : Vec Ideal S300x64 .f32) (v8 : Vec Ideal S1x64 .f32) (v13 : Vec Ideal S64x32 .f32)
    (v17 : Vec Ideal S1x32 .f32) (v22 : Vec Ideal S32x18 .f32) (v26 : Vec Ideal S1x18 .f32) (r : Fin 2048) (a : Fin 18) :
    k0_pay3 (F := Ideal) v3 v5 v8 v13 v17 v22 v26 (ix2 r a)
      = Cert.Spec.wu (fun r d => v3 (ix2 r d)) (fun d j => v5 (ix2 d j)) (fun j => v8 (ix2 0 j)) (fun d j => v13 (ix2 d j))
          (fun j => v17 (ix2 0 j)) (fun d j => v22 (ix2 d j)) (fun j => v26 (ix2 0 j)) r a := by
  unfold k0_pay3 Cert.Spec.wu
  -- the third layer: the second hidden layer times the third weights, plus the third bias
  refine (layer_entry dot_S2048x32_S32x18_S2048x18_1_0_0_1_n_n rfl rfl rfl rfl rfl rfl _ v22 v26 _ _ _ r a).trans ?_
  refine congrArg (· + v26 (ix2 0 a)) (Finset.sum_congr rfl fun d _ => congrArg (· * v22 (ix2 d a)) ?_)
  -- the second hidden layer at (r, d): the logistic of the second layer
  unfold Cert.Spec.hid2
  refine congrArg Ideal.logistic ?_
  refine (layer_entry dot_S2048x64_S64x32_S2048x32_1_0_0_1_n_n rfl rfl rfl rfl rfl rfl _ v13 v17 _ _ _ r d).trans ?_
  refine congrArg (· + v17 (ix2 0 d)) (Finset.sum_congr rfl fun e _ => congrArg (· * v13 (ix2 e d)) ?_)
  -- the first hidden layer at (r, e): the logistic of the first layer
  unfold Cert.Spec.hid1
  refine congrArg Ideal.logistic ?_
  exact layer_entry dot_S2048x300_S300x64_S2048x64_1_0_0_1_n_n rfl rfl rfl rfl rfl rfl v3 v5 v8 _ _ _ r e

/-- The observed scores: the block of scores times the block of the observation mask. -/
theorem pay4_apply (v3 : Vec Ideal S2048x300 .f32) (v5 : Vec Ideal S300x64 .f32) (v8 : Vec Ideal S1x64 .f32) (v13 : Vec Ideal S64x32 .f32)
    (v17 : Vec Ideal S1x32 .f32) (v22 : Vec Ideal S32x18 .f32) (v26 : Vec Ideal S1x18 .f32) (v31 : Vec Ideal S2048x18 .f32) (r : Fin 2048) (a : Fin 18) :
    k0_pay4 (F := Ideal) v3 v5 v8 v13 v17 v22 v26 v31 (ix2 r a)
      = Cert.Spec.wc (Cert.Spec.wu (fun r d => v3 (ix2 r d)) (fun d j => v5 (ix2 d j)) (fun j => v8 (ix2 0 j)) (fun d j => v13 (ix2 d j))
          (fun j => v17 (ix2 0 j)) (fun d j => v22 (ix2 d j)) (fun j => v26 (ix2 0 j))) (fun r a => v31 (ix2 r a)) r a :=
  congrArg (· * v31 (ix2 r a)) (pay3_apply v3 v5 v8 v13 v17 v22 v26 r a)

end Cert.KernelIdeal.Val

end
-- ==== Proof.Tile.lean ====
/-
  One grid point of the kernel, over the extended reals, in the terms of Spec.lean.

  From the point's blocks the body leaves: the block of scores; the carried count plus the number of counted rows
  of the block; the carried weighted total plus the block's rows' weighted contributions (the row mask times the
  positive term plus the 32 samples' negative terms, the samples' codebook rows named by the block of index words,
  each below 384); and, at the last point, the loss from the two carried values.
-/
import proofs.«412130_j67843303407889_2_alg».proof.Proof.Pieces
import proofs.«412130_j67843303407889_2_alg».proof.Proof.Mlp

noncomputable section

open scoped BigOperators
open Idealize.ShloMosaic Idealize.ShloMosaic.ValueIdx Cert.KernelIdeal Cert.KernelIdeal.Gen

namespace Cert.KernelIdeal.Val

variable (x0 : Vec Ideal S2048x300 .f32) (x1 x2 : Vec Ideal S2048x18 .f32) (x3 : Vec Ideal S2048x32 .i32) (x4 : Vec Ideal S384x18 .f32)
  (x5 : Vec Ideal S300x64 .f32) (x6 : Vec Ideal S1x64 .f32) (x7 : Vec Ideal S64x32 .f32) (x8 : Vec Ideal S1x32 .f32)
  (x9 : Vec Ideal S32x18 .f32) (x10 : Vec Ideal S1x18 .f32)

/-- The block's scores, by coordinates. -/
def tS : Fin 2048 → Fin 18 → EReal :=
  Cert.Spec.wu (fun r d => x0 (ix2 r d)) (fun d j => x5 (ix2 d j)) (fun j => x6 (ix2 0 j)) (fun d j => x7 (ix2 d j))
    (fun j => x8 (ix2 0 j)) (fun d j => x9 (ix2 d j)) (fun j => x10 (ix2 0 j))
/-- The block of the observation mask, of the labels, the codebook, by coordinates. -/
def tOb : Fin 2048 → Fin 18 → EReal := fun r a => x2 (ix2 r a)
def tY : Fin 2048 → Fin 18 → EReal := fun r a => x1 (ix2 r a)
def tCb : Fin 384 → Fin 18 → EReal := fun g a => x4 (ix2 g a)
/-- The codebook row the block's index word (r, k) names. -/
def tRow : Fin 2048 → Fin 32 → Fin 384 := fun r k => ⟨(x3 (ix2 r k)).toNat % 384, Nat.mod_lt _ (by norm_num)⟩
/-- The same with the sample given as a natural number (sample 0 again beyond the 32). -/
def tRowN : Fin 2048 → ℕ → Fin 384 := fun r k => if h : k < 32 then tRow x3 r ⟨k, h⟩ else tRow x3 r 0

/-- The block of observed scores. -/
theorem obs_apply (r : Fin 2048) (a : Fin 18) :
    k0_pay4 (F := Ideal) x0 x5 x6 x7 x8 x9 x10 x2 (ix2 r a) = Cert.Spec.wc (tS x0 x5 x6 x7 x8 x9 x10) (tOb x2) r a := pay4_apply x0 x5 x6 x7 x8 x9 x10 x2 r a

/-- The block of scores. -/
theorem tile_scores (r : Fin 2048) (a : Fin 18) : k0_pay3 (F := Ideal) x0 x5 x6 x7 x8 x9 x10 (ix2 r a) = tS x0 x5 x6 x7 x8 x9 x10 r a := pay3_apply x0 x5 x6 x7 x8 x9 x10 r a

/-- The carried count after the point. -/
theorem tile_count (prev : Vec Ideal S1x1 .f32) :
    k0_pay53 (F := Ideal) (k0_pay5 (k0_pay4 x0 x5 x6 x7 x8 x9 x10 x2)) prev (ix2 0 0) = prev (ix2 0 0) + Cert.Spec.sumM (tS x0 x5 x6 x7 x8 x9 x10) (tOb x2) := by
  rw [pay53_apply]
  refine congrArg (fun z => prev (ix2 0 0) + z) (Finset.sum_congr rfl fun r _ => ?_)
  rw [pay5_apply]
  simp only [obs_apply]
  rfl

/-- An index word below 384 is the word of its own value. -/
theorem word_eq (v : BitVec 32) (h : v.toNat < 384) : v = BitVec.ofNat 32 (v.toNat % 384) := by
  apply BitVec.eq_of_toNat_eq
  rw [BitVec.toNat_ofNat, Nat.mod_eq_of_lt h, Nat.mod_eq_of_lt v.isLt]

/-- The carried weighted total after the point. -/
theorem tile_total (prev : Vec Ideal S1x1 .f32) (hx3 : ∀ (r : Fin 2048) (k : Fin 32), (x3 (ix2 r k)).toNat < 384) :
    k0_pay52 (F := Ideal) (k0_pay5 (k0_pay4 x0 x5 x6 x7 x8 x9 x10 x2)) (k0_pay6 (k0_pay4 x0 x5 x6 x7 x8 x9 x10 x2) x1)
        (v1025 (k0_pay4 x0 x5 x6 x7 x8 x9 x10 x2) x4 x3) (v1053 (k0_pay4 x0 x5 x6 x7 x8 x9 x10 x2) x4 x3) prev (ix2 0 0)
      = prev (ix2 0 0) + Cert.Spec.sumW (tS x0 x5 x6 x7 x8 x9 x10) (tOb x2) (tY x1) (tCb x4) (tRow x3) := by
  have hcol : ∀ k, k ≤ 31 → ∀ r : Fin 2048, colOf x3 k (ix2 r 0) = BitVec.ofNat 32 (tRowN x3 r k).val := by
    intro k hk r
    have hk' : k < 32 := by omega
    have e := colOf_apply x3 ⟨k, hk'⟩ r
    rw [e]
    show _ = BitVec.ofNat 32 (if h : k < 32 then tRow x3 r ⟨k, h⟩ else tRow x3 r 0).val
    rw [dif_pos hk']
    exact word_eq _ (hx3 r ⟨k, hk'⟩)
  rw [pay52_apply]
  refine congrArg (fun z => prev (ix2 0 0) + z) (Finset.sum_congr rfl fun r _ => ?_)
  rw [pay5_apply, pay6_apply, v1025_eq, v1053_eq, negTotal_apply (k0_pay4 x0 x5 x6 x7 x8 x9 x10 x2) x4 (colOf x3) (tRowN x3) hcol r]
  simp only [obs_apply]
  show _ = Cert.Spec.rowMask (tS x0 x5 x6 x7 x8 x9 x10) (tOb x2) r * (Cert.Spec.posTerm (tS x0 x5 x6 x7 x8 x9 x10) (tOb x2) (tY x1) r + ∑ k : Fin 32, Cert.Spec.negOne (tS x0 x5 x6 x7 x8 x9 x10) (tOb x2) (tCb x4) (tRow x3) r k)
  refine congrArg (fun z => Cert.Spec.rowMask (tS x0 x5 x6 x7 x8 x9 x10) (tOb x2) r * (Cert.Spec.posTerm (tS x0 x5 x6 x7 x8 x9 x10) (tOb x2) (tY x1) r + z)) (Finset.sum_congr rfl fun k _ => ?_)
  unfold negShare Cert.Spec.negOne
  refine Finset.sum_congr rfl fun a _ => ?_
  rw [obs_apply]
  show Cert.Spec.logSig (-(x4 (ix2 (if h : k.val < 32 then tRow x3 r ⟨k.val, h⟩ else tRow x3 r 0) a)) * _) = _
  rw [dif_pos k.isLt]
  rfl

/-- The loss from the two carried values. -/
theorem tile_loss (cnt tot : Vec Ideal S1x1 .f32) : k0_pay54 (F := Ideal) cnt tot (ix2 0 0) = Cert.Spec.lossOf (tot (ix2 0 0)) (cnt (ix2 0 0)) :=
  pay54_apply cnt tot

end Cert.KernelIdeal.Val

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Batch.lean ====
/-
  From blocks of 2048 rows to the batch of 131072 rows.

  Row r of block t is row 2048 t + r of the batch. Every per-row function of Spec.lean reads its own row only, so
  on a block of the arrays it is the batch's function at that row (by unfolding), and a sum over the batch is the
  sum over the 64 blocks of the blocks' sums. The kernel adds a block's sums to running totals one grid point
  after the other, from zero: `accSum f n` is the running total after point n.
-/
import proofs.«412130_j67843303407889_2_alg».proof.Proof.Spec
import proofs.«412130_j67843303407889_2_alg».proof.Proof.LibSumBlocks

noncomputable section

open scoped BigOperators

namespace Cert.Batch

open Cert.Spec

theorem blocks_eq : 64 * 2048 = 131072 := by norm_num

/-- Row r of block t, as a row of the batch. -/
def rowIn (t : Fin 64) (r : Fin 2048) : Fin 131072 := ⟨2048 * t.val + r.val, Cert.LibSumBlocks.block_lt blocks_eq t r⟩

/-- A sum over the batch is the sum over the blocks of the sums over each block's rows. -/
theorem sum_rows {M : Type*} [AddCommMonoid M] (f : Fin 131072 → M) : ∑ b : Fin 131072, f b = ∑ t : Fin 64, ∑ r : Fin 2048, f (rowIn t r) :=
  (Cert.LibSumBlocks.sum_blocks blocks_eq f).symm

section Restrict

variable (x : Fin 131072 → Fin 300 → EReal) (W1 : Fin 300 → Fin 64 → EReal) (b1 : Fin 64 → EReal)
  (W2 : Fin 64 → Fin 32 → EReal) (b2 : Fin 32 → EReal) (W3 : Fin 32 → Fin 18 → EReal) (b3 : Fin 18 → EReal)
  (s ob y : Fin 131072 → Fin 18 → EReal) (cb : Fin 384 → Fin 18 → EReal) (row : Fin 131072 → Fin 32 → Fin 384) (t : Fin 64)

/-- The scores of a block of input rows are the batch's scores at those rows. -/
theorem wu_block (r : Fin 2048) (a : Fin 18) :
    wu (fun r d => x (rowIn t r) d) W1 b1 W2 b2 W3 b3 r a = wu x W1 b1 W2 b2 W3 b3 (rowIn t r) a := rfl

theorem rowMask_block (r : Fin 2048) :
    rowMask (fun r a => s (rowIn t r) a) (fun r a => ob (rowIn t r) a) r = rowMask s ob (rowIn t r) := rfl

theorem rowTerm_block (r : Fin 2048) :
    rowTerm (fun r a => s (rowIn t r) a) (fun r a => ob (rowIn t r) a) (fun r a => y (rowIn t r) a) cb (fun r k => row (rowIn t r) k) r
      = rowTerm s ob y cb row (rowIn t r) := rfl

end Restrict

/-- The number of counted rows of the batch is the sum of the blocks' counts. -/
theorem sumM_blocks (s ob : Fin 131072 → Fin 18 → EReal) :
    sumM s ob = ∑ t : Fin 64, sumM (fun r a => s (rowIn t r) a) (fun r a => ob (rowIn t r) a) := by
  unfold sumM
  rw [sum_rows]
  rfl

/-- The batch's weighted sum is the sum of the blocks' weighted sums. -/
theorem sumW_blocks (s ob y : Fin 131072 → Fin 18 → EReal) (cb : Fin 384 → Fin 18 → EReal) (row : Fin 131072 → Fin 32 → Fin 384) :
    sumW s ob y cb row
      = ∑ t : Fin 64, sumW (fun r a => s (rowIn t r) a) (fun r a => ob (rowIn t r) a) (fun r a => y (rowIn t r) a) cb (fun r k => row (rowIn t r) k) := by
  unfold sumW
  rw [sum_rows]
  rfl

/-- The running total after point n of values added one point after the other, from zero. -/
def accSum (f : ℕ → EReal) : ℕ → EReal
  | 0 => 0 + f 0
  | n + 1 => accSum f n + f (n + 1)

theorem accSum_eq_sum (f : ℕ → EReal) (n : ℕ) : accSum f n = ∑ k ∈ Finset.range (n + 1), f k := by
  induction n with
  | zero => rw [Finset.sum_range_one]; exact zero_add _
  | succ n ih => rw [Finset.sum_range_succ, ← ih]; rfl

/-- After the last of the 64 points the running total is the sum over the blocks. -/
theorem accSum_last (g : Fin 64 → EReal) : accSum (fun k => if h : k < 64 then g ⟨k, h⟩ else 0) 63 = ∑ t : Fin 64, g t := by
  rw [accSum_eq_sum, Finset.sum_range]
  exact Finset.sum_congr rfl fun t _ => by rw [dif_pos t.isLt]

end Cert.Batch

end
-- ==== Proof.BlockRead.lean ====
/-
  What a grid point's input blocks hold, entry by entry, in terms of the argument arrays at launch.

  The first four windows walk down the batch in blocks of 2048 rows: entry (r, d) of the block at point t is
  entry (2048 t + r, d) of the array (a block's coordinate is the block index times the block size plus the
  coordinate inside the block). The other seven windows hold a whole array at every point; three of them hold a
  bias vector reshaped to one row by a host operation before the kernel, so their entry (0, j) is the vector's
  entry j. No host operation writes an argument array, so the arrays are as the memory has them at launch.
-/
import proofs.«412130_j67843303407889_2_alg».proof.Proof.Gen.KernelIdeal.Frame
import proofs.«412130_j67843303407889_2_alg».proof.Proof.Batch
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat Cfg Window)

variable {F : FTy → Type} [FloatOps F]
variable (m : (ℓ : Loc nD τ sig) → Buf (Elt F) ℓ)

/-- A grid point as a number below 64. -/
def tOf (t : Fin cfg0.N) : Fin 64 := ⟨t.val, lt_of_lt_of_eq t.isLt (show cfg0.N = 64 from N_0)⟩

/-! ## Where the index maps put each window's block

Decided once over the 64 grid points: the four batch windows sit at block (t, 0) at point t, the seven others at
block (0, 0) at every point. -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)

/-! ## The three bias rows

Each is written before the kernel by one reshape of an argument vector of n entries to one row of n entries; the
two later reshapes write other arrays and leave it alone. -/

/-- The first bias row as the kernel finds it: the argument vector of 64 entries reshaped to one row. -/
theorem V_main_v0 (c : Dev nD) :
    (V m c main_v0 : Vec F S1x64 .f32) = shapeCast S1x64 (m ((c.tc : Thread nD τ).loc main_arg5)) shapeCasts_S64_S1x64 := by
  show StableHlo.after hostOps0 (fun b => m (c, b)) (Proc.devRef .tc main_v0) = _
  after_results
  rfl
/-- The second bias row: the argument vector of 32 entries reshaped to one row. -/
theorem V_main_v1 (c : Dev nD) :
    (V m c main_v1 : Vec F S1x32 .f32) = shapeCast S1x32 (m ((c.tc : Thread nD τ).loc main_arg7)) shapeCasts_S32_S1x32 := by
  show StableHlo.after hostOps0 (fun b => m (c, b)) (Proc.devRef .tc main_v1) = _
  after_results
  rfl
/-- The third bias row: the argument vector of 18 entries reshaped to one row. -/
theorem V_main_v2 (c : Dev nD) :
    (V m c main_v2 : Vec F S1x18 .f32) = shapeCast S1x18 (m ((c.tc : Thread nD τ).loc main_arg9)) shapeCasts_S18_S1x18 := by
  show StableHlo.after hostOps0 (fun b => m (c, b)) (Proc.devRef .tc main_v2) = _
  after_results
  rfl

/-! ## The blocks, entry by entry

A block's coordinate on an axis is the block index times the block size plus the coordinate inside the block. -/

theorem iblk0_apply (c : Dev nD) (t : Fin cfg0.N) (r : Fin 2048) (d : Fin 300) :
    (iblk m c 0 t : Vec F S2048x300 .f32) (ix2 r d) = (m ((c.tc : Thread nD τ).loc main_arg0)) (ix2 (Cert.Batch.rowIn (tOf t) r) d) := by
  unfold iblk
  rw [View.read_apply]
  show V m c main_arg0 _ = m (c.tc.loc main_arg0) _
  refine (congrFun (V_main_arg0 m c) _).trans ?_
  refine congrArg (m (c.tc.loc main_arg0)) (funext fun a => Fin.ext ?_)
  match a with
  | ⟨0, _⟩ =>
    show win0_0.index t 0 * 2048 + 1 * r.val = 2048 * t.val + r.val
    rw [(index0 t).1]; omega
  | ⟨1, _⟩ =>
    show win0_0.index t 1 * 300 + 1 * d.val = d.val
    rw [(index0 t).2]; omega
theorem iblk1_apply (c : Dev nD) (t : Fin cfg0.N) (r : Fin 2048) (a : Fin 18) :
    (iblk m c 1 t : Vec F S2048x18 .f32) (ix2 r a) = (m ((c.tc : Thread nD τ).loc main_arg1)) (ix2 (Cert.Batch.rowIn (tOf t) r) a) := by
  unfold iblk
  rw [View.read_apply]
  show V m c main_arg1 _ = m (c.tc.loc main_arg1) _
  refine (congrFun (V_main_arg1 m c) _).trans ?_
  refine congrArg (m (c.tc.loc main_arg1)) (funext fun x => Fin.ext ?_)
  match x with
  | ⟨0, _⟩ =>
    show win0_1.index t 0 * 2048 + 1 * r.val = 2048 * t.val + r.val
    rw [(index1 t).1]; omega
  | ⟨1, _⟩ =>
    show win0_1.index t 1 * 18 + 1 * a.val = a.val
    rw [(index1 t).2]; omega
theorem iblk2_apply (c : Dev nD) (t : Fin cfg0.N) (r : Fin 2048) (a : Fin 18) :
    (iblk m c 2 t : Vec F S2048x18 .f32) (ix2 r a) = (m ((c.tc : Thread nD τ).loc main_arg2)) (ix2 (Cert.Batch.rowIn (tOf t) r) a) := by
  unfold iblk
  rw [View.read_apply]
  show V m c main_arg2 _ = m (c.tc.loc main_arg2) _
  refine (congrFun (V_main_arg2 m c) _).trans ?_
  refine congrArg (m (c.tc.loc main_arg2)) (funext fun x => Fin.ext ?_)
  match x with
  | ⟨0, _⟩ =>
    show win0_2.index t 0 * 2048 + 1 * r.val = 2048 * t.val + r.val
    rw [(index2 t).1]; omega
  | ⟨1, _⟩ =>
    show win0_2.index t 1 * 18 + 1 * a.val = a.val
    rw [(index2 t).2]; omega
theorem iblk3_apply (c : Dev nD) (t : Fin cfg0.N) (r : Fin 2048) (k : Fin 32) :
    (iblk m c 3 t : Vec F S2048x32 .i32) (ix2 r k) = (m ((c.tc : Thread nD τ).loc main_arg10)) (ix2 (Cert.Batch.rowIn (tOf t) r) k) := by
  unfold iblk
  rw [View.read_apply]
  show V m c main_arg10 _ = m (c.tc.loc main_arg10) _
  refine (congrFun (V_main_arg10 m c) _).trans ?_
  refine congrArg (m (c.tc.loc main_arg10)) (funext fun x => Fin.ext ?_)
  match x with
  | ⟨0, _⟩ =>
    show win0_3.index t 0 * 2048 + 1 * r.val = 2048 * t.val + r.val
    rw [(index3 t).1]; omega
  | ⟨1, _⟩ =>
    show win0_3.index t 1 * 32 + 1 * k.val = k.val
    rw [(index3 t).2]; omega
theorem iblk4_apply (c : Dev nD) (t : Fin cfg0.N) (p : Fin 384) (q : Fin 18) :
    (iblk m c 4 t : Vec F S384x18 .f32) (ix2 p q) = (m ((c.tc : Thread nD τ).loc main_arg3)) (ix2 p q) := by
  unfold iblk
  rw [View.read_apply]
  show V m c main_arg3 _ = m (c.tc.loc main_arg3) _
  refine (congrFun (V_main_arg3 m c) _).trans ?_
  refine congrArg (m (c.tc.loc main_arg3)) (funext fun x => Fin.ext ?_)
  match x with
  | ⟨0, _⟩ =>
    show win0_4.index t 0 * 384 + 1 * p.val = p.val
    rw [(index4 t).1]; omega
  | ⟨1, _⟩ =>
    show win0_4.index t 1 * 18 + 1 * q.val = q.val
    rw [(index4 t).2]; omega
theorem iblk5_apply (c : Dev nD) (t : Fin cfg0.N) (p : Fin 300) (q : Fin 64) :
    (iblk m c 5 t : Vec F S300x64 .f32) (ix2 p q) = (m ((c.tc : Thread nD τ).loc main_arg4)) (ix2 p q) := by
  unfold iblk
  rw [View.read_apply]
  show V m c main_arg4 _ = m (c.tc.loc main_arg4) _
  refine (congrFun (V_main_arg4 m c) _).trans ?_
  refine congrArg (m (c.tc.loc main_arg4)) (funext fun x => Fin.ext ?_)
  match x with
  | ⟨0, _⟩ =>
    show win0_5.index t 0 * 300 + 1 * p.val = p.val
    rw [(index5 t).1]; omega
  | ⟨1, _⟩ =>
    show win0_5.index t 1 * 64 + 1 * q.val = q.val
    rw [(index5 t).2]; omega
theorem iblk6_apply (c : Dev nD) (t : Fin cfg0.N) (j : Fin 64) :
    (iblk m c 6 t : Vec F S1x64 .f32) (ix2 0 j) = (m ((c.tc : Thread nD τ).loc main_arg5)) (ix1 j) := by
  unfold iblk
  rw [View.read_apply]
  show V m c main_v0 _ = m (c.tc.loc main_arg5) _
  refine (congrFun (V_main_v0 m c) _).trans ?_
  refine shapeCast_apply (m (c.tc.loc main_arg5)) shapeCasts_S64_S1x64 _ (ix1 j) ?_
  show ((⟨1, ![64]⟩ : Shape).rowMajor (ix1 j)).val
    = ((⟨2, ![1, 64]⟩ : Shape).rowMajor (((cfg0.win 6).blk t).view.emb (ix2 (0 : Fin 1) j))).val
  rw [Shape.rowMajor_val_one, Shape.rowMajor_val_two]
  show j.val = (win0_6.index t 0 * 1 + 1 * 0) * 64 + (win0_6.index t 1 * 64 + 1 * j.val)
  rw [(index6 t).1, (index6 t).2]; omega
theorem iblk7_apply (c : Dev nD) (t : Fin cfg0.N) (p : Fin 64) (q : Fin 32) :
    (iblk m c 7 t : Vec F S64x32 .f32) (ix2 p q) = (m ((c.tc : Thread nD τ).loc main_arg6)) (ix2 p q) := by
  unfold iblk
  rw [View.read_apply]
  show V m c main_arg6 _ = m (c.tc.loc main_arg6) _
  refine (congrFun (V_main_arg6 m c) _).trans ?_
  refine congrArg (m (c.tc.loc main_arg6)) (funext fun x => Fin.ext ?_)
  match x with
  | ⟨0, _⟩ =>
    show win0_7.index t 0 * 64 + 1 * p.val = p.val
    rw [(index7 t).1]; omega
  | ⟨1, _⟩ =>
    show win0_7.index t 1 * 32 + 1 * q.val = q.val
    rw [(index7 t).2]; omega
theorem iblk8_apply (c : Dev nD) (t : Fin cfg0.N) (j : Fin 32) :
    (iblk m c 8 t : Vec F S1x32 .f32) (ix2 0 j) = (m ((c.tc : Thread nD τ).loc main_arg7)) (ix1 j) := by
  unfold iblk
  rw [View.read_apply]
  show V m c main_v1 _ = m (c.tc.loc main_arg7) _
  refine (congrFun (V_main_v1 m c) _).trans ?_
  refine shapeCast_apply (m (c.tc.loc main_arg7)) shapeCasts_S32_S1x32 _ (ix1 j) ?_
  show ((⟨1, ![32]⟩ : Shape).rowMajor (ix1 j)).val
    = ((⟨2, ![1, 32]⟩ : Shape).rowMajor (((cfg0.win 8).blk t).view.emb (ix2 (0 : Fin 1) j))).val
  rw [Shape.rowMajor_val_one, Shape.rowMajor_val_two]
  show j.val = (win0_8.index t 0 * 1 + 1 * 0) * 32 + (win0_8.index t 1 * 32 + 1 * j.val)
  rw [(index8 t).1, (index8 t).2]; omega
theorem iblk9_apply (c : Dev nD) (t : Fin cfg0.N) (p : Fin 32) (q : Fin 18) :
    (iblk m c 9 t : Vec F S32x18 .f32) (ix2 p q) = (m ((c.tc : Thread nD τ).loc main_arg8)) (ix2 p q) := by
  unfold iblk
  rw [View.read_apply]
  show V m c main_arg8 _ = m (c.tc.loc main_arg8) _
  refine (congrFun (V_main_arg8 m c) _).trans ?_
  refine congrArg (m (c.tc.loc main_arg8)) (funext fun x => Fin.ext ?_)
  match x with
  | ⟨0, _⟩ =>
    show win0_9.index t 0 * 32 + 1 * p.val = p.val
    rw [(index9 t).1]; omega
  | ⟨1, _⟩ =>
    show win0_9.index t 1 * 18 + 1 * q.val = q.val
    rw [(index9 t).2]; omega
theorem iblk10_apply (c : Dev nD) (t : Fin cfg0.N) (j : Fin 18) :
    (iblk m c 10 t : Vec F S1x18 .f32) (ix2 0 j) = (m ((c.tc : Thread nD τ).loc main_arg9)) (ix1 j) := by
  unfold iblk
  rw [View.read_apply]
  show V m c main_v2 _ = m (c.tc.loc main_arg9) _
  refine (congrFun (V_main_v2 m c) _).trans ?_
  refine shapeCast_apply (m (c.tc.loc main_arg9)) shapeCasts_S18_S1x18 _ (ix1 j) ?_
  show ((⟨1, ![18]⟩ : Shape).rowMajor (ix1 j)).val
    = ((⟨2, ![1, 18]⟩ : Shape).rowMajor (((cfg0.win 10).blk t).view.emb (ix2 (0 : Fin 1) j))).val
  rw [Shape.rowMajor_val_one, Shape.rowMajor_val_two]
  show j.val = (win0_10.index t 0 * 1 + 1 * 0) * 18 + (win0_10.index t 1 * 18 + 1 * j.val)
  rw [(index10 t).1, (index10 t).2]; omega

end Cert.KernelIdeal.Val

end
-- ==== Proof.Bridge.lean ====
/-
  The two results of both programs as functions of the eleven argument arrays: the score matrix and the loss
  (the mathematics is in Spec.lean; here the arrays' entries are read off by their coordinates), the codebook
  row a negative-sample index names, and the range condition on those indices.
-/
import proofs.«412130_j67843303407889_2_alg».proof.Proof.Spec
import Idealize.ShloMosaic.Lib.ValueIdx

noncomputable section

open Idealize.ShloMosaic Idealize.ShloMosaic.ValueIdx

/-! ## The results as functions of the argument arrays -/
namespace Cert.Bridge

/-- The score matrix read off the seven arrays it depends on. -/
def scores (a0 : (⟨2, ![131072, 300]⟩ : Shape).Idx → EReal) (a4 : (⟨2, ![300, 64]⟩ : Shape).Idx → EReal) (a5 : (⟨1, ![64]⟩ : Shape).Idx → EReal)
    (a6 : (⟨2, ![64, 32]⟩ : Shape).Idx → EReal) (a7 : (⟨1, ![32]⟩ : Shape).Idx → EReal) (a8 : (⟨2, ![32, 18]⟩ : Shape).Idx → EReal)
    (a9 : (⟨1, ![18]⟩ : Shape).Idx → EReal) : Fin 131072 → Fin 18 → EReal :=
  Cert.Spec.wu (fun b d => a0 (ix2 b d)) (fun d j => a4 (ix2 d j)) (fun j => a5 (ix1 j)) (fun d j => a6 (ix2 d j)) (fun j => a7 (ix1 j))
    (fun d j => a8 (ix2 d j)) (fun j => a9 (ix1 j))

/-- The first result: the score matrix as an array. -/
def Gwu (a0 : (⟨2, ![131072, 300]⟩ : Shape).Idx → EReal) (a4 : (⟨2, ![300, 64]⟩ : Shape).Idx → EReal) (a5 : (⟨1, ![64]⟩ : Shape).Idx → EReal)
    (a6 : (⟨2, ![64, 32]⟩ : Shape).Idx → EReal) (a7 : (⟨1, ![32]⟩ : Shape).Idx → EReal) (a8 : (⟨2, ![32, 18]⟩ : Shape).Idx → EReal)
    (a9 : (⟨1, ![18]⟩ : Shape).Idx → EReal) : (⟨2, ![131072, 18]⟩ : Shape).Idx → EReal :=
  fun i => scores a0 a4 a5 a6 a7 a8 a9 (i 0) (i 1)

/-- The codebook row a sample's k-th negative names, as a number below 384 (the index word read unsigned, reduced
    mod 384: the identity on an index in range). -/
def rowOf (a10 : (⟨2, ![131072, 32]⟩ : Shape).Idx → BitVec 32) : Fin 131072 → Fin 32 → Fin 384 :=
  fun b k => ⟨(a10 (ix2 b k)).toNat % 384, Nat.mod_lt _ (by norm_num)⟩

/-- Every negative-sample index names a codebook row. -/
def InRange (a10 : (⟨2, ![131072, 32]⟩ : Shape).Idx → BitVec 32) : Prop := ∀ (b : Fin 131072) (k : Fin 32), (a10 (ix2 b k)).toNat < 384

/-- The second result: the loss as a rank-0 array. -/
def Gloss (a0 : (⟨2, ![131072, 300]⟩ : Shape).Idx → EReal) (a1 a2 : (⟨2, ![131072, 18]⟩ : Shape).Idx → EReal) (a3 : (⟨2, ![384, 18]⟩ : Shape).Idx → EReal)
    (a4 : (⟨2, ![300, 64]⟩ : Shape).Idx → EReal) (a5 : (⟨1, ![64]⟩ : Shape).Idx → EReal)
    (a6 : (⟨2, ![64, 32]⟩ : Shape).Idx → EReal) (a7 : (⟨1, ![32]⟩ : Shape).Idx → EReal) (a8 : (⟨2, ![32, 18]⟩ : Shape).Idx → EReal)
    (a9 : (⟨1, ![18]⟩ : Shape).Idx → EReal) (a10 : (⟨2, ![131072, 32]⟩ : Shape).Idx → BitVec 32) : (⟨0, ![]⟩ : Shape).Idx → EReal :=
  fun _ => Cert.Spec.lossOf
    (Cert.Spec.sumW (scores a0 a4 a5 a6 a7 a8 a9) (fun b a => a2 (ix2 b a)) (fun b a => a1 (ix2 b a)) (fun g a => a3 (ix2 g a)) (rowOf a10))
    (Cert.Spec.sumM (scores a0 a4 a5 a6 a7 a8 a9) (fun b a => a2 (ix2 b a)))

end Cert.Bridge

end
-- ==== Proof.Carry.lean ====
/-
  The kernel's run over its 64 grid points, read: after point t the staging buffer of the scores holds block t of
  the score matrix, and the two carried values hold the running count and the running weighted total of the
  blocks 0, …, t (by induction on the point: the first point starts them from zero, every later point adds its
  block's sums to what the point before left). After the last point the loss buffer holds the loss of the whole
  batch: the sums over the batch are the sums of the blocks' sums.
-/
import proofs.«412130_j67843303407889_2_alg».proof.Proof.Tile
import proofs.«412130_j67843303407889_2_alg».proof.Proof.BlockRead
import proofs.«412130_j67843303407889_2_alg».proof.Proof.Bridge

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.Bridge

variable (m : (ℓ : Loc nD τ sig) → Buf (Elt Ideal) ℓ)

/-! ## The blocks and the arrays, by their literal types -/

/-- The eleven input blocks at a grid point: rows of the batch (inputs, labels, observation mask, index words), the
    codebook, and the three layers' weights and one-row biases. -/
abbrev blkX (c : Dev nD) (t : Fin cfg0.N) : Vec Ideal S2048x300 .f32 := iblk m c 0 t
abbrev blkY (c : Dev nD) (t : Fin cfg0.N) : Vec Ideal S2048x18 .f32 := iblk m c 1 t
abbrev blkOb (c : Dev nD) (t : Fin cfg0.N) : Vec Ideal S2048x18 .f32 := iblk m c 2 t
abbrev blkIx (c : Dev nD) (t : Fin cfg0.N) : Vec Ideal S2048x32 .i32 := iblk m c 3 t
abbrev blkCb (c : Dev nD) (t : Fin cfg0.N) : Vec Ideal S384x18 .f32 := iblk m c 4 t
abbrev blkW1 (c : Dev nD) (t : Fin cfg0.N) : Vec Ideal S300x64 .f32 := iblk m c 5 t
abbrev blkB1 (c : Dev nD) (t : Fin cfg0.N) : Vec Ideal S1x64 .f32 := iblk m c 6 t
abbrev blkW2 (c : Dev nD) (t : Fin cfg0.N) : Vec Ideal S64x32 .f32 := iblk m c 7 t
abbrev blkB2 (c : Dev nD) (t : Fin cfg0.N) : Vec Ideal S1x32 .f32 := iblk m c 8 t
abbrev blkW3 (c : Dev nD) (t : Fin cfg0.N) : Vec Ideal S32x18 .f32 := iblk m c 9 t
abbrev blkB3 (c : Dev nD) (t : Fin cfg0.N) : Vec Ideal S1x18 .f32 := iblk m c 10 t

/-- The argument arrays the loss reads besides the seven of the scores. -/
abbrev arrY (c : Dev nD) : (⟨2, ![131072, 18]⟩ : Shape).Idx → EReal := (m ((c.tc : Thread nD τ).loc main_arg1))
abbrev arrOb (c : Dev nD) : (⟨2, ![131072, 18]⟩ : Shape).Idx → EReal := (m ((c.tc : Thread nD τ).loc main_arg2))
abbrev arrCb (c : Dev nD) : (⟨2, ![384, 18]⟩ : Shape).Idx → EReal := (m ((c.tc : Thread nD τ).loc main_arg3))
abbrev arrIx (c : Dev nD) : (⟨2, ![131072, 32]⟩ : Shape).Idx → BitVec 32 := (m ((c.tc : Thread nD τ).loc main_arg10))

/-- The score matrix of the whole batch. -/
abbrev sc (c : Dev nD) : Fin 131072 → Fin 18 → EReal :=
  scores (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The number of counted rows of block t of the batch. -/
def cntBlk (c : Dev nD) (t : Fin 64) : EReal :=
  Cert.Spec.sumM (fun r a => sc m c (Cert.Batch.rowIn t r) a) (fun r a => arrOb m c (ix2 (Cert.Batch.rowIn t r) a))

/-- The weighted sum of the rows of block t of the batch. -/
def totBlk (c : Dev nD) (t : Fin 64) : EReal :=
  Cert.Spec.sumW (fun r a => sc m c (Cert.Batch.rowIn t r) a) (fun r a => arrOb m c (ix2 (Cert.Batch.rowIn t r) a))
    (fun r a => arrY m c (ix2 (Cert.Batch.rowIn t r) a)) (fun g a => arrCb m c (ix2 g a))
    (fun r k => rowOf (arrIx m c) (Cert.Batch.rowIn t r) k)

/-- The blocks' counts and weighted sums as sequences indexed by the point (zero beyond the 64 blocks). -/
def cntSeq (c : Dev nD) : ℕ → EReal := fun k => if h : k < 64 then cntBlk m c ⟨k, h⟩ else 0
def totSeq (c : Dev nD) : ℕ → EReal := fun k => if h : k < 64 then totBlk m c ⟨k, h⟩ else 0

theorem cntSeq_at (c : Dev nD) (t : Fin cfg0.N) : cntSeq m c t.val = cntBlk m c (tOf t) := dif_pos (tOf t).isLt
theorem totSeq_at (c : Dev nD) (t : Fin cfg0.N) : totSeq m c t.val = totBlk m c (tOf t) := dif_pos (tOf t).isLt

/-! ## A point's blocks are blocks of the batch -/

/-- The scores of the point's block of inputs are the batch's scores at the block's rows: a row's score reads
    that row only, and the weights and biases are the same at every point. -/
theorem blk_scores (c : Dev nD) (t : Fin cfg0.N) :
    tS (blkX m c t) (blkW1 m c t) (blkB1 m c t) (blkW2 m c t) (blkB2 m c t) (blkW3 m c t) (blkB3 m c t) = fun r a => sc m c (Cert.Batch.rowIn (tOf t) r) a := by
  have e0 : (fun (r : Fin 2048) (d : Fin 300) => blkX m c t (ix2 r d)) = fun r d => (m ((c.tc : Thread nD τ).loc main_arg0)) (ix2 (Cert.Batch.rowIn (tOf t) r) d) :=
    funext fun r => funext fun d => iblk0_apply m c t r d
  have e5 : (fun (d : Fin 300) (j : Fin 64) => blkW1 m c t (ix2 d j)) = fun d j => (m ((c.tc : Thread nD τ).loc main_arg4)) (ix2 d j) :=
    funext fun d => funext fun j => iblk5_apply m c t d j
  have e6 : (fun (j : Fin 64) => blkB1 m c t (ix2 0 j)) = fun j => (m ((c.tc : Thread nD τ).loc main_arg5)) (ix1 j) := funext fun j => iblk6_apply m c t j
  have e7 : (fun (d : Fin 64) (j : Fin 32) => blkW2 m c t (ix2 d j)) = fun d j => (m ((c.tc : Thread nD τ).loc main_arg6)) (ix2 d j) :=
    funext fun d => funext fun j => iblk7_apply m c t d j
  have e8 : (fun (j : Fin 32) => blkB2 m c t (ix2 0 j)) = fun j => (m ((c.tc : Thread nD τ).loc main_arg7)) (ix1 j) := funext fun j => iblk8_apply m c t j
  have e9 : (fun (d : Fin 32) (j : Fin 18) => blkW3 m c t (ix2 d j)) = fun d j => (m ((c.tc : Thread nD τ).loc main_arg8)) (ix2 d j) :=
    funext fun d => funext fun j => iblk9_apply m c t d j
  have e10 : (fun (j : Fin 18) => blkB3 m c t (ix2 0 j)) = fun j => (m ((c.tc : Thread nD τ).loc main_arg9)) (ix1 j) := funext fun j => iblk10_apply m c t j
  unfold tS
  rw [e0, e5, e6, e7, e8, e9, e10]
  rfl

theorem blk_ob (c : Dev nD) (t : Fin cfg0.N) : tOb (blkOb m c t) = fun r a => arrOb m c (ix2 (Cert.Batch.rowIn (tOf t) r) a) :=
  funext fun r => funext fun a => iblk2_apply m c t r a
theorem blk_y (c : Dev nD) (t : Fin cfg0.N) : tY (blkY m c t) = fun r a => arrY m c (ix2 (Cert.Batch.rowIn (tOf t) r) a) :=
  funext fun r => funext fun a => iblk1_apply m c t r a
theorem blk_cb (c : Dev nD) (t : Fin cfg0.N) : tCb (blkCb m c t) = fun g a => arrCb m c (ix2 g a) :=
  funext fun g => funext fun a => iblk4_apply m c t g a

/-- The codebook row an index word of the block names is the row the batch's word at that row names. -/
theorem blk_row (c : Dev nD) (t : Fin cfg0.N) : tRow (blkIx m c t) = fun r k => rowOf (arrIx m c) (Cert.Batch.rowIn (tOf t) r) k :=
  funext fun r => funext fun k => Fin.ext (congrArg (fun v : BitVec 32 => v.toNat % 384) (iblk3_apply m c t r k))

/-- Index words in range over the batch are in range in every block. -/
theorem blk_inRange (c : Dev nD) (hr : InRange (arrIx m c)) (t : Fin cfg0.N) :
    ∀ (r : Fin 2048) (k : Fin 32), (blkIx m c t (ix2 r k)).toNat < 384 := fun r k =>
  (congrArg (fun v : BitVec 32 => v.toNat < 384) (iblk3_apply m c t r k)).mpr (hr (Cert.Batch.rowIn (tOf t) r) k)

/-- The point's count and weighted sum are those of block t of the batch. -/
theorem blk_count (c : Dev nD) (t : Fin cfg0.N) :
    Cert.Spec.sumM (tS (blkX m c t) (blkW1 m c t) (blkB1 m c t) (blkW2 m c t) (blkB2 m c t) (blkW3 m c t) (blkB3 m c t)) (tOb (blkOb m c t)) = cntBlk m c (tOf t) := by
  rw [blk_scores m c t, blk_ob m c t]
  rfl
theorem blk_total (c : Dev nD) (t : Fin cfg0.N) :
    Cert.Spec.sumW (tS (blkX m c t) (blkW1 m c t) (blkB1 m c t) (blkW2 m c t) (blkB2 m c t) (blkW3 m c t) (blkB3 m c t)) (tOb (blkOb m c t)) (tY (blkY m c t)) (tCb (blkCb m c t)) (tRow (blkIx m c t)) = totBlk m c (tOf t) := by
  rw [blk_scores m c t, blk_ob m c t, blk_y m c t, blk_cb m c t, blk_row m c t]
  rfl

/-! ## The zeros the first point stores -/

theorem pay1_zero : k0_pay1 (F := Ideal) (ix2 0 0) = 0 :=
  (congrFun (shapeCast_self (broadcast S1x1 (Scalar.ofBits (F := Ideal) .f32 0x00000000#32)) shapeCasts_S1x1_S1x1) (ix2 0 0)).trans Ideal.ofBits_zero_f32
theorem pay2_zero : k0_pay2 (F := Ideal) (ix2 0 0) = 0 :=
  (congrFun (shapeCast_self (broadcast S1x1 (Scalar.ofBits (F := Ideal) .f32 0x00000000#32)) shapeCasts_S1x1_S1x1) (ix2 0 0)).trans Ideal.ofBits_zero_f32

/-! ## One point -/

theorem pred_lt (t : Fin cfg0.N) : t.val - 1 < cfg0.N := Nat.lt_of_le_of_lt (Nat.sub_le _ _) t.isLt

/-- Every point stores its block of scores whole. -/
theorem scores_blk (c : Dev nD) (t : Fin cfg0.N) :
    (outsAt0 (F := Ideal) m c t.val t.isLt).1 = k0_pay3 (F := Ideal) (blkX m c t) (blkW1 m c t) (blkB1 m c t) (blkW2 m c t) (blkB2 m c t) (blkW3 m c t) (blkB3 m c t) := by
  by_cases h0 : t.val % 64 = 0
  · have h1 : ¬t.val % 64 = 63 := by omega
    rw [outsAt0_A m c t h0 h1]
    dsimp only
    exact out0_A_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (blkX m c t) (blkY m c t) (blkOb m c t) (blkIx m c t) (blkCb m c t) (blkW1 m c t) (blkB1 m c t) (blkW2 m c t) (blkB2 m c t) (blkW3 m c t) (blkB3 m c t)
  · by_cases h1 : t.val % 64 = 63
    · rw [outsAt0_C m c t h0 h1]
      dsimp only
      exact out0_C_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2
    · rw [outsAt0_B m c t h0 h1]
      dsimp only
      exact out0_B_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2

/-- At the first point the carried count is the block's count added to zero. -/
theorem count_first (c : Dev nD) (t : Fin cfg0.N) (h0 : t.val % 64 = 0) (h1 : ¬t.val % 64 = 63) :
    (outsAt0 (F := Ideal) m c t.val t.isLt).2.2.1 (ix2 0 0) = 0 + cntBlk m c (tOf t) := by
  rw [outsAt0_A m c t h0 h1]
  dsimp only
  refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (blkX m c t) (blkY m c t) (blkOb m c t) (blkIx m c t) (blkCb m c t) (blkW1 m c t) (blkB1 m c t) (blkW2 m c t) (blkB2 m c t) (blkW3 m c t) (blkB3 m c t)) (ix2 0 0)).trans ?_
  refine (tile_count (blkX m c t) (blkOb m c t) (blkW1 m c t) (blkB1 m c t) (blkW2 m c t) (blkB2 m c t) (blkW3 m c t) (blkB3 m c t) (k0_pay1 (F := Ideal))).trans ?_
  rw [pay1_zero, blk_count m c t]

/-- At the first point the carried weighted total is the block's weighted sum added to zero. -/
theorem total_first (c : Dev nD) (hr : InRange (arrIx m c)) (t : Fin cfg0.N) (h0 : t.val % 64 = 0) (h1 : ¬t.val % 64 = 63) :
    (outsAt0 (F := Ideal) m c t.val t.isLt).2.2.2 (ix2 0 0) = 0 + totBlk m c (tOf t) := by
  rw [outsAt0_A m c t h0 h1]
  dsimp only
  refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (fun h => h1 ((hcond0_1 t).mp h)) (blkX m c t) (blkY m c t) (blkOb m c t) (blkIx m c t) (blkCb m c t) (blkW1 m c t) (blkB1 m c t) (blkW2 m c t) (blkB2 m c t) (blkW3 m c t) (blkB3 m c t)) (ix2 0 0)).trans ?_
  refine (tile_total (blkX m c t) (blkY m c t) (blkOb m c t) (blkIx m c t) (blkCb m c t) (blkW1 m c t) (blkB1 m c t) (blkW2 m c t) (blkB2 m c t) (blkW3 m c t) (blkB3 m c t) (k0_pay2 (F := Ideal)) (blk_inRange m c hr t)).trans ?_
  rw [pay2_zero, blk_total m c t]

/-- At a later point the carried count is what the point before left plus the block's count. -/
theorem count_next (c : Dev nD) (t : Fin cfg0.N) (h0 : ¬t.val % 64 = 0) :
    (outsAt0 (F := Ideal) m c t.val t.isLt).2.2.1 (ix2 0 0)
      = (outsAt0 (F := Ideal) m c (t.val - 1) (pred_lt t)).2.2.1 (ix2 0 0) + cntBlk m c (tOf t) := by
  by_cases h1 : t.val % 64 = 63
  · rw [outsAt0_C m c t h0 h1]
    dsimp only
    refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).trans ?_
    refine (tile_count (blkX m c t) (blkOb m c t) (blkW1 m c t) (blkB1 m c t) (blkW2 m c t) (blkB2 m c t) (blkW3 m c t) (blkB3 m c t) (outsAt0 m c (t.val - 1) (pred_lt t)).2.2.1).trans ?_
    rw [blk_count m c t]
  · rw [outsAt0_B m c t h0 h1]
    dsimp only
    refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).trans ?_
    refine (tile_count (blkX m c t) (blkOb m c t) (blkW1 m c t) (blkB1 m c t) (blkW2 m c t) (blkB2 m c t) (blkW3 m c t) (blkB3 m c t) (outsAt0 m c (t.val - 1) (pred_lt t)).2.2.1).trans ?_
    rw [blk_count m c t]

/-- At a later point the carried weighted total is what the point before left plus the block's weighted sum. -/
theorem total_next (c : Dev nD) (hr : InRange (arrIx m c)) (t : Fin cfg0.N) (h0 : ¬t.val % 64 = 0) :
    (outsAt0 (F := Ideal) m c t.val t.isLt).2.2.2 (ix2 0 0)
      = (outsAt0 (F := Ideal) m c (t.val - 1) (pred_lt t)).2.2.2 (ix2 0 0) + totBlk m c (tOf t) := by
  by_cases h1 : t.val % 64 = 63
  · rw [outsAt0_C m c t h0 h1]
    dsimp only
    refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).trans ?_
    refine (tile_total (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.2 (blk_inRange m c hr t)).trans ?_
    rw [blk_total m c t]
  · rw [outsAt0_B m c t h0 h1]
    dsimp only
    refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).trans ?_
    refine (tile_total (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.2 (blk_inRange m c hr t)).trans ?_
    rw [blk_total m c t]

/-- At the last point the loss buffer holds the loss of the two carried values as that point leaves them. -/
theorem loss_last (c : Dev nD) (t : Fin cfg0.N) (h0 : ¬t.val % 64 = 0) (h1 : t.val % 64 = 63) :
    (outsAt0 (F := Ideal) m c t.val t.isLt).2.1 (ix2 0 0)
      = Cert.Spec.lossOf ((outsAt0 (F := Ideal) m c t.val t.isLt).2.2.2 (ix2 0 0)) ((outsAt0 (F := Ideal) m c t.val t.isLt).2.2.1 (ix2 0 0)) := by
  rw [outsAt0_C m c t h0 h1]
  dsimp only
  refine (congrFun (out0_C_12_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).trans ?_
  refine (tile_loss _ _).trans ?_
  exact congrArg₂ Cert.Spec.lossOf (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).symm
    (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) ((hcond0_1 t).mpr h1) (blkX m c t) (blkY m c t) (blkOb m c t) (blkIx m c t) (blkCb m c t) (blkW1 m c t) (blkB1 m c t) (blkW2 m c t) (blkB2 m c t) (blkW3 m c t) (blkB3 m c t) (outsAt0 m c (t.val - 1) (pred_lt t)).2.2.1 (outsAt0 m c (t.val - 1) (pred_lt t)).2.2.2) (ix2 0 0)).symm

/-! ## The run over the points -/

/-- After point n the carried count is the running total of the counts of blocks 0, …, n, and the carried weighted
    total the running total of their weighted sums: by induction on the point. -/
theorem carried (c : Dev nD) (hr : InRange (arrIx m c)) : ∀ (n : ℕ) (h : n < cfg0.N),
    (outsAt0 (F := Ideal) m c n h).2.2.1 (ix2 0 0) = Cert.Batch.accSum (cntSeq m c) n
      ∧ (outsAt0 (F := Ideal) m c n h).2.2.2 (ix2 0 0) = Cert.Batch.accSum (totSeq m c) n
  | 0, h =>
    ⟨(count_first m c ⟨0, h⟩ rfl (by show ¬(0 : ℕ) % 64 = 63; decide)).trans (congrArg (fun z => (0 : EReal) + z) (cntSeq_at m c ⟨0, h⟩).symm),
     (total_first m c hr ⟨0, h⟩ rfl (by show ¬(0 : ℕ) % 64 = 63; decide)).trans (congrArg (fun z => (0 : EReal) + z) (totSeq_at m c ⟨0, h⟩).symm)⟩
  | n + 1, h => by
    have hN : n + 1 < 64 := lt_of_lt_of_eq h (show cfg0.N = 64 from N_0)
    have h0 : ¬(⟨n + 1, h⟩ : Fin cfg0.N).val % 64 = 0 := by dsimp only; omega
    obtain ⟨ihc, iht⟩ := carried c hr n (Nat.lt_of_succ_lt h)
    refine ⟨(count_next m c ⟨n + 1, h⟩ h0).trans ?_, (total_next m c hr ⟨n + 1, h⟩ h0).trans ?_⟩
    · show (outsAt0 (F := Ideal) m c n (Nat.lt_of_succ_lt h)).2.2.1 (ix2 0 0) + cntBlk m c (tOf ⟨n + 1, h⟩)
          = Cert.Batch.accSum (cntSeq m c) n + cntSeq m c (n + 1)
      rw [ihc, ← cntSeq_at m c ⟨n + 1, h⟩]
    · show (outsAt0 (F := Ideal) m c n (Nat.lt_of_succ_lt h)).2.2.2 (ix2 0 0) + totBlk m c (tOf ⟨n + 1, h⟩)
          = Cert.Batch.accSum (totSeq m c) n + totSeq m c (n + 1)
      rw [iht, ← totSeq_at m c ⟨n + 1, h⟩]

/-- After the last of the 64 points the running totals are the batch's count and weighted sum: the sums over the
    batch are the sums of the blocks' sums. -/
theorem count_all (c : Dev nD) :
    Cert.Batch.accSum (cntSeq m c) 63 = Cert.Spec.sumM (sc m c) (fun b a => arrOb m c (ix2 b a)) :=
  (Cert.Batch.accSum_last (cntBlk m c)).trans (Cert.Batch.sumM_blocks (sc m c) (fun b a => arrOb m c (ix2 b a))).symm
theorem total_all (c : Dev nD) :
    Cert.Batch.accSum (totSeq m c) 63
      = Cert.Spec.sumW (sc m c) (fun b a => arrOb m c (ix2 b a)) (fun b a => arrY m c (ix2 b a)) (fun g a => arrCb m c (ix2 g a)) (rowOf (arrIx m c)) :=
  (Cert.Batch.accSum_last (totBlk m c)).trans
    (Cert.Batch.sumW_blocks (sc m c) (fun b a => arrOb m c (ix2 b a)) (fun b a => arrY m c (ix2 b a)) (fun g a => arrCb m c (ix2 g a)) (rowOf (arrIx m c))).symm

/-- At any point n equal to the last of the 64, the loss buffer holds the loss of the batch's two sums: the loss of
    the two carried values, which are the running totals over all 64 blocks. -/
theorem loss_run (c : Dev nD) (hr : InRange (arrIx m c)) (n : ℕ) (h : n < cfg0.N) (hn : n = 63) :
    (outsAt0 (F := Ideal) m c n h).2.1 (ix2 0 0) = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ix0 := by
  have h0 : ¬(⟨n, h⟩ : Fin cfg0.N).val % 64 = 0 := by dsimp only; omega
  have h1 : (⟨n, h⟩ : Fin cfg0.N).val % 64 = 63 := by dsimp only; omega
  obtain ⟨hc, ht⟩ := carried m c hr n h
  refine (loss_last m c ⟨n, h⟩ h0 h1).trans ?_
  show Cert.Spec.lossOf ((outsAt0 (F := Ideal) m c n h).2.2.2 (ix2 0 0)) ((outsAt0 (F := Ideal) m c n h).2.2.1 (ix2 0 0)) = _
  rw [ht, hc, hn, total_all m c, count_all m c]
  rfl

/-! ## The two results of the run -/

/-- After point t the scores' staging buffer holds block t of the score matrix. -/
theorem scores_at (c : Dev nD) (t : Fin cfg0.N) (r : Fin 2048) (a : Fin 18) :
    (outsAt0 (F := Ideal) m c t.val t.isLt).1 (ix2 r a)
      = scores (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (Cert.Batch.rowIn (tOf t) r) a :=
  ((congrFun (scores_blk m c t) (ix2 r a)).trans (tile_scores (blkX m c t) (blkW1 m c t) (blkB1 m c t) (blkW2 m c t) (blkB2 m c t) (blkW3 m c t) (blkB3 m c t) r a)).trans (congrFun (congrFun (blk_scores m c t) r) a)

/-- After the last point the loss buffer holds the loss of the batch. -/
theorem loss_at (c : Dev nD) (hr : InRange (m ((c.tc : Thread nD τ).loc main_arg10))) (h63 : 63 < cfg0.N) :
    (outsAt0 (F := Ideal) m c 63 h63).2.1 (ix2 0 0)
      = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ix0 := by
  generalize hn : (63 : ℕ) = n at h63 ⊢
  exact loss_run m c hr n h63 hn.symm

end Cert.KernelIdeal.Val

end
-- ==== Proof.KernelValue.lean ====
/-
  The kernel program's two results, read off its run.

  The scores: every grid point writes its block of scores back, block t to the rows 2048 t, …, 2048 t + 2047, and
  the 64 blocks tile the result array, so the array ends at the score matrix. The loss: its 1 x 1 window is written
  back once, at the last point, where the staging buffer holds the loss; a host reshape after the kernel makes the
  1 x 1 array the rank-0 result. The eleven arguments are staged or left alone, never written.
-/
import proofs.«412130_j67843303407889_2_alg».proof.Proof.Carry
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.Bridge

variable (m : (ℓ : Loc nD τ sig) → Buf (Elt Ideal) ℓ) (ρ : Dev nD → PrngReg)

/-- The score matrix of core c's arguments, as contents of the scores' array. -/
abbrev scoresArr (c : Dev nD) : Buf (Elt Ideal) ((c.tc : Thread nD τ).loc main_v3_0) :=
  Gwu (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The loss of core c's arguments, as contents of the 1 x 1 array the kernel writes it to. -/
abbrev lossArr (c : Dev nD) : Buf (Elt Ideal) ((c.tc : Thread nD τ).loc main_v3_1) :=
  fun _ => Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ix0

/-! ## The scores: 64 blocks of 2048 rows tile the array -/

/-- The scores' block at point t is block (t, 0): rows 2048 t, …, 2048 t + 2047, all 18 columns. -/
theorem scoreBlock_index : ∀ t : Fin cfg0.N, win0_11.index t (0 : Fin 2) = t.val ∧ win0_11.index t (1 : Fin 2) = 0 :=
  (by decide +kernel : ∀ t : Fin grid0.N, _)

/-- What point t writes back is block t of the score matrix: entry (r, a) of the block is entry (2048 t + r, a) of
    the array (the block index times the block size plus the coordinate inside the block). -/
theorem scoreBlock_flushed (c : Dev nD) (t : Fin cfg0.N) :
    (dats m 0 c).flushed 11 t = ((cfg0.win 11).blk t).view.read (Elt Ideal) (scoresArr m c) := by
  show (cfg0.win 11).cut (grid0.coords t) ((dats m 0 c).after 11 t) = _
  rw [after0_11]
  obtain ⟨e0, e1⟩ := scoreBlock_index t
  funext j
  obtain ⟨r, a, rfl⟩ : ∃ (r : Fin 2048) (a : Fin 18), j = ix2 r a := ⟨j 0, j 1, eq_ix2 j⟩
  show (outsAt0 m c t.val t.isLt).1 (ix2 r a) = scoresArr m c (((cfg0.win 11).blk t).view.emb (ix2 r a))
  refine (scores_at m c t r a).trans ?_
  have h0 : ((cfg0.win 11).blk t).view.emb (ix2 r a) 0 = Cert.Batch.rowIn (tOf t) r := by
    apply Fin.ext
    show win0_11.index t (0 : Fin 2) * 2048 + 1 * r.val = 2048 * t.val + r.val
    rw [e0]; omega
  have h1 : ((cfg0.win 11).blk t).view.emb (ix2 r a) 1 = a := by
    apply Fin.ext
    show win0_11.index t (1 : Fin 2) * 18 + 1 * a.val = a.val
    rw [e1]; omega
  show _ = scores (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (((cfg0.win 11).blk t).view.emb (ix2 r a) 0) (((cfg0.win 11).blk t).view.emb (ix2 r a) 1)
  rw [h0, h1]

/-- An index of the array is in point t's block iff each coordinate is in the block's range on its axis. -/
theorem mem_scoreBlock (t : Fin cfg0.N) (i : S131072x18.Idx) :
    i ∈ ((cfg0.win 11).blk t).view.set ↔ ∀ a : Fin 2, win0_11.index t a * S2048x18.size a ≤ (i a).val ∧ (i a).val < win0_11.index t a * S2048x18.size a + S2048x18.size a := by
  show i ∈ ((View.whole main_v3_0).slice (win0_11.rect t)).set ↔ _
  rw [View.set_slice_whole, Rect.mem_set_unit]
  exact Iff.rfl

/-- Row b of the array is in the block of point b / 2048, and every point writes its block back. -/
theorem scoreBlocks_cover (i : S131072x18.Idx) : ∃ t : Fin cfg0.N, (cfg0.win 11).flush t = true ∧ i ∈ ((cfg0.win 11).blk t).view.set := by
  have hN : cfg0.N = 64 := N_0
  have hi0 : (i 0).val < 131072 := (i 0).isLt
  have hi1 : (i 1).val < 18 := (i 1).isLt
  obtain ⟨t, ht⟩ : ∃ t : Fin cfg0.N, t.val = (i 0).val / 2048 :=
    ⟨⟨(i 0).val / 2048, lt_of_lt_of_eq (by omega : (i 0).val / 2048 < 64) hN.symm⟩, rfl⟩
  obtain ⟨e0, e1⟩ := scoreBlock_index t
  refine ⟨t, flush0_11 t, ?_⟩
  rw [mem_scoreBlock]
  intro a
  match a with
  | ⟨0, _⟩ => show win0_11.index t (0 : Fin 2) * 2048 ≤ (i 0).val ∧ (i 0).val < win0_11.index t (0 : Fin 2) * 2048 + 2048; omega
  | ⟨1, _⟩ => show win0_11.index t (1 : Fin 2) * 18 ≤ (i 1).val ∧ (i 1).val < win0_11.index t (1 : Fin 2) * 18 + 18; omega

/-- So the scores' array ends holding the score matrix. -/
theorem final_scores (c : Dev nD) : (dats m 0 c).arrAt 11 cfg0.N = scoresArr m c :=
  (dats m 0 c).arrAt_eq_of_cover 11 (scoresArr m c) (fun t _ => scoreBlock_flushed m c t) scoreBlocks_cover

/-! ## The loss: one block, the whole 1 x 1 array, written back at the last point only -/

/-- The loss window's block index is (0, 0) at every point. -/
theorem lossBlock_index : ∀ t : Fin cfg0.N, win0_12.index t (0 : Fin 2) = 0 ∧ win0_12.index t (1 : Fin 2) = 0 :=
  (by decide +kernel : ∀ t : Fin grid0.N, _)

/-- The loss buffer after point n, for n the last point, holds the loss. -/
theorem loss_at_last_point (c : Dev nD) (hr : InRange (m ((c.tc : Thread nD τ).loc main_arg10))) (n : ℕ) (hn : n < cfg0.N) (h : n = 63) :
    (outsAt0 m c n hn).2.1 (ix2 0 0) = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ix0 := by
  subst h
  exact loss_at m c hr hn

/-- The one write-back, at point 63, writes the loss: block (0, 0) of the 1 x 1 array read through zero offsets is
    the array, and its one entry is the loss buffer's after the last point. -/
theorem lossBlock_flushed (c : Dev nD) (hr : InRange (m ((c.tc : Thread nD τ).loc main_arg10))) (t : Fin cfg0.N) (hf : (cfg0.win 12).flush t = true) :
    (dats m 0 c).flushed 12 t = ((cfg0.win 12).blk t).view.read (Elt Ideal) (lossArr m c) := by
  have hN : cfg0.N = 64 := N_0
  have ht : t.val = 63 := by have := (flush0_12 t).mp hf; have := t.isLt; omega
  obtain ⟨e0, e1⟩ := lossBlock_index t
  show (cfg0.win 12).cut (grid0.coords t) ((dats m 0 c).after 12 t) = _
  rw [after0_12]
  have hz : (fun a => win0_12.index t a * main_v3_1.ty.shape.size a) = fun _ => 0 := funext fun a => by
    match a with
    | ⟨0, _⟩ => show win0_12.index t (0 : Fin 2) * 1 = 0; rw [e0]
    | ⟨1, _⟩ => show win0_12.index t (1 : Fin 2) * 1 = 0; rw [e1]
  refine Eq.trans ?_ (Memref.read_access_unit_zero (Elt Ideal) main_v3_1 hz (fun a => by rw [congrFun hz a]; simp) (lossArr m c)).symm
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  show (outsAt0 m c t.val t.isLt).2.1 (ix2 0 0) = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) ix0
  exact loss_at_last_point m c hr t.val t.isLt ht

/-- The one index of the 1 x 1 array is in the block of every point. -/
theorem mem_lossBlock (t : Fin cfg0.N) (i : S1x1.Idx) :
    i ∈ ((cfg0.win 12).blk t).view.set ↔ ∀ a : Fin 2, win0_12.index t a * S1x1.size a ≤ (i a).val ∧ (i a).val < win0_12.index t a * S1x1.size a + S1x1.size a := by
  show i ∈ ((View.whole main_v3_1).slice (win0_12.rect t)).set ↔ _
  rw [View.set_slice_whole, Rect.mem_set_unit]
  exact Iff.rfl

/-- So the 1 x 1 array ends holding the loss (the last point covers it). -/
theorem final_loss (c : Dev nD) (hr : InRange (m ((c.tc : Thread nD τ).loc main_arg10))) : (dats m 0 c).arrAt 12 cfg0.N = lossArr m c := by
  have hN : cfg0.N = 64 := N_0
  have h63 : 63 < cfg0.N := lt_of_lt_of_eq (by norm_num : 63 < 64) hN.symm
  refine (dats m 0 c).arrAt_eq_of_cover 12 (lossArr m c) (lossBlock_flushed m c hr) fun i => ⟨⟨63, h63⟩, (flush0_12 ⟨63, h63⟩).mpr rfl, ?_⟩
  obtain ⟨e0, e1⟩ := lossBlock_index ⟨63, h63⟩
  have hi0 : (i 0).val < 1 := (i 0).isLt
  have hi1 : (i 1).val < 1 := (i 1).isLt
  rw [mem_lossBlock]
  intro a
  match a with
  | ⟨0, _⟩ => show win0_12.index ⟨63, h63⟩ (0 : Fin 2) * 1 ≤ (i 0).val ∧ (i 0).val < win0_12.index ⟨63, h63⟩ (0 : Fin 2) * 1 + 1; omega
  | ⟨1, _⟩ => show win0_12.index ⟨63, h63⟩ (1 : Fin 2) * 1 ≤ (i 1).val ∧ (i 1).val < win0_12.index ⟨63, h63⟩ (1 : Fin 2) * 1 + 1; omega

/-! ## The host tail: the 1 x 1 array reshaped to the rank-0 result -/

/-- After the reshape that follows the kernel the rank-0 result holds the loss: the reshape reads the 1 x 1 array,
    which the kernel left at the loss in its one entry. -/
theorem tail_loss (c : Dev nD) (hr : InRange (m ((c.tc : Thread nD τ).loc main_arg10))) :
    Pipeline.afterTail₀ cfgs (dats m) 0 (V0 m) [hostOps1] c main_v4 = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e : Pipeline.withArrays (cfgs 0).spec c (V0 m c) (fun w => (dats m 0 c).arrAt w (cfgs 0).N) (Proc.devRef .tc main_v3_1) = lossArr m c :=
    (Pipeline.withArrays_arr spec0 launch0.win.arr_inj c _ _ 12).trans (final_loss m c hr)
  unfold Pipeline.afterTail₀
  show StableHlo.after hostOps1 _ (Proc.devRef .tc main_v4) = _
  after_results
  funext i
  show shapeCast S_ (Pipeline.withArrays (cfgs 0).spec c (V0 m c) (fun w => (dats m 0 c).arrAt w (cfgs 0).N) (Proc.devRef .tc main_v3_1)) shapeCasts_S1x1_S_ i = _
  unfold shapeCast
  exact congrFun e _

/-! ## The run, read -/

/-- The run with both results read: the score matrix and the loss, the arguments unchanged. -/
theorem run (hr : ∀ c : Dev nD, InRange (m ((c.tc : Thread nD τ).loc main_arg10))) :
    θ_run (defs (F := Ideal)) (onTc (τ := τ) (main (F := Ideal))) ⟨m, fun _ => 0, ρ⟩ (fun r => ∀ c : Dev nD,
      r.2.mem ((c.tc : Thread nD τ).loc main_v3_0) = Gwu (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v4) = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 11).trans (final_scores m c),
      ((h c).2 main_v4 (Pipeline.mem_restRefs_of main_v4 (by decide) (by decide))).trans (tail_loss m c (hr c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c))),
      (((h c).2 main_arg9 (Pipeline.mem_restRefs_of main_arg9 (by decide) (by decide))).trans (W_main_arg9 m (dats m) c)),
      ((h c).1 3).trans (((dats m 0 c).arrAt_in 3 rfl _).trans ((A_eq m c 3).trans (V_main_arg10 m c)))⟩)
    (run_main m ρ)

end Cert.KernelIdeal.Val

end
-- ==== Proof.RefRun.lean ====
/-
  The reference program's run: its @main is a straight line of host operations (the two log-sigmoid calls'
  bodies, and the soft-plus calls inside them, inlined where they are called), so every weakly fair execution
  terminates with each buffer at the operations' composition applied to the launch contents, and the eleven
  arguments, which no operation writes, unchanged.
-/
import proofs.«412130_j67843303407889_2_alg».proof.ReferenceIdeal
import proofs.«412130_j67843303407889_2_alg».proof.Proof.Gen.ReferenceIdeal
import Idealize.ShloMosaic.Lib.StableHlo.Run

noncomputable section

namespace Cert.ReferenceIdeal.RefVal

open Cert.ReferenceIdeal Idealize.ShloMosaic Idealize.ShloMosaic.TcCoe Idealize.SL.Sem Idealize.ShloMosaic.StableHlo
open Cert.ReferenceIdeal.Facts₀

variable {F : FTy → Type} [FloatOps F] [hReferenceIdeal : Cert.ReferenceIdeal.Facts]

/-- The contents of a buffer of shape s and element type e: the type every pure function below is stated at. -/
local notation "𝒯[" s ", " e "]" => BufTy.Contents (Elt F) (BufTy.mk s e)

/-- @main's ninety-five operations, in order: the three dense layers with their sigmoids (the score matrix is
    the third layer's sum, main_v23), the score times the mask, the row test (a row counts when its masked score
    does not sum to zero), the negative indices wrapped into range and their table rows gathered, negated and
    multiplied by the masked score; log-sigmoid of that product, sixteen operations over the first call's record
    (a negation, soft-plus's fourteen over the nested record, a negation); its sum over the two inner axes; the
    masked score times the positive rows and log-sigmoid of it, sixteen over the second call's records; its row
    sums; the count of rows, at least one; the two sums added, masked by the row test, summed, negated and
    divided by the count (the loss, main_v51). -/
abbrev ops : List (HloOp τ sig (Elt F)) :=
  [ binary main_arg0 main_arg4 main_v0 ((fun l r => Host.dotGeneral dot_S131072x300_S300x64_S131072x64_1_0_0_1_n_n none l r) : 𝒯[S131072x300, .f32] → 𝒯[S300x64, .f32] → 𝒯[S131072x64, .f32]),
    unary main_arg5 main_v1 (broadcastInDim S1x64 ![1] bcast_S64_S1x64_1 : 𝒯[S64, .f32] → 𝒯[S1x64, .f32]),
    unary main_v1 main_v2 (broadcastInDim S131072x64 ![0, 1] bcast_S1x64_S131072x64_0_1 : 𝒯[S1x64, .f32] → 𝒯[S131072x64, .f32]),
    binary main_v0 main_v2 main_v3 (addf : 𝒯[S131072x64, .f32] → 𝒯[S131072x64, .f32] → 𝒯[S131072x64, .f32]),
    unary main_v3 main_v4 (Host.negf : 𝒯[S131072x64, .f32] → 𝒯[S131072x64, .f32]),
    unary main_v4 main_v5 (Host.exp : 𝒯[S131072x64, .f32] → 𝒯[S131072x64, .f32]),
    nullary main_cst (constant S_ .f32 0x3F800000#32),
    unary main_cst main_v6 (broadcastInDim S131072x64 ![] bcast_S_S131072x64 : 𝒯[S_, .f32] → 𝒯[S131072x64, .f32]),
    binary main_v6 main_v5 main_v7 (addf : 𝒯[S131072x64, .f32] → 𝒯[S131072x64, .f32] → 𝒯[S131072x64, .f32]),
    nullary main_cst_0 (constant S_ .f32 0x3F800000#32),
    unary main_cst_0 main_v8 (broadcastInDim S131072x64 ![] bcast_S_S131072x64 : 𝒯[S_, .f32] → 𝒯[S131072x64, .f32]),
    binary main_v8 main_v7 main_v9 (Host.divf : 𝒯[S131072x64, .f32] → 𝒯[S131072x64, .f32] → 𝒯[S131072x64, .f32]),
    binary main_v9 main_arg6 main_v10 ((fun l r => Host.dotGeneral dot_S131072x64_S64x32_S131072x32_1_0_0_1_n_n none l r) : 𝒯[S131072x64, .f32] → 𝒯[S64x32, .f32] → 𝒯[S131072x32, .f32]),
    unary main_arg7 main_v11 (broadcastInDim S1x32 ![1] bcast_S32_S1x32_1 : 𝒯[S32, .f32] → 𝒯[S1x32, .f32]),
    unary main_v11 main_v12 (broadcastInDim S131072x32 ![0, 1] bcast_S1x32_S131072x32_0_1 : 𝒯[S1x32, .f32] → 𝒯[S131072x32, .f32]),
    binary main_v10 main_v12 main_v13 (addf : 𝒯[S131072x32, .f32] → 𝒯[S131072x32, .f32] → 𝒯[S131072x32, .f32]),
    unary main_v13 main_v14 (Host.negf : 𝒯[S131072x32, .f32] → 𝒯[S131072x32, .f32]),
    unary main_v14 main_v15 (Host.exp : 𝒯[S131072x32, .f32] → 𝒯[S131072x32, .f32]),
    nullary main_cst_1 (constant S_ .f32 0x3F800000#32),
    unary main_cst_1 main_v16 (broadcastInDim S131072x32 ![] bcast_S_S131072x32 : 𝒯[S_, .f32] → 𝒯[S131072x32, .f32]),
    binary main_v16 main_v15 main_v17 (addf : 𝒯[S131072x32, .f32] → 𝒯[S131072x32, .f32] → 𝒯[S131072x32, .f32]),
    nullary main_cst_2 (constant S_ .f32 0x3F800000#32),
    unary main_cst_2 main_v18 (broadcastInDim S131072x32 ![] bcast_S_S131072x32 : 𝒯[S_, .f32] → 𝒯[S131072x32, .f32]),
    binary main_v18 main_v17 main_v19 (Host.divf : 𝒯[S131072x32, .f32] → 𝒯[S131072x32, .f32] → 𝒯[S131072x32, .f32]),
    binary main_v19 main_arg8 main_v20 ((fun l r => Host.dotGeneral dot_S131072x32_S32x18_S131072x18_1_0_0_1_n_n none l r) : 𝒯[S131072x32, .f32] → 𝒯[S32x18, .f32] → 𝒯[S131072x18, .f32]),
    unary main_arg9 main_v21 (broadcastInDim S1x18 ![1] bcast_S18_S1x18_1 : 𝒯[S18, .f32] → 𝒯[S1x18, .f32]),
    unary main_v21 main_v22 (broadcastInDim S131072x18 ![0, 1] bcast_S1x18_S131072x18_0_1 : 𝒯[S1x18, .f32] → 𝒯[S131072x18, .f32]),
    binary main_v20 main_v22 main_v23 (addf : 𝒯[S131072x18, .f32] → 𝒯[S131072x18, .f32] → 𝒯[S131072x18, .f32]),
    binary main_v23 main_arg2 main_v24 (mulf : 𝒯[S131072x18, .f32] → 𝒯[S131072x18, .f32] → 𝒯[S131072x18, .f32]),
    nullary main_cst_3 (constant S_ .f32 0x00000000#32),
    binary main_v24 main_cst_3 main_v25 ((fun x v => Host.reduceAdd x v reducesTo_S131072x18_S131072_d1 h_S_) : 𝒯[S131072x18, .f32] → 𝒯[S_, .f32] → 𝒯[S131072, .f32]),
    nullary main_cst_4 (constant S_ .f32 0x00000000#32),
    unary main_cst_4 main_v26 (broadcastInDim S131072 ![] bcast_S_S131072 : 𝒯[S_, .f32] → 𝒯[S131072, .f32]),
    binary main_v25 main_v26 main_v27 (cmpf .une : 𝒯[S131072, .f32] → 𝒯[S131072, .f32] → 𝒯[S131072, .i1]),
    unary main_v27 main_v28 (uitofp .f32 : 𝒯[S131072, .i1] → 𝒯[S131072, .f32]),
    nullary main_c (constantI S_ 32 0#32),
    unary main_c main_v29 (broadcastInDim S131072x32 ![] bcast_S_S131072x32 : 𝒯[S_, .i32] → 𝒯[S131072x32, .i32]),
    binary main_arg10 main_v29 main_v30 (cmpi .slt : 𝒯[S131072x32, .i32] → 𝒯[S131072x32, .i32] → 𝒯[S131072x32, .i1]),
    nullary main_c_5 (constantI S_ 32 384#32),
    unary main_c_5 main_v31 (broadcastInDim S131072x32 ![] bcast_S_S131072x32 : 𝒯[S_, .i32] → 𝒯[S131072x32, .i32]),
    binary main_arg10 main_v31 main_v32 (addi : 𝒯[S131072x32, .i32] → 𝒯[S131072x32, .i32] → 𝒯[S131072x32, .i32]),
    ternary main_v30 main_v32 main_arg10 main_v33 (select : 𝒯[S131072x32, .i1] → 𝒯[S131072x32, .i32] → 𝒯[S131072x32, .i32] → 𝒯[S131072x32, .i32]),
    unary main_v33 main_v34 (broadcastInDim S131072x32x1 ![0, 1] bcast_S131072x32_S131072x32x1_0_1 : 𝒯[S131072x32, .i32] → 𝒯[S131072x32x1, .i32]),
    binary main_arg3 main_v34 main_v35 ((fun x i => Host.gather gather_S384x18_S131072x32x1_S131072x32x18_2_0_n_n_0_2_118 x i) : 𝒯[S384x18, .f32] → 𝒯[S131072x32x1, .i32] → 𝒯[S131072x32x18, .f32]),
    unary main_v35 main_v36 (Host.negf : 𝒯[S131072x32x18, .f32] → 𝒯[S131072x32x18, .f32]),
    unary main_v24 main_v37 (broadcastInDim S131072x1x18 ![0, 2] bcast_S131072x18_S131072x1x18_0_2 : 𝒯[S131072x18, .f32] → 𝒯[S131072x1x18, .f32]),
    unary main_v37 main_v38 (broadcastInDim S131072x32x18 ![0, 1, 2] bcast_S131072x1x18_S131072x32x18_0_1_2 : 𝒯[S131072x1x18, .f32] → 𝒯[S131072x32x18, .f32]),
    binary main_v36 main_v38 main_v39 (mulf : 𝒯[S131072x32x18, .f32] → 𝒯[S131072x32x18, .f32] → 𝒯[S131072x32x18, .f32]),
    -- log-sigmoid of main_v39, the first call: x ↦ -(soft-plus (-x))
    TRef.unary (.of main_v39 : TRef sig ⟨S131072x32x18, .f32⟩) main_call0.v0 Host.negf,
    -- soft-plus of that negation, the nested call: y ↦ if y is not a number then y + 0 else max y 0 + log1p (exp (-|y - 0|))
    TRef.nullary main_call0_call0.cst (constant S_ .f32 0x00000000#32),
    TRef.unary main_call0_call0.cst main_call0_call0.v0 (broadcastInDim S131072x32x18 ![] bcast_S_S131072x32x18),
    TRef.binary main_call0.v0 main_call0_call0.v0 main_call0_call0.v1 maximumf,
    TRef.unary main_call0_call0.cst main_call0_call0.v2 (broadcastInDim S131072x32x18 ![] bcast_S_S131072x32x18),
    TRef.binary main_call0.v0 main_call0_call0.v2 main_call0_call0.v3 subf,
    TRef.binary main_call0_call0.v3 main_call0_call0.v3 main_call0_call0.v4 (cmpf .une),
    TRef.unary main_call0_call0.cst main_call0_call0.v5 (broadcastInDim S131072x32x18 ![] bcast_S_S131072x32x18),
    TRef.binary main_call0.v0 main_call0_call0.v5 main_call0_call0.v6 addf,
    TRef.unary main_call0_call0.v3 main_call0_call0.v7 Host.absf,
    TRef.unary main_call0_call0.v7 main_call0_call0.v8 Host.negf,
    TRef.unary main_call0_call0.v8 main_call0_call0.v9 Host.exp,
    TRef.unary main_call0_call0.v9 main_call0_call0.v10 Host.log1p,
    TRef.binary main_call0_call0.v1 main_call0_call0.v10 main_call0_call0.v11 addf,
    TRef.ternary main_call0_call0.v4 main_call0_call0.v6 main_call0_call0.v11 main_call0_call0.v12 select,
    TRef.unary main_call0_call0.v12 main_call0.v2 Host.negf,
    nullary main_cst_6 (constant S_ .f32 0x00000000#32),
    binary main_v40 main_cst_6 main_v41 ((fun x v => Host.reduceAdd x v reducesTo_S131072x32x18_S131072_d1_2 h_S_) : 𝒯[S131072x32x18, .f32] → 𝒯[S_, .f32] → 𝒯[S131072, .f32]),
    binary main_v24 main_arg1 main_v42 (mulf : 𝒯[S131072x18, .f32] → 𝒯[S131072x18, .f32] → 𝒯[S131072x18, .f32]),
    -- log-sigmoid of main_v42, the second call, and the soft-plus nested in it
    TRef.unary (.of main_v42 : TRef sig ⟨S131072x18, .f32⟩) main_call1.v0 Host.negf,
    TRef.nullary main_call1_call0.cst (constant S_ .f32 0x00000000#32),
    TRef.unary main_call1_call0.cst main_call1_call0.v0 (broadcastInDim S131072x18 ![] bcast_S_S131072x18),
    TRef.binary main_call1.v0 main_call1_call0.v0 main_call1_call0.v1 maximumf,
    TRef.unary main_call1_call0.cst main_call1_call0.v2 (broadcastInDim S131072x18 ![] bcast_S_S131072x18),
    TRef.binary main_call1.v0 main_call1_call0.v2 main_call1_call0.v3 subf,
    TRef.binary main_call1_call0.v3 main_call1_call0.v3 main_call1_call0.v4 (cmpf .une),
    TRef.unary main_call1_call0.cst main_call1_call0.v5 (broadcastInDim S131072x18 ![] bcast_S_S131072x18),
    TRef.binary main_call1.v0 main_call1_call0.v5 main_call1_call0.v6 addf,
    TRef.unary main_call1_call0.v3 main_call1_call0.v7 Host.absf,
    TRef.unary main_call1_call0.v7 main_call1_call0.v8 Host.negf,
    TRef.unary main_call1_call0.v8 main_call1_call0.v9 Host.exp,
    TRef.unary main_call1_call0.v9 main_call1_call0.v10 Host.log1p,
    TRef.binary main_call1_call0.v1 main_call1_call0.v10 main_call1_call0.v11 addf,
    TRef.ternary main_call1_call0.v4 main_call1_call0.v6 main_call1_call0.v11 main_call1_call0.v12 select,
    TRef.unary main_call1_call0.v12 main_call1.v2 Host.negf,
    nullary main_cst_7 (constant S_ .f32 0x00000000#32),
    binary main_v43 main_cst_7 main_v44 ((fun x v => Host.reduceAdd x v reducesTo_S131072x18_S131072_d1 h_S_) : 𝒯[S131072x18, .f32] → 𝒯[S_, .f32] → 𝒯[S131072, .f32]),
    nullary main_cst_8 (constant S_ .f32 0x00000000#32),
    binary main_v28 main_cst_8 main_v45 ((fun x v => Host.reduceAdd x v reducesTo_S131072_S_d0 h_S_) : 𝒯[S131072, .f32] → 𝒯[S_, .f32] → 𝒯[S_, .f32]),
    nullary main_cst_9 (constant S_ .f32 0x3F800000#32),
    binary main_v45 main_cst_9 main_v46 (maximumf : 𝒯[S_, .f32] → 𝒯[S_, .f32] → 𝒯[S_, .f32]),
    binary main_v44 main_v41 main_v47 (addf : 𝒯[S131072, .f32] → 𝒯[S131072, .f32] → 𝒯[S131072, .f32]),
    binary main_v28 main_v47 main_v48 (mulf : 𝒯[S131072, .f32] → 𝒯[S131072, .f32] → 𝒯[S131072, .f32]),
    nullary main_cst_10 (constant S_ .f32 0x00000000#32),
    binary main_v48 main_cst_10 main_v49 ((fun x v => Host.reduceAdd x v reducesTo_S131072_S_d0 h_S_) : 𝒯[S131072, .f32] → 𝒯[S_, .f32] → 𝒯[S_, .f32]),
    unary main_v49 main_v50 (Host.negf : 𝒯[S_, .f32] → 𝒯[S_, .f32]),
    binary main_v50 main_v46 main_v51 (Host.divf : 𝒯[S_, .f32] → 𝒯[S_, .f32] → 𝒯[S_, .f32]) ]

/-- A buffer's contents after the run: the operations' composition applied to the launch contents. -/
abbrev res (m : (ℓ : Loc nD τ sig) → Buf (Elt F) ℓ) (c : Dev nD) (b : Ref sig .tc) :=
  StableHlo.after (ops (F := F)) (StableHlo.launchContents m c) (Proc.devRef .tc b)

-- ninety-five binds re-associated: the rewrite under the chain recurses once per statement
set_option maxRecDepth 8192 in
set_option maxHeartbeats 4000000 in
/-- @main is that straight line: its two windows run one after the other, each call the callee's body at the
    call's record, and once sequencing is re-associated both sides are one chain of the same steps. -/
theorem main_eq (c : Dev nD) : main (F := F) c = seq ops := by
  simp only [main, main_part0, main_part1, fn_log_sigmoid.body, fn_softplus.body, fn_log_sigmoid_0.body,
    fn_softplus_1.body, seq, bind_assoc, pure_bind]

/-- The signature scopes no TensorCore buffer. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

/-- Every operation touches TensorCore references only: each is one of the builders, which touch their operands'
    and their result's buffers. -/
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., unary_bufs_sub .., binary_bufs_sub ..,
    -- the first call
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..,
    nullary_bufs_sub .., binary_bufs_sub .., binary_bufs_sub ..,
    -- the second call
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..,
    nullary_bufs_sub .., binary_bufs_sub .., nullary_bufs_sub .., binary_bufs_sub .., nullary_bufs_sub .., binary_bufs_sub ..,
    binary_bufs_sub .., binary_bufs_sub .., nullary_bufs_sub .., binary_bufs_sub .., unary_bufs_sub .., binary_bufs_sub ..⟩

/-- Every operation determines what it writes: none allocates. -/
theorem ops_fresh : (ops : List (HloOp τ sig (Elt F))).Forall fun op => op.fresh = ∅ := by
  simp only [List.Forall]; repeat' constructor

/-- The signature lists the device's buffers in program order, the eleven arguments first: the k-th operation
    writes buffer 10 + k, so none writes a buffer of index below eleven. -/
theorem ops_writes : (ops : List (HloOp τ sig (Elt F))).Forall fun op => ∀ b ∈ op.writes, 11 ≤ b.idx.val := by
  simp only [List.Forall, nullary_writes, unary_writes, binary_writes, ternary_writes, Finset.mem_singleton, forall_eq]
  repeat' apply And.intro
  all_goals decide

/-- So an argument, a buffer of index below eleven, is after the operations what it was before them. -/
theorem arg_kept (V : Valuation τ sig (Elt F)) (r : Ref sig .tc) (hr : (Proc.devRef (τ := τ) .tc r).idx.val < 11) :
    after ops V (Proc.devRef .tc r) = V (Proc.devRef .tc r) :=
  after_of_forall_not_mem ops V fun op hop hb =>
    absurd ((List.forall_iff_forall_mem.mp ops_writes) op hop _ hb) (Nat.not_le.mpr hr)

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v23) = res m c main_v23
      ∧ r.2.mem ((c.tc : Thread nD τ).loc main_v51) = res m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v23, h c main_v51,
      (h c main_arg0).trans (arg_kept _ main_arg0 (by decide)), (h c main_arg1).trans (arg_kept _ main_arg1 (by decide)),
      (h c main_arg2).trans (arg_kept _ main_arg2 (by decide)), (h c main_arg3).trans (arg_kept _ main_arg3 (by decide)),
      (h c main_arg4).trans (arg_kept _ main_arg4 (by decide)), (h c main_arg5).trans (arg_kept _ main_arg5 (by decide)),
      (h c main_arg6).trans (arg_kept _ main_arg6 (by decide)), (h c main_arg7).trans (arg_kept _ main_arg7 (by decide)),
      (h c main_arg8).trans (arg_kept _ main_arg8 (by decide)), (h c main_arg9).trans (arg_kept _ main_arg9 (by decide)),
      (h c main_arg10).trans (arg_kept _ main_arg10 (by decide))⟩)
    (run_seq scopedRefs_eq scopedSems_eq defs main (fun _ => ops) main_eq (fun _ => ops_sub) m ρ
      (fun _ => List.forall_iff_forall_mem.mp ops_fresh))

end Cert.ReferenceIdeal.RefVal

end
-- ==== Proof.RefHead.lean ====
/-
  The reference's perceptron: after the run the score buffer holds the score matrix of Spec.lean, entry by entry
  (three host matrix products as exact sums, each bias a vector broadcast down the rows, the logistic function
  spelled as 1 / (1 + e^(-x))), and the next buffer holds its product with the observation mask.

  One layer is read once, at any sizes: the product of an n×K by a K×J matrix plus a length-J bias copied down the
  n rows is, at entry (b, j), the sum over d of x(b, d) · w(d, j), plus bias(j); and the quotient of a broadcast one
  by a broadcast one plus the exponential of the negation is the logistic function at each entry. The program's
  first twenty-eight operations are three such layers, the first two followed by the logistic function.
-/
import proofs.«412130_j67843303407889_2_alg».proof.Proof.RefRun
import proofs.«412130_j67843303407889_2_alg».proof.Proof.Bridge
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StackMember
import Idealize.ShloMosaic.PureOps.Ideal.Laws

noncomputable section

open scoped BigOperators

namespace Cert.ReferenceIdeal.RefVal

open Cert.ReferenceIdeal Idealize.ShloMosaic Idealize.ShloMosaic.ValueIdx Idealize.ShloMosaic.TcCoe Idealize.SL.Sem Idealize.ShloMosaic.StableHlo Cert.Bridge
open Cert.ReferenceIdeal.Facts₀

variable [hReferenceIdeal : Cert.ReferenceIdeal.Facts]

/-! ## One layer, at any sizes -/

section Layer

variable {n K J : Nat}

/-- A length-J vector laid out as a one-row matrix reads, at (0, j), its entry j. -/
theorem vecAsRow_apply {α : Type} (h : (⟨1, ![J]⟩ : Shape).BroadcastsInDim ⟨2, ![1, J]⟩ ![1])
    (v : (⟨1, ![J]⟩ : Shape).Idx → α) (r : Fin 1) (j : Fin J) :
    broadcastInDim ⟨2, ![1, J]⟩ ![1] h v (ix2 r j) = v (ix1 j) := by
  refine broadcastInDim_apply ![1] h v (ix2 r j) (ix1 j) ?_
  intro a
  fin_cases a
  show j.val = if J = 1 then 0 else j.val
  split_ifs with hJ
  · have := j.isLt; omega
  · rfl

/-- A dense layer before its activation: the matrix product x · w plus the bias, the bias laid out as one row
    and that row copied down the n rows. -/
def dense (D : DotDims ⟨2, ![n, K]⟩ ⟨2, ![K, J]⟩ ⟨2, ![n, J]⟩)
    (h1 : (⟨1, ![J]⟩ : Shape).BroadcastsInDim ⟨2, ![1, J]⟩ ![1])
    (h2 : (⟨2, ![1, J]⟩ : Shape).BroadcastsInDim ⟨2, ![n, J]⟩ ![0, 1])
    (x : FVec Ideal ⟨2, ![n, K]⟩ .f32) (w : FVec Ideal ⟨2, ![K, J]⟩ .f32) (bias : FVec Ideal ⟨1, ![J]⟩ .f32) :
    FVec Ideal ⟨2, ![n, J]⟩ .f32 :=
  addf (Host.dotGeneral D none x w) (broadcastInDim ⟨2, ![n, J]⟩ ![0, 1] h2 (broadcastInDim ⟨2, ![1, J]⟩ ![1] h1 bias))

/-- At entry (b, j) it is the sum over d of x(b, d) · w(d, j), plus bias(j): the product contracts the left
    operand's columns against the right operand's rows, and nothing else. -/
theorem dense_apply (D : DotDims ⟨2, ![n, K]⟩ ⟨2, ![K, J]⟩ ⟨2, ![n, J]⟩) (hD : D = DotDims.plain n K J)
    (h1 : (⟨1, ![J]⟩ : Shape).BroadcastsInDim ⟨2, ![1, J]⟩ ![1])
    (h2 : (⟨2, ![1, J]⟩ : Shape).BroadcastsInDim ⟨2, ![n, J]⟩ ![0, 1])
    (x : FVec Ideal ⟨2, ![n, K]⟩ .f32) (w : FVec Ideal ⟨2, ![K, J]⟩ .f32) (bias : FVec Ideal ⟨1, ![J]⟩ .f32)
    (b : Fin n) (j : Fin J) :
    dense D h1 h2 x w bias (ix2 b j) = (∑ d : Fin K, x (ix2 b d) * w (ix2 d j)) + bias (ix1 j) := by
  subst hD
  unfold dense
  rw [addf_apply, StackMember.dotGeneral_plain_apply, broadcastInDim_oneRow_apply, vecAsRow_apply]

/-- The logistic function as the program spells it, on an array of any shape: one, broadcast, divided by
    one, broadcast, plus the exponential of the negation. -/
def sigm {s : Shape} (h : (⟨0, ![]⟩ : Shape).BroadcastsInDim s ![]) (z : FVec Ideal s .f32) : FVec Ideal s .f32 :=
  Host.divf (broadcastInDim s ![] h (constant (F := Ideal) ⟨0, ![]⟩ .f32 0x3F800000#32))
    (addf (broadcastInDim s ![] h (constant (F := Ideal) ⟨0, ![]⟩ .f32 0x3F800000#32)) (Host.exp (Host.negf z)))

/-- At each entry it is 1 / (1 + e^(-z)), the logistic function of that entry. -/
theorem sigm_apply {s : Shape} (h : (⟨0, ![]⟩ : Shape).BroadcastsInDim s ![]) (z : FVec Ideal s .f32) (i : s.Idx) :
    sigm h z i = Ideal.logistic (z i) := by
  unfold sigm
  rw [hostDivf_apply, addf_apply, broadcastInDim_scalar_apply, constant_apply, Ideal.ofBits_one_f32]
  rfl

end Layer

/-! ## The three layers as arrays, and each at an entry -/

section Stages

variable (a0 : FVec Ideal S131072x300 .f32) (a4 : FVec Ideal S300x64 .f32) (a5 : FVec Ideal S64 .f32)
  (a6 : FVec Ideal S64x32 .f32) (a7 : FVec Ideal S32 .f32) (a8 : FVec Ideal S32x18 .f32) (a9 : FVec Ideal S18 .f32)

/-- The first hidden layer as an array: the logistic function of the first dense layer. -/
def hid1A : FVec Ideal S131072x64 .f32 :=
  sigm bcast_S_S131072x64
    (dense dot_S131072x300_S300x64_S131072x64_1_0_0_1_n_n bcast_S64_S1x64_1 bcast_S1x64_S131072x64_0_1 a0 a4 a5)

/-- The second hidden layer as an array: the logistic function of the second dense layer, fed the first. -/
def hid2A : FVec Ideal S131072x32 .f32 :=
  sigm bcast_S_S131072x32
    (dense dot_S131072x64_S64x32_S131072x32_1_0_0_1_n_n bcast_S32_S1x32_1 bcast_S1x32_S131072x32_0_1 (hid1A a0 a4 a5) a6 a7)

/-- The scores as an array: the third dense layer, fed the second hidden layer, with no activation. -/
def scoreA : FVec Ideal S131072x18 .f32 :=
  dense dot_S131072x32_S32x18_S131072x18_1_0_0_1_n_n bcast_S18_S1x18_1 bcast_S1x18_S131072x18_0_1 (hid2A a0 a4 a5 a6 a7) a8 a9

/-- Entry (b, j) of the first hidden layer. -/
theorem hid1A_apply (b : Fin 131072) (j : Fin 64) :
    hid1A a0 a4 a5 (ix2 b j)
      = Cert.Spec.hid1 (fun b d => a0 (ix2 b d)) (fun d j => a4 (ix2 d j)) (fun j => a5 (ix1 j)) b j := by
  unfold hid1A Cert.Spec.hid1
  rw [sigm_apply, dense_apply dot_S131072x300_S300x64_S131072x64_1_0_0_1_n_n rfl]

/-- Entry (b, j) of the second hidden layer. -/
theorem hid2A_apply (b : Fin 131072) (j : Fin 32) :
    hid2A a0 a4 a5 a6 a7 (ix2 b j)
      = Cert.Spec.hid2 (fun b d => a0 (ix2 b d)) (fun d j => a4 (ix2 d j)) (fun j => a5 (ix1 j))
          (fun d j => a6 (ix2 d j)) (fun j => a7 (ix1 j)) b j := by
  unfold hid2A Cert.Spec.hid2
  rw [sigm_apply, dense_apply dot_S131072x64_S64x32_S131072x32_1_0_0_1_n_n rfl]
  simp only [hid1A_apply]

/-- Entry (b, a) of the scores. -/
theorem scoreA_apply (b : Fin 131072) (a : Fin 18) :
    scoreA a0 a4 a5 a6 a7 a8 a9 (ix2 b a) = scores a0 a4 a5 a6 a7 a8 a9 b a := by
  unfold scoreA scores Cert.Spec.wu
  rw [dense_apply dot_S131072x32_S32x18_S131072x18_1_0_0_1_n_n rfl]
  simp only [hid2A_apply]

end Stages

/-! ## The run's two buffers -/

/-- The score buffer after the run is the third layer's array of the argument arrays: every later operation
    writes another buffer, and the first twenty-eight compose to the three layers. -/
theorem res_v23_term (m : (ℓ : Loc nD τ sig) → Buf (Elt Ideal) ℓ) (c : Dev nD) :
    res (F := Ideal) m c main_v23 = scoreA (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after (ops (F := Ideal)) (launchContents m c) (Proc.devRef .tc main_v23) = _
  after_results_simp
  rfl

/-- The next buffer is that array times the mask, entry by entry. -/
theorem res_v24_term (m : (ℓ : Loc nD τ sig) → Buf (Elt Ideal) ℓ) (c : Dev nD) :
    res (F := Ideal) m c main_v24 = mulf (scoreA (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg2)) := by
  show after (ops (F := Ideal)) (launchContents m c) (Proc.devRef .tc main_v24) = _
  after_results_simp
  rfl

/-- The score matrix. -/
theorem res_v23 (m : (ℓ : Loc nD τ sig) → Buf (Elt Ideal) ℓ) (c : Dev nD) :
    res (F := Ideal) m c main_v23 = Gwu (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [res_v23_term]
  funext i
  obtain ⟨b, a, rfl⟩ : ∃ (b : Fin 131072) (a : Fin 18), i = ix2 b a := ⟨i 0, i 1, eq_ix2 i⟩
  rw [scoreA_apply]
  rfl

/-- The observed scores. -/
theorem res_v24 (m : (ℓ : Loc nD τ sig) → Buf (Elt Ideal) ℓ) (c : Dev nD) :
    res (F := Ideal) m c main_v24 = fun i => Cert.Spec.wc (scores (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (fun b a => (m ((c.tc : Thread nD τ).loc main_arg2)) (ix2 b a)) (i 0) (i 1) := by
  rw [res_v24_term]
  funext i
  obtain ⟨b, a, rfl⟩ : ∃ (b : Fin 131072) (a : Fin 18), i = ix2 b a := ⟨i 0, i 1, eq_ix2 i⟩
  rw [mulf_apply, scoreA_apply]
  rfl

end Cert.ReferenceIdeal.RefVal

end
-- ==== Proof.LibGatherScatter.lean ====
/-
  Decoding lemmas for StableHLO gather / scatter dimension numbers read at an index: the row gather
  of a rank-2 table, the landing index of a row scatter (rank-2 and rank-1 operands) and the
  accumulating scatter at the ideal instance as a sum over the update rows whose index is the row read,
  with the two small facts about a start-index column that go with them. Every lemma is generic in the
  record of dimension numbers and in the extents; the record's fields are hypotheses, each an `rfl` at a literal record.
-/
import Idealize.ShloMosaic.PureOps.Ideal
import Idealize.ShloMosaic.Lib.ValueIdx
import Idealize.ShloMosaic.Lib.StableHlo.Predicate

open scoped BigOperators

namespace Cert.LibGatherScatter

open Idealize.ShloMosaic
open Idealize.ShloMosaic.ValueIdx
open Idealize.ShloMosaic.StableHlo.Predicate

/-! ## Lists of axes: an entry of a one-element list is that element -/

/-- Every entry of a list that equals the one-element list `[a]` is `a`. -/
theorem getElem_of_eq_singleton {β : Type} {l : List β} {a : β} (h : l = [a]) (k : Nat) (hk : k < l.length) :
    l[k] = a := by
  subst h
  have : k = 0 := by simpa using hk
  subst this
  rfl

/-! ## The row gather of a rank-2 table -/

/-- THE ROW GATHER. A `stablehlo.gather` of a rank-2 table `[N × C]` at an `[n × 1]` column of start indices, whose
    row axis is collapsed and start-indexed, whose column axis is the one offset axis with the whole row as the slice,
    without batching axes and with the index vector on axis 1: result element `(e, q)` is the table at row
    `idx[e, 0]` read SIGNED and CLAMPED into `[0, N − 1]`, column `q`. -/
theorem rowGather_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (_hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (q : Fin C) :
    Host.gather d x idx (ix2 e q) = x (ix2 ⟨min (idx (ixP e)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e q) idx 0 + d.batchCoord (ix2 e q) 0 + d.offCoord (ix2 e q) 0 = min (idx (ixP e)).toInt.toNat (N - 1)
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = [0]
        rw [hoff]; rfl
      have key : ∀ X : Fin 2, X = 0 → ((ix2 e q : (⟨2, ![n, C]⟩ : Shape).Idx) X).val = e.val := by
        rintro _ rfl; rfl
      exact key _ (getElem_of_eq_singleton hbd _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1)]
    simp only [Nat.add_zero, GatherDims.start, dif_neg hm, GatherDims.offCoord, dif_pos hk, Nat.zero_add]
    have key : ∀ X : Fin 2, X = 1 → ((ix2 e q : (⟨2, ![n, C]⟩ : Shape).Idx) X).val = q.val := by
      rintro _ rfl; rfl
    exact key _ (getElem_of_eq_singleton hoff _ _)

/-! ## The row scatter of a rank-2 operand: where an update element lands -/

section RowScatter
variable {N C n w : Nat} (d : ScatterDims ⟨2, ![N, C]⟩ ⟨2, ![n, 1]⟩ ⟨2, ![n, C]⟩)

/-- On the operand's row axis the window of update element `(e, q)` starts at the scatter index `idx[e, 0]`, read signed
    and not clamped. -/
theorem rowScatter_start_row (huw : d.updateWindowDims = [1]) (hsd : d.scatterDimsToOperandDims = [0])
    (hivd : d.indexVectorDim = 1) (idx : IVec ⟨2, ![n, 1]⟩ w) (e : Fin n) (q : Fin C) :
    d.start (ix2 e q) idx 0 = (idx (ixP e)).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have hus : d.uScatter = [0] := by
      show Shape.kept _ d.updateWindowDims = [0]
      rw [huw]; rfl
    have key : ∀ X : Fin 2, X = 0 → ((ix2 e q : (⟨2, ![n, C]⟩ : Shape).Idx) X).val = e.val := by
      rintro _ rfl; rfl
    exact key _ (getElem_of_eq_singleton hus _ _)
  | ⟨1, _⟩ =>
    unfold ScatterDims.siIdx
    rw [dif_pos (by rw [hivd])]
    apply Fin.ext
    show List.idxOf (0 : Fin 2) d.scatterDimsToOperandDims = 0
    rw [hsd]; simp

/-- On the operand's column axis, which the scatter index does not name, every window starts at 0. -/
theorem rowScatter_start_col (hsd : d.scatterDimsToOperandDims = [0]) (idx : IVec ⟨2, ![n, 1]⟩ w)
    (j : (⟨2, ![n, C]⟩ : Shape).Idx) : d.start j idx 1 = 0 := by
  have hm : (1 : Fin 2) ∉ d.scatterDimsToOperandDims := by rw [hsd]; simp
  unfold ScatterDims.start
  rw [dif_neg hm]

/-- The row axis is inserted: the window coordinate on it is 0. -/
theorem rowScatter_window_row (hiw : d.insertedWindowDims = [0]) (j : (⟨2, ![n, C]⟩ : Shape).Idx) : d.window j 0 = 0 := by
  have hk : (0 : Fin 2) ∉ d.sKept := by
    show (0 : Fin 2) ∉ Shape.kept _ d.insertedWindowDims
    rw [hiw]; simp [Shape.kept]
  unfold ScatterDims.window
  rw [dif_neg hk]

/-- The column axis is the one window axis: the window coordinate on it is the update element's column. -/
theorem rowScatter_window_col (huw : d.updateWindowDims = [1]) (hiw : d.insertedWindowDims = [0]) (e : Fin n) (q : Fin C) :
    d.window (ix2 e q) 1 = q.val := by
  have hk : (1 : Fin 2) ∈ d.sKept := by
    show (1 : Fin 2) ∈ Shape.kept _ d.insertedWindowDims
    rw [hiw]; simp [Shape.kept]
  unfold ScatterDims.window
  rw [dif_pos hk]
  have key : ∀ X : Fin 2, X = 1 → ((ix2 e q : (⟨2, ![n, C]⟩ : Shape).Idx) X).val = q.val := by
    rintro _ rfl; rfl
  exact key _ (getElem_of_eq_singleton huw _ _)

/-- WHERE A ROW UPDATE LANDS. A `stablehlo.scatter` into a rank-2 operand `[N × C]` of `[n × C]` updates at an `[n × 1]`
    column of scatter indices, whose row axis is inserted and scatter-indexed, whose column axis is the one window axis,
    with the index vector on axis 1: update element `(e, q)` lands on operand element `i` exactly when its scatter index
    `idx[e, 0]`, read SIGNED and NOT clamped, is `i`'s row, and `q` is `i`'s column. An index outside `[0, N)` lands
    nowhere. -/
theorem rowScatter_resultIdx?_eq_some_iff (huw : d.updateWindowDims = [1]) (hiw : d.insertedWindowDims = [0])
    (hsd : d.scatterDimsToOperandDims = [0]) (hivd : d.indexVectorDim = 1) (idx : IVec ⟨2, ![n, 1]⟩ w)
    (e : Fin n) (q : Fin C) (i : (⟨2, ![N, C]⟩ : Shape).Idx) :
    d.resultIdx? (ix2 e q) idx = some i ↔ (idx (ixP e)).toInt = ((i 0).val : ℤ) ∧ q = i 1 := by
  have h0 : d.start (ix2 e q) idx 0 + d.window (ix2 e q) 0 = (idx (ixP e)).toInt := by
    rw [rowScatter_start_row d huw hsd hivd, rowScatter_window_row d hiw]; simp
  have h1 : d.start (ix2 e q) idx 1 + d.window (ix2 e q) 1 = (q.val : ℤ) := by
    rw [rowScatter_start_col d hsd, rowScatter_window_col d huw hiw]; simp
  unfold ScatterDims.resultIdx?
  split
  · next h =>
    rw [Option.some.injEq]
    constructor
    · intro hi
      have e0 : (d.start (ix2 e q) idx 0 + d.window (ix2 e q) 0).toNat = (i 0).val := congrArg Fin.val (congrFun hi 0)
      have e1 : (d.start (ix2 e q) idx 1 + d.window (ix2 e q) 1).toNat = (i 1).val := congrArg Fin.val (congrFun hi 1)
      have p0 := (h 0).1
      rw [h0] at e0 p0
      rw [h1] at e1
      refine ⟨by omega, Fin.ext (by simpa using e1)⟩
    · rintro ⟨hi0, hq⟩
      funext a
      apply Fin.ext
      match a with
      | ⟨0, _⟩ =>
        show (d.start (ix2 e q) idx 0 + d.window (ix2 e q) 0).toNat = (i 0).val
        rw [h0, hi0]; simp
      | ⟨1, _⟩ =>
        show (d.start (ix2 e q) idx 1 + d.window (ix2 e q) 1).toNat = (i 1).val
        rw [h1, hq]; simp
  · next h =>
    constructor
    · intro hi; exact absurd hi (by simp)
    · rintro ⟨hi0, hq⟩
      exfalso
      apply h
      intro a
      match a with
      | ⟨0, _⟩ =>
        show 0 ≤ d.start (ix2 e q) idx 0 + d.window (ix2 e q) 0 ∧ d.start (ix2 e q) idx 0 + d.window (ix2 e q) 0 < (N : ℤ)
        rw [h0, hi0]
        exact ⟨by positivity, by exact_mod_cast idx2_lt0 i⟩
      | ⟨1, _⟩ =>
        show 0 ≤ d.start (ix2 e q) idx 1 + d.window (ix2 e q) 1 ∧ d.start (ix2 e q) idx 1 + d.window (ix2 e q) 1 < (C : ℤ)
        rw [h1]
        exact ⟨by positivity, by exact_mod_cast q.isLt⟩

/-- THE ACCUMULATING ROW SCATTER AT THE IDEAL INSTANCE. With those dimension numbers, element `(r, q)` of
    `x.at[idx].add(upd)` is `x[r, q]` plus the exact sum of `upd[e, q]` over the update rows `e` whose scatter index
    `idx[e, 0]`, read signed and not clamped, is `r`. -/
theorem rowScatterAdd_apply {φ : FTy} (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ) (r : Fin N) (q : Fin C) :
    Host.scatterAdd (F := Ideal) d x idx upd (ix2 r q)
      = x (ix2 r q) + ∑ e ∈ Finset.univ.filter (fun e : Fin n => (idx (ixP e)).toInt = (r.val : ℤ)), upd (ix2 e q) := by
  have key : ∀ j : (⟨2, ![n, C]⟩ : Shape).Idx,
      d.resultIdx? j idx = some (ix2 r q) ↔ (idx (ixP (j 0))).toInt = (r.val : ℤ) ∧ j 1 = q := by
    intro j
    obtain ⟨a, b, rfl⟩ : ∃ a b, j = ix2 a b := ⟨j 0, j 1, eq_ix2 j⟩
    exact rowScatter_resultIdx?_eq_some_iff d huw hiw hsd hivd idx a b (ix2 r q)
  have hback : ∀ j : (⟨2, ![n, C]⟩ : Shape).Idx, j 1 = q → ix2 (j 0) q = j := fun j hq => by
    funext a
    match a with
    | ⟨0, _⟩ => rfl
    | ⟨1, _⟩ => exact hq.symm
  simp only [Host.scatterAdd, Ideal.hostScatterAdd_def, Ideal.hostScatterAdd]
  congr 1
  refine Finset.sum_bij' (fun j _ => j 0) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    exact hback j ((key j).1 (Finset.mem_filter.1 hj).2).2
  · intro e _
    rfl
  · intro j hj
    exact congrArg upd (hback j ((key j).1 (Finset.mem_filter.1 hj).2).2).symm

end RowScatter

/-! ## The scatter into a rank-1 operand -/

section VecScatter
variable {N n w : Nat} (d : ScatterDims ⟨1, ![N]⟩ ⟨2, ![n, 1]⟩ ⟨1, ![n]⟩)

/-- On the operand's one axis the window of update element `e` starts at the scatter index `idx[e, 0]`, read signed and
    not clamped. -/
theorem vecScatter_start (hsd : d.scatterDimsToOperandDims = [0]) (hivd : d.indexVectorDim = 1)
    (idx : IVec ⟨2, ![n, 1]⟩ w) (e : Fin n) : d.start (ix1 e) idx 0 = (idx (ixP e)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := fun X => by
      have hX : X = 0 := Subsingleton.elim _ _
      subst hX; rfl
    exact key _
  | ⟨1, _⟩ =>
    unfold ScatterDims.siIdx
    rw [dif_pos (by rw [hivd])]
    apply Fin.ext
    show List.idxOf (0 : Fin 1) d.scatterDimsToOperandDims = 0
    rw [hsd]; simp

/-- The operand's one axis is inserted: the window coordinate on it is 0. -/
theorem vecScatter_window (hiw : d.insertedWindowDims = [0]) (j : (⟨1, ![n]⟩ : Shape).Idx) : d.window j 0 = 0 := by
  have hk : (0 : Fin 1) ∉ d.sKept := by
    show (0 : Fin 1) ∉ Shape.kept _ d.insertedWindowDims
    rw [hiw]; simp [Shape.kept]
  unfold ScatterDims.window
  rw [dif_neg hk]

/-- WHERE AN UPDATE LANDS, RANK 1. A `stablehlo.scatter` into a rank-1 operand `[N]` of `[n]` updates at an `[n × 1]`
    column of scatter indices, the operand's axis inserted and scatter-indexed, no window axes, the index vector on
    axis 1: update element `e` lands on operand element `i` exactly when its scatter index `idx[e, 0]`, read SIGNED and
    NOT clamped, is `i`'s position. An index outside `[0, N)` lands nowhere. -/
theorem vecScatter_resultIdx?_eq_some_iff (_huw : d.updateWindowDims = []) (hiw : d.insertedWindowDims = [0])
    (hsd : d.scatterDimsToOperandDims = [0]) (hivd : d.indexVectorDim = 1) (idx : IVec ⟨2, ![n, 1]⟩ w)
    (e : Fin n) (i : (⟨1, ![N]⟩ : Shape).Idx) :
    d.resultIdx? (ix1 e) idx = some i ↔ (idx (ixP e)).toInt = ((i 0).val : ℤ) := by
  have h0 : d.start (ix1 e) idx 0 + d.window (ix1 e) 0 = (idx (ixP e)).toInt := by
    rw [vecScatter_start d hsd hivd, vecScatter_window d hiw]; simp
  unfold ScatterDims.resultIdx?
  split
  · next h =>
    rw [Option.some.injEq]
    constructor
    · intro hi
      have e0 : (d.start (ix1 e) idx 0 + d.window (ix1 e) 0).toNat = (i 0).val := congrArg Fin.val (congrFun hi 0)
      have p0 := (h 0).1
      rw [h0] at e0 p0
      omega
    · intro hi0
      funext a
      apply Fin.ext
      match a with
      | ⟨0, _⟩ =>
        show (d.start (ix1 e) idx 0 + d.window (ix1 e) 0).toNat = (i 0).val
        rw [h0, hi0]; simp
  · next h =>
    constructor
    · intro hi; exact absurd hi (by simp)
    · intro hi0
      exfalso
      apply h
      intro a
      match a with
      | ⟨0, _⟩ =>
        show 0 ≤ d.start (ix1 e) idx 0 + d.window (ix1 e) 0 ∧ d.start (ix1 e) idx 0 + d.window (ix1 e) 0 < (N : ℤ)
        rw [h0, hi0]
        exact ⟨by positivity, by exact_mod_cast (i 0).isLt⟩

/-- THE ACCUMULATING SCATTER INTO A RANK-1 OPERAND AT THE IDEAL INSTANCE. With those dimension numbers, element `r` of
    `x.at[idx].add(upd)` is `x[r]` plus the exact sum of `upd[e]` over the update positions `e` whose scatter index
    `idx[e, 0]`, read signed and not clamped, is `r`. -/
theorem vecScatterAdd_apply {φ : FTy} (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (r : Fin N) :
    Host.scatterAdd (F := Ideal) d x idx upd (ix1 r)
      = x (ix1 r) + ∑ e ∈ Finset.univ.filter (fun e : Fin n => (idx (ixP e)).toInt = (r.val : ℤ)), upd (ix1 e) := by
  have key : ∀ j : (⟨1, ![n]⟩ : Shape).Idx,
      d.resultIdx? j idx = some (ix1 r) ↔ (idx (ixP (j 0))).toInt = (r.val : ℤ) := by
    intro j
    obtain ⟨a, rfl⟩ : ∃ a, j = ix1 a := ⟨j 0, eq_ix1 j⟩
    exact vecScatter_resultIdx?_eq_some_iff d huw hiw hsd hivd idx a (ix1 r)
  simp only [Host.scatterAdd, Ideal.hostScatterAdd_def, Ideal.hostScatterAdd]
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end VecScatter

/-! ## A start-index column: the vector it is broadcast from, and jnp's index normalisation -/

/-- The rank-1 index built from a coordinate is the library's `Shape.Idx.ofFin` of it (the form `gather_take` and the
    broadcast lemmas are stated with). -/
theorem ix1_eq_ofFin {n : Nat} (e : Fin n) : ix1 e = Shape.Idx.ofFin e := by
  funext a
  have ha : a = 0 := Subsingleton.elim _ _
  subst ha
  exact Fin.ext rfl

/-- A vector kept as an `[n × 1]` column reads, at row `e`, the vector at `e`. -/
theorem bcast_col1_ix1 {α : Type} {n : Nat} (h₁ : (⟨1, ![n]⟩ : Shape).BroadcastsInDim ⟨2, ![n, 1]⟩ ![0])
    (v : (⟨1, ![n]⟩ : Shape).Idx → α) (e : Fin n) :
    broadcastInDim ⟨2, ![n, 1]⟩ ![0] h₁ v (ixP e) = v (ix1 e) := by
  rw [ix1_eq_ofFin]
  exact bcast_col1 h₁ v e

/-- jnp's index normalisation `where(v < 0, v + c, v)` read at one element: the select of the elements. The comparand and
    the addend are any vectors (in a program, broadcast scalar constants, which read their word everywhere). -/
theorem normIndex_apply {s : Shape} (V Z A : IVec s 32) (i : s.Idx) :
    select (cmpi .slt V Z) (addi V A) V i = Scalar.select (IntOp.cmpi .slt (V i) (Z i)) (IntOp.addi (V i) (A i)) (V i) := rfl

/-- A broadcast scalar constant reads its word at every index. -/
theorem bcast_constantI_apply {s₀ t : Shape} (dims : Fin s₀.rank → Fin t.rank) (h : s₀.BroadcastsInDim t dims)
    (b : BitVec 32) (j : t.Idx) : broadcastInDim t dims h (constantI s₀ 32 b) j = b := rfl

/-- A word whose signed value is a natural number is not below zero: the signed comparison with the zero word is the
    bit 0. -/
theorem cmpi_slt_zero_of_toInt_eq_natCast {v : BitVec 32} {r : Nat} (hv : v.toInt = (r : ℤ)) :
    IntOp.cmpi .slt v 0#32 = 0#1 := by
  have h0 : (0#32 : BitVec 32).toInt = 0 := by decide
  have hlt : v.slt 0#32 = false := by
    simp only [BitVec.slt, hv, h0, decide_eq_false_iff_not]; omega
  show BitVec.ofBool (v.slt 0#32) = 0#1
  rw [hlt]; rfl

/-- AN INDEX ALREADY IN RANGE IS NEITHER WRAPPED NOR CLAMPED. For a 32-bit index word `v` whose signed value is `r` with
    `r < N`: jnp's normalisation `select (v < 0) (v + c) v` (whatever the addend `c`; a program's is the extent) followed
    by the gather's signed read and clamp into `[0, N − 1]` gives `r`. -/
theorem normIndex_clamp_of_inRange (v c : BitVec 32) {N r : Nat} (hr : r < N) (hv : v.toInt = (r : ℤ)) :
    min (Scalar.select (IntOp.cmpi .slt v 0#32) (IntOp.addi v c) v).toInt.toNat (N - 1) = r := by
  rw [cmpi_slt_zero_of_toInt_eq_natCast hv, select_zero, hv]
  simp only [Int.toNat_natCast]
  omega

/-- The same at row `e` of the start-index column a gather reads: the column is the normalised index vector kept as
    `[n × 1]`; when the comparand reads the zero word at `e` and the index at `e` has signed value `r < N`, the start index
    read signed and clamped into `[0, N − 1]` is `r`. -/
theorem normIndexCol_clamp_of_inRange {n N r : Nat} (h₁ : (⟨1, ![n]⟩ : Shape).BroadcastsInDim ⟨2, ![n, 1]⟩ ![0])
    (V Z A : IVec ⟨1, ![n]⟩ 32) (e : Fin n) (hZ : Z (ix1 e) = 0#32) (hr : r < N) (hv : (V (ix1 e)).toInt = (r : ℤ)) :
    min (broadcastInDim ⟨2, ![n, 1]⟩ ![0] h₁ (select (cmpi .slt V Z) (addi V A) V) (ixP e)).toInt.toNat (N - 1) = r := by
  rw [bcast_col1_ix1, normIndex_apply, hZ]
  exact normIndex_clamp_of_inRange _ _ hr hv

end Cert.LibGatherScatter
-- ==== Proof.RefTail.lean ====
/-
  The reference's loss as a function of the array of observed scores: the row mask, the gather of the sampled
  codebook rows (an index in range is its own normalisation, and the gather reads that row), the log-sigmoids and
  their sums over samples and attributes, the positive term, and the closing quotient.

  First the small facts: sums over an index set by coordinates (a row of a rank-2 array, a slab of a rank-3 one),
  the gather of table rows at a rank-3 array of start indices read at an entry, and the guarded soft-plus at an
  entry. Then the operations after the observed scores, stage by stage, composed into one function; the run of the
  operation list cut after the operation that writes the observed scores; and that function, on scores s * ob
  with every sample index in range, evaluated entry by entry to the loss.
-/
import proofs.«412130_j67843303407889_2_alg».proof.Proof.RefRun
import proofs.«412130_j67843303407889_2_alg».proof.Proof.Bridge
import proofs.«412130_j67843303407889_2_alg».proof.Proof.LibGatherScatter
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.RefVal

open Cert.ReferenceIdeal Idealize.ShloMosaic Idealize.ShloMosaic.ValueIdx Idealize.ShloMosaic.TcCoe Idealize.SL.Sem Idealize.ShloMosaic.StableHlo Cert.Bridge
open Cert.ReferenceIdeal.Facts₀

variable [hReferenceIdeal : Cert.ReferenceIdeal.Facts]

/-! ## Sums over an index set, by coordinates -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Dropping the column of a rank-2 index keeps its row. -/
theorem drop_row_val {n c : Nat} (h' : (⟨2, ![n, c]⟩ : Shape).ReducesTo [1] ⟨1, ![n]⟩) (i : (⟨2, ![n, c]⟩ : Shape).Idx) :
    (h'.drop i 0 : Nat) = (i 0).val := rfl

/-- The entries of a rank-2 array that a sum over its columns sends to row b are that row's: the sum over them is
    the sum over the row's coordinates. -/
theorem sum_drop_row {n c : Nat} (h' : (⟨2, ![n, c]⟩ : Shape).ReducesTo [1] ⟨1, ![n]⟩)
    (x : (⟨2, ![n, c]⟩ : Shape).Idx → EReal) (b : Fin n) :
    ∑ i ∈ Finset.univ.filter (fun i => h'.drop i = ix1 b), x i = ∑ a : Fin c, x (ix2 b a) := by
  have hin : ∀ a : Fin c, h'.drop (ix2 b a) = ix1 b := fun a => by
    funext d
    obtain rfl : d = 0 := Subsingleton.elim _ _
    exact Fin.ext (drop_row_val h' _)
  have hback : ∀ i : (⟨2, ![n, c]⟩ : Shape).Idx, h'.drop i = ix1 b → ix2 b (i 1) = i := fun i hi => by
    have h0 : (i 0).val = b.val := by rw [← drop_row_val h' i, hi]; rfl
    funext d
    match d with
    | ⟨0, _⟩ => exact Fin.ext h0.symm
    | ⟨1, _⟩ => rfl
  refine Finset.sum_bij' (fun i _ => (i 1 : Fin c)) (fun a _ => ix2 b a) ?_ ?_ ?_ ?_ ?_
  · intro i _; exact Finset.mem_univ _
  · intro a _; exact Finset.mem_filter.2 ⟨Finset.mem_univ _, hin a⟩
  · intro i hi; exact hback i (Finset.mem_filter.1 hi).2
  · intro a _; rfl
  · intro i hi; exact congrArg x (hback i (Finset.mem_filter.1 hi).2).symm

/-- Dropping the two inner coordinates of a rank-3 index keeps its row. -/
theorem drop_row3_val {n m c : Nat} (h' : (⟨3, ![n, m, c]⟩ : Shape).ReducesTo [1, 2] ⟨1, ![n]⟩)
    (i : (⟨3, ![n, m, c]⟩ : Shape).Idx) : (h'.drop i 0 : Nat) = (i 0).val := rfl

/-- The entries of a rank-3 array that a sum over its two inner axes sends to row b are that row's slab: the sum
    over them is the double sum over the slab's coordinates. -/
theorem sum_drop_row3 {n m c : Nat} (h' : (⟨3, ![n, m, c]⟩ : Shape).ReducesTo [1, 2] ⟨1, ![n]⟩)
    (x : (⟨3, ![n, m, c]⟩ : Shape).Idx → EReal) (b : Fin n) :
    ∑ i ∈ Finset.univ.filter (fun i => h'.drop i = ix1 b), x i = ∑ k : Fin m, ∑ a : Fin c, x (ix3 b k a) := by
  have hin : ∀ (k : Fin m) (a : Fin c), h'.drop (ix3 b k a) = ix1 b := fun k a => by
    funext d
    obtain rfl : d = 0 := Subsingleton.elim _ _
    exact Fin.ext (drop_row3_val h' _)
  have hback : ∀ i : (⟨3, ![n, m, c]⟩ : Shape).Idx, h'.drop i = ix1 b → ix3 b (i 1) (i 2) = i := fun i hi => by
    have h0 : (i 0).val = b.val := by rw [← drop_row3_val h' i, hi]; rfl
    funext d
    match d with
    | ⟨0, _⟩ => exact Fin.ext h0.symm
    | ⟨1, _⟩ => rfl
    | ⟨2, _⟩ => rfl
  refine Eq.trans ?_ (Fintype.sum_prod_type' (fun (k : Fin m) (a : Fin c) => x (ix3 b k a)))
  refine Finset.sum_bij' (fun i _ => ((i 1, i 2) : Fin m × Fin c)) (fun p _ => ix3 b p.1 p.2) ?_ ?_ ?_ ?_ ?_
  · intro i _; exact Finset.mem_univ _
  · intro p _; exact Finset.mem_filter.2 ⟨Finset.mem_univ _, hin p.1 p.2⟩
  · intro i hi; exact hback i (Finset.mem_filter.1 hi).2
  · intro p _; rfl
  · intro i hi; exact congrArg x (hback i (Finset.mem_filter.1 hi).2).symm

/-! ## The gather of table rows at a rank-3 array of start indices -/

/-- The dimension numbers of x[idx] for a table [N, C] and an index array kept as [n, m, 1]: the row axis
    collapsed and start-indexed, the column axis the one offset axis with the whole row as the slice, the index
    vector on the last axis. -/
abbrev rowDims3 (N C n m : Nat)
    (wf : GatherDims.WF ⟨2, ![N, C]⟩ ⟨3, ![n, m, 1]⟩ ⟨3, ![n, m, C]⟩ [2] [0] [] [0] [] 2 ![1, C]) :
    GatherDims ⟨2, ![N, C]⟩ ⟨3, ![n, m, 1]⟩ ⟨3, ![n, m, C]⟩ where
  offsetDims := [2]
  collapsedSliceDims := [0]
  operandBatchingDims := []
  startIndicesBatchingDims := []
  startIndexMap := [0]
  indexVectorDim := 2
  sliceSizes := ![1, C]
  wf := wf

/-- That gather read at (e, k, q): the table at row idx[e, k, 0], read signed and clamped into [0, N − 1],
    column q. -/
theorem rowGather3_apply {α : Type} {N C n m w : Nat} (hN : 0 < N)
    (wf : GatherDims.WF ⟨2, ![N, C]⟩ ⟨3, ![n, m, 1]⟩ ⟨3, ![n, m, C]⟩ [2] [0] [] [0] [] 2 ![1, C])
    (x : (⟨2, ![N, C]⟩ : Shape).Idx → α) (idx : IVec ⟨3, ![n, m, 1]⟩ w) (e : Fin n) (k : Fin m) (q : Fin C) :
    Host.gather (rowDims3 N C n m wf) x idx (ix3 e k q)
      = x (ix2 ⟨min (idx (ix3 e k (0 : Fin 1))).toInt.toNat (N - 1), by omega⟩ q) := by
  unfold Host.gather
  congr 1
  funext a
  refine Fin.ext ?_
  match a with
  | ⟨0, _⟩ =>
    show (rowDims3 N C n m wf).start (ix3 e k q) idx 0 + (rowDims3 N C n m wf).batchCoord (ix3 e k q) 0
        + (rowDims3 N C n m wf).offCoord (ix3 e k q) 0 = min (idx (ix3 e k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N C n m wf).startIndexMap from List.mem_singleton.mpr rfl)]
    have hsi : (rowDims3 N C n m wf).siIdx (ix3 e k q) ⟨List.idxOf (0 : Fin 2) (rowDims3 N C n m wf).startIndexMap,
        List.idxOf_lt_length_iff.2 (List.mem_singleton.mpr rfl)⟩ = ix3 e k (0 : Fin 1) := by
      funext b; refine Fin.ext ?_
      match b with
      | ⟨0, _⟩ => rfl
      | ⟨1, _⟩ => rfl
      | ⟨2, _⟩ => rfl
    rw [hsi]
    rfl
  | ⟨1, _⟩ =>
    have hm : (1 : Fin 2) ∉ (rowDims3 N C n m wf).startIndexMap :=
      fun h => Nat.one_ne_zero (congrArg Fin.val (List.mem_singleton.mp h))
    have hk : (1 : Fin 2) ∈ (rowDims3 N C n m wf).sKept :=
      (GatherDims.mem_sKept _ _).mpr ⟨fun h => Nat.one_ne_zero (congrArg Fin.val (List.mem_singleton.mp h)), List.not_mem_nil⟩
    show (rowDims3 N C n m wf).start (ix3 e k q) idx 1 + (rowDims3 N C n m wf).batchCoord (ix3 e k q) 1
        + (rowDims3 N C n m wf).offCoord (ix3 e k q) 1 = q.val
    rw [GatherDims.batchCoord_eq_zero _ _ _ List.not_mem_nil]
    simp only [Nat.add_zero, GatherDims.start, dif_neg hm, GatherDims.offCoord, dif_pos hk, Nat.zero_add]
    rfl

/-! ## Log-sigmoid, entry by entry -/

/-- No extended real differs from itself: the comparison is the zero bit. -/
theorem cmp_une_self (z : EReal) : Ideal.cmp .une z z = 0#1 := by
  simp [Ideal.cmp]

/-- The guarded soft-plus and the two negations around it, at one entry, are the log-sigmoid: the guard "not
    equal to itself" never fires, subtracting zero changes nothing, and the absolute value is max z (-z). -/
theorem logSig_entry (u : EReal) :
    -(Scalar.select (Ideal.cmp .une (-u - 0) (-u - 0)) (-u + 0)
        (max (-u) 0 + Ideal.log1p (Ideal.exp (-(max (-u - 0) (-(-u - 0))))))) = Cert.Spec.logSig u := by
  rw [cmp_une_self, select_zero, Cert.Spec.sub_zero_eq]
  rfl

/-! ## The operations after the observed scores, stage by stage -/

/-- The rank-0 zero the program broadcasts and starts its sums from. -/
abbrev zeroS : FVec Ideal S_ .f32 := constant (F := Ideal) S_ .f32 0x00000000#32

/-- The row sums of the observed scores. -/
def rowSum18 (x : FVec Ideal S131072x18 .f32) : FVec Ideal S131072 .f32 :=
  Host.reduceAdd x zeroS reducesTo_S131072x18_S131072_d1 h_S_

/-- The row mask: one for a row whose sum is not zero, else zero (the comparison's bit as a number). -/
def maskArr (x : FVec Ideal S131072x18 .f32) : FVec Ideal S131072 .f32 :=
  uitofp .f32 (cmpf .une (rowSum18 x) (broadcastInDim S131072 ![] bcast_S_S131072 zeroS))

/-- The sample indices normalised: index < 0 ? index + 384 : index. -/
def normIdx (a10 : IVec S131072x32 32) : IVec S131072x32 32 :=
  select (cmpi .slt a10 (broadcastInDim S131072x32 ![] bcast_S_S131072x32 (constantI S_ 32 0#32)))
    (addi a10 (broadcastInDim S131072x32 ![] bcast_S_S131072x32 (constantI S_ 32 384#32))) a10

/-- Minus the gathered codebook rows, times the observed scores broadcast along the sample axis. -/
def negArr (x : FVec Ideal S131072x18 .f32) (a3 : FVec Ideal S384x18 .f32) (a10 : IVec S131072x32 32) :
    FVec Ideal S131072x32x18 .f32 :=
  mulf (Host.negf (Host.gather gather_S384x18_S131072x32x1_S131072x32x18_2_0_n_n_0_2_118 a3
      (broadcastInDim S131072x32x1 ![0, 1] bcast_S131072x32_S131072x32x1_0_1 (normIdx a10))))
    (broadcastInDim S131072x32x18 ![0, 1, 2] bcast_S131072x1x18_S131072x32x18_0_1_2
      (broadcastInDim S131072x1x18 ![0, 2] bcast_S131072x18_S131072x1x18_0_2 x))

/-- The soft-plus as the program spells it: where y - 0 differs from itself, y + 0; elsewhere
    max y 0 + log1p (exp (-|y - 0|)). -/
def softplusArr {S : Shape} (hb : S_.BroadcastsInDim S (![] : Fin 0 → Fin S.rank)) (y : FVec Ideal S .f32) : FVec Ideal S .f32 :=
  select (cmpf .une (subf y (broadcastInDim S ![] hb zeroS)) (subf y (broadcastInDim S ![] hb zeroS)))
    (addf y (broadcastInDim S ![] hb zeroS))
    (addf (maximumf y (broadcastInDim S ![] hb zeroS))
      (Host.log1p (Host.exp (Host.negf (Host.absf (subf y (broadcastInDim S ![] hb zeroS)))))))

/-- The log-sigmoid as the program spells it: minus the soft-plus of the negation. -/
def logSigArr {S : Shape} (hb : S_.BroadcastsInDim S (![] : Fin 0 → Fin S.rank)) (x : FVec Ideal S .f32) : FVec Ideal S .f32 :=
  Host.negf (softplusArr hb (Host.negf x))

/-- The negative term of every row: the log-sigmoids summed over the sample and attribute axes. -/
def negSum (x : FVec Ideal S131072x18 .f32) (a3 : FVec Ideal S384x18 .f32) (a10 : IVec S131072x32 32) : FVec Ideal S131072 .f32 :=
  Host.reduceAdd (logSigArr bcast_S_S131072x32x18 (negArr x a3 a10)) zeroS reducesTo_S131072x32x18_S131072_d1_2 h_S_

/-- The positive term of every row: the log-sigmoids of scores times labels summed over the attributes. -/
def posSum (x a1 : FVec Ideal S131072x18 .f32) : FVec Ideal S131072 .f32 :=
  Host.reduceAdd (logSigArr bcast_S_S131072x18 (mulf x a1)) zeroS reducesTo_S131072x18_S131072_d1 h_S_

/-- The operations after the observed scores, as one function of that array, the labels, the codebook and the
    sample indices. -/
def tailTerm (wcArr : S131072x18.Idx → EReal) (a1 : S131072x18.Idx → EReal) (a3 : S384x18.Idx → EReal) (a10 : S131072x32.Idx → BitVec 32) :
    S_.Idx → EReal :=
  Host.divf (F := Ideal) (φ := .f32)
    (Host.negf (Host.reduceAdd (mulf (maskArr wcArr) (addf (posSum wcArr a1) (negSum wcArr a3 a10))) zeroS
      reducesTo_S131072_S_d0 h_S_))
    (maximumf (Host.reduceAdd (maskArr wcArr) zeroS reducesTo_S131072_S_d0 h_S_)
      (constant (F := Ideal) S_ .f32 0x3F800000#32))

/-! ## The loss buffer as that function of the observed-scores buffer -/

/-- A run of a list is the run of its second part from what its first part leaves. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- So the run of a list is the run of what follows its first k operations from what those leave. -/
theorem after_take_drop (k : Nat) (l : List (HloOp τ sig (Elt Ideal))) (V : Valuation τ sig (Elt Ideal)) :
    after l V = after (l.drop k) (after (l.take k) V) := by
  rw [← after_append', List.take_append_drop]

/-- The operations after the one that writes the observed scores do not write that buffer. -/
theorem tail_v24 (W : Valuation τ sig (Elt Ideal)) :
    after ((ops (F := Ideal)).drop 29) W (Proc.devRef .tc main_v24) = W (Proc.devRef .tc main_v24) := by
  simp only [ops, List.drop_succ_cons, List.drop_zero]
  after_results_simp

/-- From any contents, they leave in the loss buffer the function above of the observed scores, the labels, the
    codebook and the sample indices there. -/
theorem tail_v51 (W : Valuation τ sig (Elt Ideal)) :
    after ((ops (F := Ideal)).drop 29) W (Proc.devRef .tc main_v51)
      = tailTerm (W (Proc.devRef .tc main_v24)) (W (Proc.devRef .tc main_arg1)) (W (Proc.devRef .tc main_arg3))
          (W (Proc.devRef .tc main_arg10)) := by
  simp only [ops, List.drop_succ_cons, List.drop_zero]
  after_results_simp
  rfl

/-- The first operations, like the whole list, write no argument buffer. -/
theorem head_arg_kept (V : Valuation τ sig (Elt Ideal)) (r : Ref sig .tc) (hr : (Proc.devRef (τ := τ) .tc r).idx.val < 11) :
    after ((ops (F := Ideal)).take 29) V (Proc.devRef .tc r) = V (Proc.devRef .tc r) :=
  after_of_forall_not_mem _ V fun op hop hb =>
    absurd ((List.forall_iff_forall_mem.mp ops_writes) op (List.mem_of_mem_take hop) _ hb) (Nat.not_le.mpr hr)

/-- The loss buffer is that function of the observed-scores buffer. -/
theorem res_v51_tail (m : (ℓ : Loc nD τ sig) → Buf (Elt Ideal) ℓ) (c : Dev nD) :
    res (F := Ideal) m c main_v51 = tailTerm (res (F := Ideal) m c main_v24) (m ((c.tc : Thread nD τ).loc main_arg1)) (m ((c.tc : Thread nD τ).loc main_arg3)) (m ((c.tc : Thread nD τ).loc main_arg10)) := by
  have h51 := after_take_drop 29 (ops (F := Ideal)) (launchContents m c)
  have e51 : res (F := Ideal) m c main_v51
      = after ((ops (F := Ideal)).drop 29) (after ((ops (F := Ideal)).take 29) (launchContents m c)) (Proc.devRef .tc main_v51) :=
    congrFun h51 _
  have e24 : res (F := Ideal) m c main_v24
      = after ((ops (F := Ideal)).take 29) (launchContents m c) (Proc.devRef .tc main_v24) :=
    (congrFun h51 _).trans (tail_v24 _)
  rw [e51, e24, tail_v51, head_arg_kept _ main_arg1 (by decide), head_arg_kept _ main_arg3 (by decide),
    head_arg_kept _ main_arg10 (by decide)]

/-! ## The stages read at an entry -/

/-- The rank-0 zero reads zero. -/
theorem zeroS_apply (j : S_.Idx) : zeroS j = 0 := Ideal.ofBits_zero_f32

/-- Broadcast to any shape it reads zero everywhere. -/
theorem bzero_apply {S : Shape} (hb : S_.BroadcastsInDim S (![] : Fin 0 → Fin S.rank)) (i : S.Idx) :
    broadcastInDim S ![] hb zeroS i = 0 := Ideal.ofBits_zero_f32

/-- The host's sum at a reduced index: the initial value plus the sum of the entries sent there. -/
theorem hostReduceAdd_eq {s t : Shape} {axes : List (Fin s.rank)} (h : s.ReducesTo axes t) (x : s.Idx → EReal) (init : EReal)
    (j : t.Idx) : Ideal.hostReduceAdd h x init j = init + ∑ i ∈ Finset.univ.filter (fun i => h.drop i = j), x i := rfl

/-- A one-bit word as a number, at an entry. -/
theorem uitofp_ideal_apply {s : Shape} (x : IVec s 1) (i : s.Idx) :
    (uitofp .f32 x : FVec Ideal s .f32) i = (((x i).toNat : ℝ) : EReal) := rfl

/-- The host's negation at an entry. -/
theorem hostNegf_ideal_apply {s : Shape} (x : FVec Ideal s .f32) (i : s.Idx) : Host.negf x i = -(x i) := rfl

/-- A row sum is the sum of the row's eighteen entries. -/
theorem rowSum18_apply (x : FVec Ideal S131072x18 .f32) (b : Fin 131072) :
    rowSum18 x (ix1 b) = ∑ a : Fin 18, x (ix2 b a) := by
  have e : rowSum18 x (ix1 b)
      = Ideal.hostReduceAdd reducesTo_S131072x18_S131072_d1 x (zeroS (Shape.Idx.first h_S_)) (ix1 b) := rfl
  rw [e, hostReduceAdd_eq, zeroS_apply, zero_add]
  exact sum_drop_row _ x b

/-- The mask of a row: one when its sum is not zero, else zero. -/
theorem maskArr_apply (x : FVec Ideal S131072x18 .f32) (b : Fin 131072) :
    maskArr x (ix1 b) = if (∑ a : Fin 18, x (ix2 b a)) ≠ 0 then 1 else 0 := by
  unfold maskArr
  rw [uitofp_ideal_apply, cmpf_apply, Ideal.cmpf_def, rowSum18_apply, bzero_apply]
  by_cases h : (∑ a : Fin 18, x (ix2 b a)) = 0
  · rw [if_neg (not_not.mpr h)]; simp [Ideal.cmp, h]
  · rw [if_pos h]; simp [Ideal.cmp, h]

/-- The program's log-sigmoid at an entry is the log-sigmoid of the entry. -/
theorem logSigArr_apply {S : Shape} (hb : S_.BroadcastsInDim S (![] : Fin 0 → Fin S.rank)) (x : FVec Ideal S .f32) (i : S.Idx) :
    logSigArr hb x i = Cert.Spec.logSig (x i) := by
  have e : logSigArr hb x i
      = -(Scalar.select (Ideal.cmp .une (-(x i) - broadcastInDim S ![] hb zeroS i) (-(x i) - broadcastInDim S ![] hb zeroS i))
          (-(x i) + broadcastInDim S ![] hb zeroS i)
          (max (-(x i)) (broadcastInDim S ![] hb zeroS i)
            + Ideal.log1p (Ideal.exp (-(max (-(x i) - broadcastInDim S ![] hb zeroS i) (-(-(x i) - broadcastInDim S ![] hb zeroS i))))))) := rfl
  rw [e, bzero_apply, logSig_entry]

/-- A sample index in range, read as a signed number, is the natural number it holds. -/
theorem toInt_of_lt {v : BitVec 32} (h : v.toNat < 384) : v.toInt = (v.toNat : ℤ) := by
  rw [BitVec.toInt_eq_toNat_cond, if_pos (by omega)]

/-- With every sample index in range, the negative product at (b, k, a) is minus the codebook entry of the row
    the k-th sample names, times the observed score. -/
theorem negArr_apply (x : FVec Ideal S131072x18 .f32) (a3 : FVec Ideal S384x18 .f32) (a10 : IVec S131072x32 32)
    (hr : InRange a10) (b : Fin 131072) (k : Fin 32) (a : Fin 18) :
    negArr x a3 a10 (ix3 b k a) = -(a3 (ix2 (rowOf a10 b k) a)) * x (ix2 b a) := by
  -- the observed scores broadcast along the sample axis read the row's entry
  have h1 : broadcastInDim S131072x32x18 ![0, 1, 2] bcast_S131072x1x18_S131072x32x18_0_1_2
      (broadcastInDim S131072x1x18 ![0, 2] bcast_S131072x18_S131072x1x18_0_2 x) (ix3 b k a) = x (ix2 b a) := by
    rw [broadcastInDim_apply _ _ _ _ (ix3 b (0 : Fin 1) a) (by
      intro d
      match d with
      | ⟨0, _⟩ => rfl
      | ⟨1, _⟩ => rfl
      | ⟨2, _⟩ => rfl)]
    exact broadcastInDim_apply _ _ _ _ (ix2 b a) (by
      intro d
      match d with
      | ⟨0, _⟩ => rfl
      | ⟨1, _⟩ => rfl)
  -- the start-index array at (b, k, 0) is the normalised index at (b, k)
  have h2 : broadcastInDim S131072x32x1 ![0, 1] bcast_S131072x32_S131072x32x1_0_1 (normIdx a10) (ix3 b k (0 : Fin 1))
      = normIdx a10 (ix2 b k) :=
    broadcastInDim_apply _ _ _ _ (ix2 b k) (by
      intro d
      match d with
      | ⟨0, _⟩ => rfl
      | ⟨1, _⟩ => rfl)
  -- which, read signed and clamped, is the row the index names
  have h3 : normIdx a10 (ix2 b k)
      = Scalar.select (IntOp.cmpi .slt (a10 (ix2 b k)) 0#32) (IntOp.addi (a10 (ix2 b k)) 384#32) (a10 (ix2 b k)) := rfl
  have hG : gather_S384x18_S131072x32x1_S131072x32x18_2_0_n_n_0_2_118
      = rowDims3 384 18 131072 32 gather_S384x18_S131072x32x1_S131072x32x18_2_0_n_n_0_2_118_wf := rfl
  have e : negArr x a3 a10 (ix3 b k a)
      = -(Host.gather gather_S384x18_S131072x32x1_S131072x32x18_2_0_n_n_0_2_118 a3
            (broadcastInDim S131072x32x1 ![0, 1] bcast_S131072x32_S131072x32x1_0_1 (normIdx a10)) (ix3 b k a))
          * broadcastInDim S131072x32x18 ![0, 1, 2] bcast_S131072x1x18_S131072x32x18_0_1_2
              (broadcastInDim S131072x1x18 ![0, 2] bcast_S131072x18_S131072x1x18_0_2 x) (ix3 b k a) := rfl
  rw [e, h1, hG, rowGather3_apply (by norm_num)]
  have hrow : (⟨min (broadcastInDim S131072x32x1 ![0, 1] bcast_S131072x32_S131072x32x1_0_1 (normIdx a10) (ix3 b k (0 : Fin 1))).toInt.toNat (384 - 1),
      by omega⟩ : Fin 384) = rowOf a10 b k := by
    refine Fin.ext ?_
    show min (broadcastInDim S131072x32x1 ![0, 1] bcast_S131072x32_S131072x32x1_0_1 (normIdx a10) (ix3 b k (0 : Fin 1))).toInt.toNat (384 - 1)
      = (a10 (ix2 b k)).toNat % 384
    rw [h2, h3, Cert.LibGatherScatter.normIndex_clamp_of_inRange _ _ (hr b k) (toInt_of_lt (hr b k)), Nat.mod_eq_of_lt (hr b k)]
  rw [hrow]

/-- With every sample index in range, a row's negative term: the log-sigmoids over the 32 samples and 18 attributes. -/
theorem negSum_apply (x : FVec Ideal S131072x18 .f32) (a3 : FVec Ideal S384x18 .f32) (a10 : IVec S131072x32 32)
    (hr : InRange a10) (b : Fin 131072) :
    negSum x a3 a10 (ix1 b)
      = ∑ k : Fin 32, ∑ a : Fin 18, Cert.Spec.logSig (-(a3 (ix2 (rowOf a10 b k) a)) * x (ix2 b a)) := by
  have e : negSum x a3 a10 (ix1 b)
      = Ideal.hostReduceAdd reducesTo_S131072x32x18_S131072_d1_2 (logSigArr bcast_S_S131072x32x18 (negArr x a3 a10))
          (zeroS (Shape.Idx.first h_S_)) (ix1 b) := rfl
  rw [e, hostReduceAdd_eq, zeroS_apply, zero_add, sum_drop_row3]
  refine Finset.sum_congr rfl fun k _ => Finset.sum_congr rfl fun a _ => ?_
  rw [logSigArr_apply, negArr_apply x a3 a10 hr]

/-- A row's positive term: the log-sigmoids of score times label over the 18 attributes. -/
theorem posSum_apply (x a1 : FVec Ideal S131072x18 .f32) (b : Fin 131072) :
    posSum x a1 (ix1 b) = ∑ a : Fin 18, Cert.Spec.logSig (x (ix2 b a) * a1 (ix2 b a)) := by
  have e : posSum x a1 (ix1 b)
      = Ideal.hostReduceAdd reducesTo_S131072x18_S131072_d1 (logSigArr bcast_S_S131072x18 (mulf x a1))
          (zeroS (Shape.Idx.first h_S_)) (ix1 b) := rfl
  rw [e, hostReduceAdd_eq, zeroS_apply, zero_add, sum_drop_row]
  refine Finset.sum_congr rfl fun a _ => ?_
  rw [logSigArr_apply]
  rfl

/-- The sum over all rows, from zero, is the sum over the row coordinate. -/
theorem totalSum_apply (v : FVec Ideal S131072 .f32) (j : S_.Idx) :
    Host.reduceAdd v zeroS reducesTo_S131072_S_d0 h_S_ j = ∑ b : Fin 131072, v (ix1 b) := by
  have e : Host.reduceAdd v zeroS reducesTo_S131072_S_d0 h_S_ j
      = Ideal.hostReduceAdd reducesTo_S131072_S_d0 v (zeroS (Shape.Idx.first h_S_)) j := rfl
  rw [e, Ideal.hostReduceAdd_total _ (fun b => b.elim0), zeroS_apply, zero_add, sum_idx1]

/-- On observed scores s * ob, with every sample index in range, it is the loss of Spec.lean. -/
theorem tailTerm_eq (s ob : Fin 131072 → Fin 18 → EReal) (a1 : S131072x18.Idx → EReal) (a3 : S384x18.Idx → EReal) (a10 : S131072x32.Idx → BitVec 32)
    (hr : InRange a10) :
    tailTerm (fun i => Cert.Spec.wc s ob (i 0) (i 1)) a1 a3 a10
      = fun _ => Cert.Spec.lossOf (Cert.Spec.sumW s ob (fun b a => a1 (ix2 b a)) (fun g a => a3 (ix2 g a)) (rowOf a10)) (Cert.Spec.sumM s ob) := by
  funext j
  have hM : ∀ b : Fin 131072, maskArr (fun i => Cert.Spec.wc s ob (i 0) (i 1)) (ix1 b) = Cert.Spec.rowMask s ob b :=
    fun b => by rw [maskArr_apply]; rfl
  have hP : ∀ b : Fin 131072, posSum (fun i => Cert.Spec.wc s ob (i 0) (i 1)) a1 (ix1 b)
      = Cert.Spec.posTerm s ob (fun b a => a1 (ix2 b a)) b :=
    fun b => by rw [posSum_apply]; rfl
  have hN : ∀ b : Fin 131072, negSum (fun i => Cert.Spec.wc s ob (i 0) (i 1)) a3 a10 (ix1 b)
      = Cert.Spec.negTerm s ob (fun g a => a3 (ix2 g a)) (rowOf a10) b :=
    fun b => by rw [negSum_apply _ _ _ hr]; rfl
  unfold tailTerm
  rw [hostDivf_apply, hostNegf_ideal_apply, maximumf_apply, constant_apply, totalSum_apply, totalSum_apply,
    Ideal.ofBits_one_f32]
  simp only [mulf_apply, addf_apply, hM, hP, hN]
  rfl

end Cert.ReferenceIdeal.RefVal

end
-- ==== Proof.RefValue.lean ====
/-
  The reference's two results as the functions of Bridge.lean: the score matrix, and the loss (the operations
  after the observed scores, read on the observed scores the perceptron leaves).
-/
import proofs.«412130_j67843303407889_2_alg».proof.Proof.RefRun
import proofs.«412130_j67843303407889_2_alg».proof.Proof.Bridge
import proofs.«412130_j67843303407889_2_alg».proof.Proof.RefHead
import proofs.«412130_j67843303407889_2_alg».proof.Proof.RefTail
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefVal

open Cert.ReferenceIdeal Idealize.ShloMosaic Idealize.ShloMosaic.ValueIdx Idealize.ShloMosaic.TcCoe Idealize.SL.Sem Idealize.ShloMosaic.StableHlo Cert.Bridge

variable [hReferenceIdeal : Cert.ReferenceIdeal.Facts]

/-- The loss. -/
theorem res_v51 (m : (ℓ : Loc nD τ sig) → Buf (Elt Ideal) ℓ) (c : Dev nD) (hr : InRange (m ((c.tc : Thread nD τ).loc main_arg10))) :
    res (F := Ideal) m c main_v51 = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [res_v51_tail, res_v24]
  exact tailTerm_eq _ _ _ _ _ hr

/-- The run with both results read. -/
theorem run_value (m : (ℓ : Loc nD τ sig) → Buf (Elt Ideal) ℓ) (g : Dev nD → PrngReg) (hr : ∀ c : Dev nD, InRange (m ((c.tc : Thread nD τ).loc main_arg10))) :
    θ_run (defs (F := Ideal)) (onTc (τ := τ) (main (F := Ideal))) ⟨m, fun _ => 0, g⟩ (fun r => ∀ c : Dev nD,
      r.2.mem ((c.tc : Thread nD τ).loc main_v23) = Gwu (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v51) = Gloss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => ⟨(h c).1.trans (res_v23 m c), (h c).2.1.trans (res_v51 m c (hr c)), (h c).2.2⟩) (run (F := Ideal) m g)

end Cert.ReferenceIdeal.RefVal

end
-- ==== Proof.PreRange.lean ====
/-
  Under the precondition every negative-sample index names a codebook row: the precondition's last conjunct says,
  entry by entry, 0 <= index (signed) and index < 384 (signed), so the index word read unsigned is below 384.
-/
import proofs.«412130_j67843303407889_2_alg».proof.Defs
import proofs.«412130_j67843303407889_2_alg».proof.Proof.Bridge
import Idealize.ShloMosaic.Lib.StableHlo.Predicate
import Idealize.ShloMosaic.Lib.ReduceAll

noncomputable section

open Idealize.ShloMosaic Idealize.ShloMosaic.ValueIdx Idealize.SL.Sem Cert.Bridge

namespace Cert.PreRange

/-- A 32-bit word that is at least 0 and below 384 when read signed is below 384 when read unsigned:
    a word that is nonnegative read signed has its top bit clear, so both readings give the same number. -/
theorem toNat_lt_of_signed {x : BitVec 32} (h0 : (0#32 : BitVec 32).toInt ≤ x.toInt)
    (h1 : x.toInt < (384#32 : BitVec 32).toInt) : x.toNat < 384 := by
  have e0 : (0#32 : BitVec 32).toInt = 0 := by decide
  have e1 : (384#32 : BitVec 32).toInt = 384 := by decide
  rw [e0] at h0
  have hc : 2 * x.toNat < 2 ^ 32 := BitVec.toInt_pos_iff.1 h0
  rw [BitVec.toInt_eq_toNat_of_lt hc, e1] at h1
  exact_mod_cast h1

/-- The precondition is a conjunction of eleven bits; the last says of the index array that all its entries pass
    two signed comparisons, against 0 from below and against 384 from above. Reading that conjunct at the entry
    (b, k) gives the two comparisons of that one word, hence its range. -/
theorem range_of_pre [hPre_finite_inputs : Cert.Pre_finite_inputs.Facts] (m : (ℓ : Loc Cert.KernelIdeal.nD Cert.KernelIdeal.τ Cert.KernelIdeal.sig) → Buf (Elt Ideal) ℓ)
    (hpre : Cert.Pre_KernelIdeal m) : ∀ c : Dev Cert.KernelIdeal.nD, InRange (m ((c.tc : Thread Cert.KernelIdeal.nD Cert.KernelIdeal.τ).loc Cert.KernelIdeal.main_arg10)) := by
  intro c b k
  -- the rank-0 result of the predicate has exactly one index
  haveI : Subsingleton Cert.Pre_finite_inputs.S_.Idx := ⟨fun a b => funext fun d => d.elim0⟩
  -- the predicate's one bit is 1
  have h := congrFun (hpre c) ValueIdx.ix0
  dsimp only [Cert.Pre_finite_inputs.fn, Cert.Pre_finite_inputs.fn_part1, Cert.Pre_finite_inputs.fn_part2,
    Cert.Pre_finite_inputs.fn_part3] at h
  -- the outermost conjunction: its right operand is the conjunct about the index array
  obtain ⟨-, hall⟩ := IntOp.andi_eq_one.1 h
  -- a reduction by "and" over both axes that is 1 had a 1 at every entry
  have e := Host.reduce_andi_all _ _ _ _ _ hall (ix2 b k)
  -- at the entry (b, k): both comparisons hold
  obtain ⟨hge, hlt⟩ := IntOp.andi_eq_one.1 e
  exact toNat_lt_of_signed (IntOp.cmpi_sge.1 hge) (IntOp.cmpi_slt.1 hlt)

end Cert.PreRange

end
-- ==== Proof.lean ====
/-
  The certificate: a batch of 131072 samples is scored by a three-layer perceptron, and a noise-contrastive loss
  compares each sample's observed scores with its label row and with 32 sampled codebook rows.

  The kernel scores the batch in 64 blocks of 2048 rows, reads each sampled codebook row by a product with a 0/1
  matrix, and carries the count of rows that count and their weighted total from block to block, dividing at the
  last block. The reference computes the same quantities on whole arrays, with a gather for the sampled rows.
  Over the extended reals both results are one function of the arguments: the score matrix, and
  -(sum over counted rows of (positive term + negative term)) / max(count, 1). Sums regroup freely there and zero
  times anything is zero, so no argument need be finite; what is needed is that every sample index names a
  codebook row (0 <= index < 384), which the precondition states: outside that range the reference's gather has
  no row to read while the kernel's 0/1 matrix has an empty row.

  Spec.lean states the mathematics, Bridge.lean the two results as functions of the argument arrays. The kernel
  side (Chains, Iter, Mlp, NegSum, Pieces, Tile, BlockRead, Batch, Carry, KernelValue) reads the results off the
  kernel's run, the reference side (RefRun, RefHead, RefTail, RefValue) off the reference's, and PreRange reads
  the index range out of the precondition. Here the five claims are put together.
-/
import proofs.«412130_j67843303407889_2_alg».proof.Defs
import proofs.«412130_j67843303407889_2_alg».proof.Proof.Gen.Kernel
import proofs.«412130_j67843303407889_2_alg».proof.Proof.Gen.Kernel.Frame
import proofs.«412130_j67843303407889_2_alg».proof.Proof.Gen.KernelIdeal
import proofs.«412130_j67843303407889_2_alg».proof.Proof.Gen.KernelIdeal.Frame
import proofs.«412130_j67843303407889_2_alg».proof.Proof.Gen.ReferenceIdeal
import proofs.«412130_j67843303407889_2_alg».proof.Proof.Gen.Pre_finite_inputs
import proofs.«412130_j67843303407889_2_alg».proof.Proof.KernelValue
import proofs.«412130_j67843303407889_2_alg».proof.Proof.RefValue
import proofs.«412130_j67843303407889_2_alg».proof.Proof.PreRange
import Idealize.ShloMosaic.Adequacy
import Idealize.ShloMosaic.Init

noncomputable section

open Idealize.ShloMosaic Idealize.ShloMosaic.ValueIdx Idealize.SL.Sem Cert.Bridge

namespace Cert.Proof

/-- The word-level kernel terminates and keeps its arguments. -/
theorem frame_k : Cert.frame_Kernel := fun m ρ _ => Cert.Kernel.Gen.frame m ρ

/-- The idealized kernel terminates and keeps its arguments. -/
theorem frame_ki : Cert.frame_KernelIdeal := fun m ρ _ => Cert.KernelIdeal.Gen.frame m ρ

/-- The reference terminates and keeps its arguments: its run with the results dropped. -/
theorem frame_ri : Cert.frame_ReferenceIdeal := fun m ρ _ =>
  (θ_run _ _ _).mono (fun _ h c => (h c).2.2) (Cert.ReferenceIdeal.RefVal.run (F := Ideal) m ρ)

/-- From memories that agree on the arguments, with every sample index in range, both programs end with the
    score matrix and the loss of Bridge.lean, as functions of the same argument arrays. -/
theorem algebraic :
    Cert.algebraic_KernelIdeal_ReferenceIdeal := by
  intro m g m' g' hpre hagree
  have hr := Cert.PreRange.range_of_pre m hpre
  have hr' : ∀ c : Dev Cert.ReferenceIdeal.nD, InRange (m' ((c.tc : Thread Cert.ReferenceIdeal.nD Cert.ReferenceIdeal.τ).loc Cert.ReferenceIdeal.main_arg10)) := fun c => by
    rw [(hagree c).2.2.2.2.2.2.2.2.2.2]; exact hr c
  refine ⟨fun c => Gwu (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Gloss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Val.run m g hr, ?_⟩
  refine (θ_run _ _ _).mono (fun r h c => ?_) (Cert.ReferenceIdeal.RefVal.run_value m' g' hr')
  obtain ⟨h23, h51, hk⟩ := h c
  obtain ⟨e0, e1, e2, e3, e4, e5, e6, e7, e8, e9, e10⟩ := hagree c
  refine ⟨h23.trans ?_, h51.trans ?_, hk⟩
  · rw [e0, e4, e5, e6, e7, e8, e9]
  · rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
